-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v401) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn {F : FTy → Type} [FloatOps F] (main_arg0 : FVec F S32x1x512x512 .f32) (main_arg1 : FVec F S32x1x512x512 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S32x1x512x512 .f32 := Host.absf main_arg1
  let main_cst_0 : FVec F S_ .f32 := constant S_ .f32 0x7F800000#32
  let main_v5 : FVec F S32x1x512x512 .f32 := broadcastInDim S32x1x512x512 ![] bcast_S_S32x1x512x512 main_cst_0
  let main_v6 : IVec S32x1x512x512 1 := cmpf .olt main_v4 main_v5
  let main_c_1 : IVec S_ 1 := constantI S_ 1 1#1
  let main_v7 : IVec S_ 1 := (fun x v => Host.reduce IntOp.andi x v reducesTo_S32x1x512x512_S_d0_1_2_3 h_S_) main_v6 main_c_1
  let main_v8 : IVec S_ 1 := andi main_v3 main_v7
  main_v8
-- ==== Kernel.lean ====
abbrev S32x1x512x512 : Shape := ⟨4, ![32, 1, 512, 512]⟩
abbrev S32x512x512 : Shape := ⟨3, ![32, 512, 512]⟩
abbrev S16x8x128 : Shape := ⟨3, ![16, 8, 128]⟩
abbrev S2x512x512 : Shape := ⟨3, ![2, 512, 512]⟩
abbrev S1x8x128 : Shape := ⟨3, ![1, 8, 128]⟩
abbrev S1x2x512x512 : Shape := ⟨4, ![1, 2, 512, 512]⟩
abbrev S1 : Shape := ⟨1, ![1]⟩
abbrev S1x1x1x1 : Shape := ⟨4, ![1, 1, 1, 1]⟩
abbrev S_ : Shape := ⟨0, ![]⟩
abbrev S8x128 : Shape := ⟨2, ![8, 128]⟩
abbrev S1x1 : Shape := ⟨2, ![1, 1]⟩

abbrev nBuf : Space → Nat
  | .hbm => 34
  | .vmem => 6
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S32x512x512, .f32⟩
  | .hbm, ⟨3, _⟩ => ⟨S32x512x512, .f32⟩
  | .hbm, ⟨4, _⟩ => ⟨S16x8x128, .f32⟩
  | .hbm, ⟨5, _⟩ => ⟨S_, .f32⟩
  | .hbm, ⟨6, _⟩ => ⟨S8x128, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S1x8x128, .f32⟩
  | .local _ .vmem, ⟨5, _⟩ => ⟨S1x8x128, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c10_i32 : BitVec 32 := 10#32
  let v51 : BitVec 32 := Scalar.addi c0_i32 c10_i32
  let c1_i32_23 : BitVec 32 := 1#32
  ⟨c0_i32, v51, c1_i32_23⟩
@[reducible] def k0_t2_loop : Scf.Loop 32 :=
  let c0_i32_43 : BitVec 32 := 0#32
  let c10_i32_44 : BitVec 32 := 10#32
  let v98 : BitVec 32 := Scalar.addi c0_i32_43 c10_i32_44
  let c1_i32_45 : BitVec 32 := 1#32
  ⟨c0_i32_43, v98, c1_i32_45⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x1x512x512_S32x512x512 : S32x1x512x512.ShapeCasts S32x512x512
  iota_S2x512x512_d1_w32 : S2x512x512.Iotas .tc 32 [1]
  iota_S2x512x512_d2_w32 : S2x512x512.Iotas .tc 32 [2]
  inb_S2x512x512_S2x512x512_0_0_0 : ∀ a, (![0, 0, 0] : Fin 3 → Nat) a + S2x512x512.size a ≤ S2x512x512.size a
  h_S2x512x512 : 0 < S2x512x512.numel
  shapeCasts_S2x512x512_S2x512x512 : S2x512x512.ShapeCasts S2x512x512
  rotates_S2x512x512_d1 : S2x512x512.Rotates 1 none
  rotates_S2x512x512_d2 : S2x512x512.Rotates 2 none
  shapeCasts_S2x512x512_S1x2x512x512 : S2x512x512.ShapeCasts S1x2x512x512
  reduces_S1x2x512x512_S1 : S1x2x512x512.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  iota_S1x8x128_d1_w32 : S1x8x128.Iotas .tc 32 [1]
  iota_S1x8x128_d2_w32 : S1x8x128.Iotas .tc 32 [2]
  inb_S1x8x128_S1x8x128_0_0_0 : ∀ a, (![0, 0, 0] : Fin 3 → Nat) a + S1x8x128.size a ≤ S1x8x128.size a
  h_S1x8x128 : 0 < S1x8x128.numel
  reducesTo_S16x8x128_S8x128_d0 : S16x8x128.ReducesTo [0] S8x128
  h_S_ : 0 < S_.numel
  slices_S8x128_S1x1_0_0 : S8x128.Slices ![0, 0] S1x1
  shapeCasts_S1x1_S_ : S1x1.ShapeCasts S_
  slices_S8x128_S1x1_0_1 : S8x128.Slices ![0, 1] S1x1
  slices_S8x128_S1x1_0_2 : S8x128.Slices ![0, 2] S1x1
  slices_S8x128_S1x1_0_3 : S8x128.Slices ![0, 3] S1x1
  hrank0 : 0 < grid0.rank
  k0_t1_ok : k0_t1_loop.OK
  k0_t2_ok : k0_t2_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S32x512x512.size a
  hwx0_0 : ∀ i : grid0.Coords, EltTy.bits .f32 = 32 ∨ (Rect.block (s := S32x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S32x512x512.size a
  hwx0_1 : ∀ i : grid0.Coords, EltTy.bits .f32 = 32 ∨ (Rect.block (s := S32x512x512) S2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)

variable [Facts₀]

abbrev win0_0 : Pipeline.Window sig grid0 :=
  Pipeline.Window.ofSpec (Memref.whole main_v0) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1x512x512 : Shape := ⟨4, ![32, 1, 512, 512]⟩
abbrev S_ : Shape := ⟨0, ![]⟩

abbrev nBuf : Space → Nat
  | .hbm => 607
  | .vmem => 0
  | .smem => 0
  | _ => 0

abbrev hbmTy0_0 (i : Nat) : BufTy := match i % 128 with
  | 0 => ⟨S32x1x512x512, .f32⟩
  | 1 => ⟨S32x1x512x512, .f32⟩
  | 2 => ⟨S32x1x512x512, .f32⟩
  | 3 => ⟨S32x1x512x512, .f32⟩
  | 4 => ⟨S_, .f32⟩
  | 5 => ⟨S32x1x512x512, .f32⟩
  | 6 => ⟨S32x1x512x512, .f32⟩
  | 7 => ⟨S_, .f32⟩
  | 8 => ⟨S32x1x512x512, .f32⟩
  | 9 => ⟨S32x1x512x512, .f32⟩
  | 10 => ⟨S_, .f32⟩
  | 11 => ⟨S_, .f32⟩
  | 12 => ⟨S32x1x512x512, .f32⟩
  | 13 => ⟨S_, .f32⟩
  | 14 => ⟨S_, .f32⟩
  | 15 => ⟨S32x1x512x512, .f32⟩
  | 16 => ⟨S32x1x512x512, .f32⟩
  | 17 => ⟨S_, .f32⟩
  | 18 => ⟨S_, .f32⟩
  | 19 => ⟨S32x1x512x512, .f32⟩
  | 20 => ⟨S32x1x512x512, .f32⟩
  | 21 => ⟨S_, .f32⟩
  | 22 => ⟨S32x1x512x512, .f32⟩
  | 23 => ⟨S32x1x512x512, .f32⟩
  | 24 => ⟨S_, .f32⟩
  | 25 => ⟨S_, .f32⟩
  | 26 => ⟨S32x1x512x512, .f32⟩
  | 27 => ⟨S_, .f32⟩
  | 28 => ⟨S_, .f32⟩
  | 29 => ⟨S32x1x512x512, .f32⟩
  | 30 => ⟨S32x1x512x512, .f32⟩
  | 31 => ⟨S_, .f32⟩
  | 32 => ⟨S_, .f32⟩
  | 33 => ⟨S32x1x512x512, .f32⟩
  | 34 => ⟨S_, .f32⟩
  | 35 => ⟨S_, .f32⟩
  | 36 => ⟨S32x1x512x512, .f32⟩
  | 37 => ⟨S32x1x512x512, .f32⟩
  | 38 => ⟨S_, .f32⟩
  | 39 => ⟨S_, .f32⟩
  | 40 => ⟨S32x1x512x512, .f32⟩
  | 41 => ⟨S32x1x512x512, .f32⟩
  | 42 => ⟨S_, .f32⟩
  | 43 => ⟨S32x1x512x512, .f32⟩
  | 44 => ⟨S32x1x512x512, .f32⟩
  | 45 => ⟨S32x1x512x512, .f32⟩
  | 46 => ⟨S32x1x512x512, .f32⟩
  | 47 => ⟨S_, .f32⟩
  | 48 => ⟨S32x1x512x512, .f32⟩
  | 49 => ⟨S32x1x512x512, .f32⟩
  | 50 => ⟨S32x1x512x512, .f32⟩
  | 51 => ⟨S_, .f32⟩
  | 52 => ⟨S_, .f32⟩
  | 53 => ⟨S32x1x512x512, .f32⟩
  | 54 => ⟨S_, .f32⟩
  | 55 => ⟨S_, .f32⟩
  | 56 => ⟨S32x1x512x512, .f32⟩
  | 57 => ⟨S32x1x512x512, .f32⟩
  | 58 => ⟨S_, .f32⟩
  | 59 => ⟨S_, .f32⟩
  | 60 => ⟨S32x1x512x512, .f32⟩
  | 61 => ⟨S_, .f32⟩
  | 62 => ⟨S_, .f32⟩
  | 63 => ⟨S32x1x512x512, .f32⟩
  | 64 => ⟨S32x1x512x512, .f32⟩
  | 65 => ⟨S_, .f32⟩
  | 66 => ⟨S_, .f32⟩
  | 67 => ⟨S32x1x512x512, .f32⟩
  | 68 => ⟨S32x1x512x512, .f32⟩
  | 69 => ⟨S_, .f32⟩
  | 70 => ⟨S32x1x512x512, .f32⟩
  | 71 => ⟨S32x1x512x512, .f32⟩
  | 72 => ⟨S32x1x512x512, .f32⟩
  | 73 => ⟨S32x1x512x512, .f32⟩
  | 74 => ⟨S_, .f32⟩
  | 75 => ⟨S32x1x512x512, .f32⟩
  | 76 => ⟨S32x1x512x512, .f32⟩
  | 77 => ⟨S32x1x512x512, .f32⟩
  | 78 => ⟨S_, .f32⟩
  | 79 => ⟨S_, .f32⟩
  | 80 => ⟨S32x1x512x512, .f32⟩
  | 81 => ⟨S_, .f32⟩
  | 82 => ⟨S_, .f32⟩
  | 83 => ⟨S32x1x512x512, .f32⟩
  | 84 => ⟨S32x1x512x512, .f32⟩
  | 85 => ⟨S_, .f32⟩
  | 86 => ⟨S_, .f32⟩
  | 87 => ⟨S32x1x512x512, .f32⟩
  | 88 => ⟨S_, .f32⟩
  | 89 => ⟨S_, .f32⟩
  | 90 => ⟨S32x1x512x512, .f32⟩
  | 91 => ⟨S32x1x512x512, .f32⟩
  | 92 => ⟨S_, .f32⟩
  | 93 => ⟨S_, .f32⟩
  | 94 => ⟨S32x1x512x512, .f32⟩
  | 95 => ⟨S32x1x512x512, .f32⟩
  | 96 => ⟨S_, .f32⟩
  | 97 => ⟨S32x1x512x512, .f32⟩
  | 98 => ⟨S32x1x512x512, .f32⟩
  | 99 => ⟨S32x1x512x512, .f32⟩
  | 100 => ⟨S32x1x512x512, .f32⟩
  | 101 => ⟨S_, .f32⟩
  | 102 => ⟨S32x1x512x512, .f32⟩
  | 103 => ⟨S32x1x512x512, .f32⟩
  | 104 => ⟨S32x1x512x512, .f32⟩
  | 105 => ⟨S_, .f32⟩
  | 106 => ⟨S_, .f32⟩
  | 107 => ⟨S32x1x512x512, .f32⟩
  | 108 => ⟨S_, .f32⟩
  | 109 => ⟨S_, .f32⟩
  | 110 => ⟨S32x1x512x512, .f32⟩
  | 111 => ⟨S32x1x512x512, .f32⟩
  | 112 => ⟨S_, .f32⟩
  | 113 => ⟨S_, .f32⟩
  | 114 => ⟨S32x1x512x512, .f32⟩
  | 115 => ⟨S_, .f32⟩
  | 116 => ⟨S_, .f32⟩
  | 117 => ⟨S32x1x512x512, .f32⟩
  | 118 => ⟨S32x1x512x512, .f32⟩
  | 119 => ⟨S_, .f32⟩
  | 120 => ⟨S_, .f32⟩
  | 121 => ⟨S32x1x512x512, .f32⟩
  | 122 => ⟨S32x1x512x512, .f32⟩
  | 123 => ⟨S_, .f32⟩
  | 124 => ⟨S32x1x512x512, .f32⟩
  | 125 => ⟨S32x1x512x512, .f32⟩
  | 126 => ⟨S32x1x512x512, .f32⟩
  | 127 => ⟨S32x1x512x512, .f32⟩
  | _ => ⟨S32x1x512x512, .f32⟩

abbrev hbmTy0_1 (i : Nat) : BufTy := match i % 128 with
  | 0 => ⟨S_, .f32⟩
  | 1 => ⟨S32x1x512x512, .f32⟩
  | 2 => ⟨S32x1x512x512, .f32⟩
  | 3 => ⟨S32x1x512x512, .f32⟩
  | 4 => ⟨S_, .f32⟩
  | 5 => ⟨S_, .f32⟩
  | 6 => ⟨S32x1x512x512, .f32⟩
  | 7 => ⟨S_, .f32⟩
  | 8 => ⟨S_, .f32⟩
  | 9 => ⟨S32x1x512x512, .f32⟩
  | 10 => ⟨S32x1x512x512, .f32⟩
  | 11 => ⟨S_, .f32⟩
  | 12 => ⟨S_, .f32⟩
  | 13 => ⟨S32x1x512x512, .f32⟩
  | 14 => ⟨S_, .f32⟩
  | 15 => ⟨S_, .f32⟩
  | 16 => ⟨S32x1x512x512, .f32⟩
  | 17 => ⟨S32x1x512x512, .f32⟩
  | 18 => ⟨S_, .f32⟩
  | 19 => ⟨S_, .f32⟩
  | 20 => ⟨S32x1x512x512, .f32⟩
  | 21 => ⟨S32x1x512x512, .f32⟩
  | 22 => ⟨S_, .f32⟩
  | 23 => ⟨S32x1x512x512, .f32⟩
  | 24 => ⟨S32x1x512x512, .f32⟩
  | 25 => ⟨S32x1x512x512, .f32⟩
  | 26 => ⟨S32x1x512x512, .f32⟩
  | 27 => ⟨S_, .f32⟩
  | 28 => ⟨S32x1x512x512, .f32⟩
  | 29 => ⟨S32x1x512x512, .f32⟩
  | 30 => ⟨S32x1x512x512, .f32⟩
  | 31 => ⟨S_, .f32⟩
  | 32 => ⟨S_, .f32⟩
  | 33 => ⟨S32x1x512x512, .f32⟩
  | 34 => ⟨S_, .f32⟩
  | 35 => ⟨S_, .f32⟩
  | 36 => ⟨S32x1x512x512, .f32⟩
  | 37 => ⟨S32x1x512x512, .f32⟩
  | 38 => ⟨S_, .f32⟩
  | 39 => ⟨S_, .f32⟩
  | 40 => ⟨S32x1x512x512, .f32⟩
  | 41 => ⟨S_, .f32⟩
  | 42 => ⟨S_, .f32⟩
  | 43 => ⟨S32x1x512x512, .f32⟩
  | 44 => ⟨S32x1x512x512, .f32⟩
  | 45 => ⟨S_, .f32⟩
  | 46 => ⟨S_, .f32⟩
  | 47 => ⟨S32x1x512x512, .f32⟩
  | 48 => ⟨S32x1x512x512, .f32⟩
  | 49 => ⟨S_, .f32⟩
  | 50 => ⟨S32x1x512x512, .f32⟩
  | 51 => ⟨S32x1x512x512, .f32⟩
  | 52 => ⟨S32x1x512x512, .f32⟩
  | 53 => ⟨S32x1x512x512, .f32⟩
  | 54 => ⟨S_, .f32⟩
  | 55 => ⟨S32x1x512x512, .f32⟩
  | 56 => ⟨S32x1x512x512, .f32⟩
  | 57 => ⟨S32x1x512x512, .f32⟩
  | 58 => ⟨S_, .f32⟩
  | 59 => ⟨S_, .f32⟩
  | 60 => ⟨S32x1x512x512, .f32⟩
  | 61 => ⟨S_, .f32⟩
  | 62 => ⟨S_, .f32⟩
  | 63 => ⟨S32x1x512x512, .f32⟩
  | 64 => ⟨S32x1x512x512, .f32⟩
  | 65 => ⟨S_, .f32⟩
  | 66 => ⟨S_, .f32⟩
  | 67 => ⟨S32x1x512x512, .f32⟩
  | 68 => ⟨S_, .f32⟩
  | 69 => ⟨S_, .f32⟩
  | 70 => ⟨S32x1x512x512, .f32⟩
  | 71 => ⟨S32x1x512x512, .f32⟩
  | 72 => ⟨S_, .f32⟩
  | 73 => ⟨S_, .f32⟩
  | 74 => ⟨S32x1x512x512, .f32⟩
  | 75 => ⟨S32x1x512x512, .f32⟩
  | 76 => ⟨S_, .f32⟩
  | 77 => ⟨S32x1x512x512, .f32⟩
  | 78 => ⟨S32x1x512x512, .f32⟩
  | 79 => ⟨S32x1x512x512, .f32⟩
  | 80 => ⟨S32x1x512x512, .f32⟩
  | 81 => ⟨S_, .f32⟩
  | 82 => ⟨S32x1x512x512, .f32⟩
  | 83 => ⟨S32x1x512x512, .f32⟩
  | 84 => ⟨S32x1x512x512, .f32⟩
  | 85 => ⟨S_, .f32⟩
  | 86 => ⟨S_, .f32⟩
  | 87 => ⟨S32x1x512x512, .f32⟩
  | 88 => ⟨S_, .f32⟩
  | 89 => ⟨S_, .f32⟩
  | 90 => ⟨S32x1x512x512, .f32⟩
  | 91 => ⟨S32x1x512x512, .f32⟩
  | 92 => ⟨S_, .f32⟩
  | 93 => ⟨S_, .f32⟩
  | 94 => ⟨S32x1x512x512, .f32⟩
  | 95 => ⟨S_, .f32⟩
  | 96 => ⟨S_, .f32⟩
  | 97 => ⟨S32x1x512x512, .f32⟩
  | 98 => ⟨S32x1x512x512, .f32⟩
  | 99 => ⟨S_, .f32⟩
  | 100 => ⟨S_, .f32⟩
  | 101 => ⟨S32x1x512x512, .f32⟩
  | 102 => ⟨S32x1x512x512, .f32⟩
  | 103 => ⟨S_, .f32⟩
  | 104 => ⟨S32x1x512x512, .f32⟩
  | 105 => ⟨S32x1x512x512, .f32⟩
  | 106 => ⟨S32x1x512x512, .f32⟩
  | 107 => ⟨S32x1x512x512, .f32⟩
  | 108 => ⟨S_, .f32⟩
  | 109 => ⟨S32x1x512x512, .f32⟩
  | 110 => ⟨S32x1x512x512, .f32⟩
  | 111 => ⟨S32x1x512x512, .f32⟩
  | 112 => ⟨S_, .f32⟩
  | 113 => ⟨S_, .f32⟩
  | 114 => ⟨S32x1x512x512, .f32⟩
  | 115 => ⟨S_, .f32⟩
  | 116 => ⟨S_, .f32⟩
  | 117 => ⟨S32x1x512x512, .f32⟩
  | 118 => ⟨S32x1x512x512, .f32⟩
  | 119 => ⟨S_, .f32⟩
  | 120 => ⟨S_, .f32⟩
  | 121 => ⟨S32x1x512x512, .f32⟩
  | 122 => ⟨S_, .f32⟩
  | 123 => ⟨S_, .f32⟩
  | 124 => ⟨S32x1x512x512, .f32⟩
  | 125 => ⟨S32x1x512x512, .f32⟩
  | 126 => ⟨S_, .f32⟩
  | 127 => ⟨S_, .f32⟩
  | _ => ⟨S32x1x512x512, .f32⟩

abbrev hbmTy0_2 (i : Nat) : BufTy := match i % 128 with
  | 0 => ⟨S32x1x512x512, .f32⟩
  | 1 => ⟨S32x1x512x512, .f32⟩
  | 2 => ⟨S_, .f32⟩
  | 3 => ⟨S32x1x512x512, .f32⟩
  | 4 => ⟨S32x1x512x512, .f32⟩
  | 5 => ⟨S32x1x512x512, .f32⟩
  | 6 => ⟨S32x1x512x512, .f32⟩
  | 7 => ⟨S_, .f32⟩
  | 8 => ⟨S32x1x512x512, .f32⟩
  | 9 => ⟨S32x1x512x512, .f32⟩
  | 10 => ⟨S32x1x512x512, .f32⟩
  | 11 => ⟨S_, .f32⟩
  | 12 => ⟨S_, .f32⟩
  | 13 => ⟨S32x1x512x512, .f32⟩
  | 14 => ⟨S_, .f32⟩
  | 15 => ⟨S_, .f32⟩
  | 16 => ⟨S32x1x512x512, .f32⟩
  | 17 => ⟨S32x1x512x512, .f32⟩
  | 18 => ⟨S_, .f32⟩
  | 19 => ⟨S_, .f32⟩
  | 20 => ⟨S32x1x512x512, .f32⟩
  | 21 => ⟨S_, .f32⟩
  | 22 => ⟨S_, .f32⟩
  | 23 => ⟨S32x1x512x512, .f32⟩
  | 24 => ⟨S32x1x512x512, .f32⟩
  | 25 => ⟨S_, .f32⟩
  | 26 => ⟨S_, .f32⟩
  | 27 => ⟨S32x1x512x512, .f32⟩
  | 28 => ⟨S32x1x512x512, .f32⟩
  | 29 => ⟨S_, .f32⟩
  | 30 => ⟨S32x1x512x512, .f32⟩
  | 31 => ⟨S32x1x512x512, .f32⟩
  | 32 => ⟨S32x1x512x512, .f32⟩
  | 33 => ⟨S32x1x512x512, .f32⟩
  | 34 => ⟨S_, .f32⟩
  | 35 => ⟨S32x1x512x512, .f32⟩
  | 36 => ⟨S32x1x512x512, .f32⟩
  | 37 => ⟨S32x1x512x512, .f32⟩
  | 38 => ⟨S_, .f32⟩
  | 39 => ⟨S_, .f32⟩
  | 40 => ⟨S32x1x512x512, .f32⟩
  | 41 => ⟨S_, .f32⟩
  | 42 => ⟨S_, .f32⟩
  | 43 => ⟨S32x1x512x512, .f32⟩
  | 44 => ⟨S32x1x512x512, .f32⟩
  | 45 => ⟨S_, .f32⟩
  | 46 => ⟨S_, .f32⟩
  | 47 => ⟨S32x1x512x512, .f32⟩
  | 48 => ⟨S32x1x512x512, .f32⟩
  | 49 => ⟨S_, .f32⟩
  | 50 => ⟨S32x1x512x512, .f32⟩
  | 51 => ⟨S32x1x512x512, .f32⟩
  | 52 => ⟨S_, .f32⟩
  | 53 => ⟨S_, .f32⟩
  | 54 => ⟨S32x1x512x512, .f32⟩
  | 55 => ⟨S_, .f32⟩
  | 56 => ⟨S_, .f32⟩
  | 57 => ⟨S32x1x512x512, .f32⟩
  | 58 => ⟨S32x1x512x512, .f32⟩
  | 59 => ⟨S_, .f32⟩
  | 60 => ⟨S_, .f32⟩
  | 61 => ⟨S32x1x512x512, .f32⟩
  | 62 => ⟨S_, .f32⟩
  | 63 => ⟨S_, .f32⟩
  | 64 => ⟨S32x1x512x512, .f32⟩
  | 65 => ⟨S32x1x512x512, .f32⟩
  | 66 => ⟨S_, .f32⟩
  | 67 => ⟨S_, .f32⟩
  | 68 => ⟨S32x1x512x512, .f32⟩
  | 69 => ⟨S32x1x512x512, .f32⟩
  | 70 => ⟨S_, .f32⟩
  | 71 => ⟨S32x1x512x512, .f32⟩
  | 72 => ⟨S32x1x512x512, .f32⟩
  | 73 => ⟨S32x1x512x512, .f32⟩
  | 74 => ⟨S32x1x512x512, .f32⟩
  | 75 => ⟨S_, .f32⟩
  | 76 => ⟨S32x1x512x512, .f32⟩
  | 77 => ⟨S32x1x512x512, .f32⟩
  | 78 => ⟨S32x1x512x512, .f32⟩
  | 79 => ⟨S_, .f32⟩
  | 80 => ⟨S_, .f32⟩
  | 81 => ⟨S32x1x512x512, .f32⟩
  | 82 => ⟨S_, .f32⟩
  | 83 => ⟨S_, .f32⟩
  | 84 => ⟨S32x1x512x512, .f32⟩
  | 85 => ⟨S32x1x512x512, .f32⟩
  | 86 => ⟨S_, .f32⟩
  | 87 => ⟨S_, .f32⟩
  | 88 => ⟨S32x1x512x512, .f32⟩
  | 89 => ⟨S_, .f32⟩
  | 90 => ⟨S_, .f32⟩
  | 91 => ⟨S32x1x512x512, .f32⟩
  | 92 => ⟨S32x1x512x512, .f32⟩
  | 93 => ⟨S_, .f32⟩
  | 94 => ⟨S_, .f32⟩
  | 95 => ⟨S32x1x512x512, .f32⟩
  | 96 => ⟨S32x1x512x512, .f32⟩
  | 97 => ⟨S_, .f32⟩
  | 98 => ⟨S32x1x512x512, .f32⟩
  | 99 => ⟨S32x1x512x512, .f32⟩
  | 100 => ⟨S32x1x512x512, .f32⟩
  | 101 => ⟨S32x1x512x512, .f32⟩
  | 102 => ⟨S_, .f32⟩
  | 103 => ⟨S32x1x512x512, .f32⟩
  | 104 => ⟨S32x1x512x512, .f32⟩
  | 105 => ⟨S32x1x512x512, .f32⟩
  | 106 => ⟨S_, .f32⟩
  | 107 => ⟨S_, .f32⟩
  | 108 => ⟨S32x1x512x512, .f32⟩
  | 109 => ⟨S_, .f32⟩
  | 110 => ⟨S_, .f32⟩
  | 111 => ⟨S32x1x512x512, .f32⟩
  | 112 => ⟨S32x1x512x512, .f32⟩
  | 113 => ⟨S_, .f32⟩
  | 114 => ⟨S_, .f32⟩
  | 115 => ⟨S32x1x512x512, .f32⟩
  | 116 => ⟨S_, .f32⟩
  | 117 => ⟨S_, .f32⟩
  | 118 => ⟨S32x1x512x512, .f32⟩
  | 119 => ⟨S32x1x512x512, .f32⟩
  | 120 => ⟨S_, .f32⟩
  | 121 => ⟨S_, .f32⟩
  | 122 => ⟨S32x1x512x512, .f32⟩
  | 123 => ⟨S32x1x512x512, .f32⟩
  | 124 => ⟨S_, .f32⟩
  | 125 => ⟨S32x1x512x512, .f32⟩
  | 126 => ⟨S32x1x512x512, .f32⟩
  | 127 => ⟨S32x1x512x512, .f32⟩
  | _ => ⟨S32x1x512x512, .f32⟩

abbrev hbmTy0_3 (i : Nat) : BufTy := match i % 128 with
  | 0 => ⟨S32x1x512x512, .f32⟩
  | 1 => ⟨S_, .f32⟩
  | 2 => ⟨S32x1x512x512, .f32⟩
  | 3 => ⟨S32x1x512x512, .f32⟩
  | 4 => ⟨S32x1x512x512, .f32⟩
  | 5 => ⟨S_, .f32⟩
  | 6 => ⟨S_, .f32⟩
  | 7 => ⟨S32x1x512x512, .f32⟩
  | 8 => ⟨S_, .f32⟩
  | 9 => ⟨S_, .f32⟩
  | 10 => ⟨S32x1x512x512, .f32⟩
  | 11 => ⟨S32x1x512x512, .f32⟩
  | 12 => ⟨S_, .f32⟩
  | 13 => ⟨S_, .f32⟩
  | 14 => ⟨S32x1x512x512, .f32⟩
  | 15 => ⟨S_, .f32⟩
  | 16 => ⟨S_, .f32⟩
  | 17 => ⟨S32x1x512x512, .f32⟩
  | 18 => ⟨S32x1x512x512, .f32⟩
  | 19 => ⟨S_, .f32⟩
  | 20 => ⟨S_, .f32⟩
  | 21 => ⟨S32x1x512x512, .f32⟩
  | 22 => ⟨S32x1x512x512, .f32⟩
  | 23 => ⟨S_, .f32⟩
  | 24 => ⟨S32x1x512x512, .f32⟩
  | 25 => ⟨S32x1x512x512, .f32⟩
  | 26 => ⟨S32x1x512x512, .f32⟩
  | 27 => ⟨S32x1x512x512, .f32⟩
  | 28 => ⟨S_, .f32⟩
  | 29 => ⟨S32x1x512x512, .f32⟩
  | 30 => ⟨S32x1x512x512, .f32⟩
  | 31 => ⟨S32x1x512x512, .f32⟩
  | 32 => ⟨S_, .f32⟩
  | 33 => ⟨S_, .f32⟩
  | 34 => ⟨S32x1x512x512, .f32⟩
  | 35 => ⟨S_, .f32⟩
  | 36 => ⟨S_, .f32⟩
  | 37 => ⟨S32x1x512x512, .f32⟩
  | 38 => ⟨S32x1x512x512, .f32⟩
  | 39 => ⟨S_, .f32⟩
  | 40 => ⟨S_, .f32⟩
  | 41 => ⟨S32x1x512x512, .f32⟩
  | 42 => ⟨S_, .f32⟩
  | 43 => ⟨S_, .f32⟩
  | 44 => ⟨S32x1x512x512, .f32⟩
  | 45 => ⟨S32x1x512x512, .f32⟩
  | 46 => ⟨S_, .f32⟩
  | 47 => ⟨S_, .f32⟩
  | 48 => ⟨S32x1x512x512, .f32⟩
  | 49 => ⟨S32x1x512x512, .f32⟩
  | 50 => ⟨S_, .f32⟩
  | 51 => ⟨S32x1x512x512, .f32⟩
  | 52 => ⟨S32x1x512x512, .f32⟩
  | 53 => ⟨S32x1x512x512, .f32⟩
  | 54 => ⟨S32x1x512x512, .f32⟩
  | 55 => ⟨S_, .f32⟩
  | 56 => ⟨S32x1x512x512, .f32⟩
  | 57 => ⟨S32x1x512x512, .f32⟩
  | 58 => ⟨S32x1x512x512, .f32⟩
  | 59 => ⟨S_, .f32⟩
  | 60 => ⟨S_, .f32⟩
  | 61 => ⟨S32x1x512x512, .f32⟩
  | 62 => ⟨S_, .f32⟩
  | 63 => ⟨S_, .f32⟩
  | 64 => ⟨S32x1x512x512, .f32⟩
  | 65 => ⟨S32x1x512x512, .f32⟩
  | 66 => ⟨S_, .f32⟩
  | 67 => ⟨S_, .f32⟩
  | 68 => ⟨S32x1x512x512, .f32⟩
  | 69 => ⟨S_, .f32⟩
  | 70 => ⟨S_, .f32⟩
  | 71 => ⟨S32x1x512x512, .f32⟩
  | 72 => ⟨S32x1x512x512, .f32⟩
  | 73 => ⟨S_, .f32⟩
  | 74 => ⟨S_, .f32⟩
  | 75 => ⟨S32x1x512x512, .f32⟩
  | 76 => ⟨S32x1x512x512, .f32⟩
  | 77 => ⟨S_, .f32⟩
  | 78 => ⟨S32x1x512x512, .f32⟩
  | 79 => ⟨S32x1x512x512, .f32⟩
  | 80 => ⟨S32x1x512x512, .f32⟩
  | 81 => ⟨S32x1x512x512, .f32⟩
  | 82 => ⟨S_, .f32⟩
  | 83 => ⟨S32x1x512x512, .f32⟩
  | 84 => ⟨S32x1x512x512, .f32⟩
  | 85 => ⟨S32x1x512x512, .f32⟩
  | 86 => ⟨S_, .f32⟩
  | 87 => ⟨S_, .f32⟩
  | 88 => ⟨S32x1x512x512, .f32⟩
  | 89 => ⟨S_, .f32⟩
  | 90 => ⟨S_, .f32⟩
  | 91 => ⟨S32x1x512x512, .f32⟩
  | 92 => ⟨S32x1x512x512, .f32⟩
  | 93 => ⟨S_, .f32⟩
  | 94 => ⟨S_, .f32⟩
  | 95 => ⟨S32x1x512x512, .f32⟩
  | 96 => ⟨S_, .f32⟩
  | 97 => ⟨S_, .f32⟩
  | 98 => ⟨S32x1x512x512, .f32⟩
  | 99 => ⟨S32x1x512x512, .f32⟩
  | 100 => ⟨S_, .f32⟩
  | 101 => ⟨S_, .f32⟩
  | 102 => ⟨S32x1x512x512, .f32⟩
  | 103 => ⟨S32x1x512x512, .f32⟩
  | 104 => ⟨S_, .f32⟩
  | 105 => ⟨S32x1x512x512, .f32⟩
  | 106 => ⟨S32x1x512x512, .f32⟩
  | 107 => ⟨S32x1x512x512, .f32⟩
  | 108 => ⟨S32x1x512x512, .f32⟩
  | 109 => ⟨S_, .f32⟩
  | 110 => ⟨S32x1x512x512, .f32⟩
  | 111 => ⟨S32x1x512x512, .f32⟩
  | 112 => ⟨S32x1x512x512, .f32⟩
  | 113 => ⟨S_, .f32⟩
  | 114 => ⟨S_, .f32⟩
  | 115 => ⟨S32x1x512x512, .f32⟩
  | 116 => ⟨S_, .f32⟩
  | 117 => ⟨S_, .f32⟩
  | 118 => ⟨S32x1x512x512, .f32⟩
  | 119 => ⟨S32x1x512x512, .f32⟩
  | 120 => ⟨S_, .f32⟩
  | 121 => ⟨S_, .f32⟩
  | 122 => ⟨S32x1x512x512, .f32⟩
  | 123 => ⟨S_, .f32⟩
  | 124 => ⟨S_, .f32⟩
  | 125 => ⟨S32x1x512x512, .f32⟩
  | 126 => ⟨S32x1x512x512, .f32⟩
  | 127 => ⟨S_, .f32⟩
  | _ => ⟨S32x1x512x512, .f32⟩

abbrev hbmTy0_4 (i : Nat) : BufTy := match i % 128 with
  | 0 => ⟨S_, .f32⟩
  | 1 => ⟨S32x1x512x512, .f32⟩
  | 2 => ⟨S32x1x512x512, .f32⟩
  | 3 => ⟨S_, .f32⟩
  | 4 => ⟨S32x1x512x512, .f32⟩
  | 5 => ⟨S32x1x512x512, .f32⟩
  | 6 => ⟨S32x1x512x512, .f32⟩
  | 7 => ⟨S32x1x512x512, .f32⟩
  | 8 => ⟨S_, .f32⟩
  | 9 => ⟨S32x1x512x512, .f32⟩
  | 10 => ⟨S32x1x512x512, .f32⟩
  | 11 => ⟨S32x1x512x512, .f32⟩
  | 12 => ⟨S_, .f32⟩
  | 13 => ⟨S_, .f32⟩
  | 14 => ⟨S32x1x512x512, .f32⟩
  | 15 => ⟨S_, .f32⟩
  | 16 => ⟨S_, .f32⟩
  | 17 => ⟨S32x1x512x512, .f32⟩
  | 18 => ⟨S32x1x512x512, .f32⟩
  | 19 => ⟨S_, .f32⟩
  | 20 => ⟨S_, .f32⟩
  | 21 => ⟨S32x1x512x512, .f32⟩
  | 22 => ⟨S_, .f32⟩
  | 23 => ⟨S_, .f32⟩
  | 24 => ⟨S32x1x512x512, .f32⟩
  | 25 => ⟨S32x1x512x512, .f32⟩
  | 26 => ⟨S_, .f32⟩
  | 27 => ⟨S_, .f32⟩
  | 28 => ⟨S32x1x512x512, .f32⟩
  | 29 => ⟨S32x1x512x512, .f32⟩
  | 30 => ⟨S_, .f32⟩
  | 31 => ⟨S32x1x512x512, .f32⟩
  | 32 => ⟨S32x1x512x512, .f32⟩
  | 33 => ⟨S32x1x512x512, .f32⟩
  | 34 => ⟨S32x1x512x512, .f32⟩
  | 35 => ⟨S_, .f32⟩
  | 36 => ⟨S32x1x512x512, .f32⟩
  | 37 => ⟨S32x1x512x512, .f32⟩
  | 38 => ⟨S32x1x512x512, .f32⟩
  | 39 => ⟨S_, .f32⟩
  | 40 => ⟨S_, .f32⟩
  | 41 => ⟨S32x1x512x512, .f32⟩
  | 42 => ⟨S_, .f32⟩
  | 43 => ⟨S_, .f32⟩
  | 44 => ⟨S32x1x512x512, .f32⟩
  | 45 => ⟨S32x1x512x512, .f32⟩
  | 46 => ⟨S_, .f32⟩
  | 47 => ⟨S_, .f32⟩
  | 48 => ⟨S32x1x512x512, .f32⟩
  | 49 => ⟨S_, .f32⟩
  | 50 => ⟨S_, .f32⟩
  | 51 => ⟨S32x1x512x512, .f32⟩
  | 52 => ⟨S32x1x512x512, .f32⟩
  | 53 => ⟨S_, .f32⟩
  | 54 => ⟨S_, .f32⟩
  | 55 => ⟨S32x1x512x512, .f32⟩
  | 56 => ⟨S32x1x512x512, .f32⟩
  | 57 => ⟨S_, .f32⟩
  | 58 => ⟨S32x1x512x512, .f32⟩
  | 59 => ⟨S32x1x512x512, .f32⟩
  | 60 => ⟨S32x1x512x512, .f32⟩
  | 61 => ⟨S32x1x512x512, .f32⟩
  | 62 => ⟨S_, .f32⟩
  | 63 => ⟨S32x1x512x512, .f32⟩
  | 64 => ⟨S32x1x512x512, .f32⟩
  | 65 => ⟨S32x1x512x512, .f32⟩
  | 66 => ⟨S32x1x512x512, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S32x1x512x512, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | _ => ⟨S32x1x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x1x512x512, .f32⟩

abbrev bufTy : (tb : Table) → Fin (tcTables nBuf tb) → BufTy
  | .hbm, ⟨i, _⟩ => hbmTy i
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call1_cst : Ref sig .tc := ⟨.hbm, 42, rfl⟩
abbrev main_call1_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call2_cst : Ref sig .tc := ⟨.hbm, 47, rfl⟩
abbrev main_call2_v0 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_cst_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_11 : Ref sig .tc := ⟨.hbm, 58, rfl⟩
abbrev main_v38 : Ref sig .tc := ⟨.hbm, 59, rfl⟩
abbrev main_v39 : Ref sig .tc := ⟨.hbm, 60, rfl⟩
abbrev main_cst_12 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_13 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call3_cst : Ref sig .tc := ⟨.hbm, 69, rfl⟩
abbrev main_call3_v0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call4_cst : Ref sig .tc := ⟨.hbm, 74, rfl⟩
abbrev main_call4_v0 : Ref sig .tc := ⟨.hbm, 75, rfl⟩
abbrev main_v49 : Ref sig .tc := ⟨.hbm, 76, rfl⟩
abbrev main_v50 : Ref sig .tc := ⟨.hbm, 77, rfl⟩
abbrev main_cst_14 : Ref sig .tc := ⟨.hbm, 78, rfl⟩
abbrev main_v51 : Ref sig .tc := ⟨.hbm, 79, rfl⟩
abbrev main_v52 : Ref sig .tc := ⟨.hbm, 80, rfl⟩
abbrev main_cst_15 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_16 : Ref sig .tc := ⟨.hbm, 85, rfl⟩
abbrev main_v56 : Ref sig .tc := ⟨.hbm, 86, rfl⟩
abbrev main_v57 : Ref sig .tc := ⟨.hbm, 87, rfl⟩
abbrev main_cst_17 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_18 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call5_cst : Ref sig .tc := ⟨.hbm, 96, rfl⟩
abbrev main_call5_v0 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call6_cst : Ref sig .tc := ⟨.hbm, 101, rfl⟩
abbrev main_call6_v0 : Ref sig .tc := ⟨.hbm, 102, rfl⟩
abbrev main_v67 : Ref sig .tc := ⟨.hbm, 103, rfl⟩
abbrev main_v68 : Ref sig .tc := ⟨.hbm, 104, rfl⟩
abbrev main_cst_19 : Ref sig .tc := ⟨.hbm, 105, rfl⟩
abbrev main_v69 : Ref sig .tc := ⟨.hbm, 106, rfl⟩
abbrev main_v70 : Ref sig .tc := ⟨.hbm, 107, rfl⟩
abbrev main_cst_20 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_21 : Ref sig .tc := ⟨.hbm, 112, rfl⟩
abbrev main_v74 : Ref sig .tc := ⟨.hbm, 113, rfl⟩
abbrev main_v75 : Ref sig .tc := ⟨.hbm, 114, rfl⟩
abbrev main_cst_22 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_23 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_call7_cst : Ref sig .tc := ⟨.hbm, 123, rfl⟩
abbrev main_call7_v0 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_call8_cst : Ref sig .tc := ⟨.hbm, 128, rfl⟩
abbrev main_call8_v0 : Ref sig .tc := ⟨.hbm, 129, rfl⟩
abbrev main_v85 : Ref sig .tc := ⟨.hbm, 130, rfl⟩
abbrev main_v86 : Ref sig .tc := ⟨.hbm, 131, rfl⟩
abbrev main_cst_24 : Ref sig .tc := ⟨.hbm, 132, rfl⟩
abbrev main_v87 : Ref sig .tc := ⟨.hbm, 133, rfl⟩
abbrev main_v88 : Ref sig .tc := ⟨.hbm, 134, rfl⟩
abbrev main_cst_25 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_26 : Ref sig .tc := ⟨.hbm, 139, rfl⟩
abbrev main_v92 : Ref sig .tc := ⟨.hbm, 140, rfl⟩
abbrev main_v93 : Ref sig .tc := ⟨.hbm, 141, rfl⟩
abbrev main_cst_27 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_cst_28 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_call9_cst : Ref sig .tc := ⟨.hbm, 150, rfl⟩
abbrev main_call9_v0 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_call10_cst : Ref sig .tc := ⟨.hbm, 155, rfl⟩
abbrev main_call10_v0 : Ref sig .tc := ⟨.hbm, 156, rfl⟩
abbrev main_v103 : Ref sig .tc := ⟨.hbm, 157, rfl⟩
abbrev main_v104 : Ref sig .tc := ⟨.hbm, 158, rfl⟩
abbrev main_cst_29 : Ref sig .tc := ⟨.hbm, 159, rfl⟩
abbrev main_v105 : Ref sig .tc := ⟨.hbm, 160, rfl⟩
abbrev main_v106 : Ref sig .tc := ⟨.hbm, 161, rfl⟩
abbrev main_cst_30 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_cst_31 : Ref sig .tc := ⟨.hbm, 166, rfl⟩
abbrev main_v110 : Ref sig .tc := ⟨.hbm, 167, rfl⟩
abbrev main_v111 : Ref sig .tc := ⟨.hbm, 168, rfl⟩
abbrev main_cst_32 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_cst_33 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_call11_cst : Ref sig .tc := ⟨.hbm, 177, rfl⟩
abbrev main_call11_v0 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_call12_cst : Ref sig .tc := ⟨.hbm, 182, rfl⟩
abbrev main_call12_v0 : Ref sig .tc := ⟨.hbm, 183, rfl⟩
abbrev main_v121 : Ref sig .tc := ⟨.hbm, 184, rfl⟩
abbrev main_v122 : Ref sig .tc := ⟨.hbm, 185, rfl⟩
abbrev main_cst_34 : Ref sig .tc := ⟨.hbm, 186, rfl⟩
abbrev main_v123 : Ref sig .tc := ⟨.hbm, 187, rfl⟩
abbrev main_v124 : Ref sig .tc := ⟨.hbm, 188, rfl⟩
abbrev main_cst_35 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_36 : Ref sig .tc := ⟨.hbm, 193, rfl⟩
abbrev main_v128 : Ref sig .tc := ⟨.hbm, 194, rfl⟩
abbrev main_v129 : Ref sig .tc := ⟨.hbm, 195, rfl⟩
abbrev main_cst_37 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_cst_38 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_call13_cst : Ref sig .tc := ⟨.hbm, 204, rfl⟩
abbrev main_call13_v0 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_call14_cst : Ref sig .tc := ⟨.hbm, 209, rfl⟩
abbrev main_call14_v0 : Ref sig .tc := ⟨.hbm, 210, rfl⟩
abbrev main_v139 : Ref sig .tc := ⟨.hbm, 211, rfl⟩
abbrev main_v140 : Ref sig .tc := ⟨.hbm, 212, rfl⟩
abbrev main_cst_39 : Ref sig .tc := ⟨.hbm, 213, rfl⟩
abbrev main_v141 : Ref sig .tc := ⟨.hbm, 214, rfl⟩
abbrev main_v142 : Ref sig .tc := ⟨.hbm, 215, rfl⟩
abbrev main_cst_40 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_cst_41 : Ref sig .tc := ⟨.hbm, 220, rfl⟩
abbrev main_v146 : Ref sig .tc := ⟨.hbm, 221, rfl⟩
abbrev main_v147 : Ref sig .tc := ⟨.hbm, 222, rfl⟩
abbrev main_cst_42 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_cst_43 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_call15_cst : Ref sig .tc := ⟨.hbm, 231, rfl⟩
abbrev main_call15_v0 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_call16_cst : Ref sig .tc := ⟨.hbm, 236, rfl⟩
abbrev main_call16_v0 : Ref sig .tc := ⟨.hbm, 237, rfl⟩
abbrev main_v157 : Ref sig .tc := ⟨.hbm, 238, rfl⟩
abbrev main_v158 : Ref sig .tc := ⟨.hbm, 239, rfl⟩
abbrev main_cst_44 : Ref sig .tc := ⟨.hbm, 240, rfl⟩
abbrev main_v159 : Ref sig .tc := ⟨.hbm, 241, rfl⟩
abbrev main_v160 : Ref sig .tc := ⟨.hbm, 242, rfl⟩
abbrev main_cst_45 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_cst_46 : Ref sig .tc := ⟨.hbm, 247, rfl⟩
abbrev main_v164 : Ref sig .tc := ⟨.hbm, 248, rfl⟩
abbrev main_v165 : Ref sig .tc := ⟨.hbm, 249, rfl⟩
abbrev main_cst_47 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_cst_48 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_call17_cst : Ref sig .tc := ⟨.hbm, 258, rfl⟩
abbrev main_call17_v0 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_call18_cst : Ref sig .tc := ⟨.hbm, 263, rfl⟩
abbrev main_call18_v0 : Ref sig .tc := ⟨.hbm, 264, rfl⟩
abbrev main_v175 : Ref sig .tc := ⟨.hbm, 265, rfl⟩
abbrev main_v176 : Ref sig .tc := ⟨.hbm, 266, rfl⟩
abbrev main_cst_49 : Ref sig .tc := ⟨.hbm, 267, rfl⟩
abbrev main_v177 : Ref sig .tc := ⟨.hbm, 268, rfl⟩
abbrev main_v178 : Ref sig .tc := ⟨.hbm, 269, rfl⟩
abbrev main_cst_50 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_cst_51 : Ref sig .tc := ⟨.hbm, 274, rfl⟩
abbrev main_v182 : Ref sig .tc := ⟨.hbm, 275, rfl⟩
abbrev main_v183 : Ref sig .tc := ⟨.hbm, 276, rfl⟩
abbrev main_cst_52 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_cst_53 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_call19_cst : Ref sig .tc := ⟨.hbm, 285, rfl⟩
abbrev main_call19_v0 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_call20_cst : Ref sig .tc := ⟨.hbm, 290, rfl⟩
abbrev main_call20_v0 : Ref sig .tc := ⟨.hbm, 291, rfl⟩
abbrev main_v193 : Ref sig .tc := ⟨.hbm, 292, rfl⟩
abbrev main_v194 : Ref sig .tc := ⟨.hbm, 293, rfl⟩
abbrev main_cst_54 : Ref sig .tc := ⟨.hbm, 294, rfl⟩
abbrev main_v195 : Ref sig .tc := ⟨.hbm, 295, rfl⟩
abbrev main_v196 : Ref sig .tc := ⟨.hbm, 296, rfl⟩
abbrev main_cst_55 : Ref sig .tc := ⟨.hbm, 297, rfl⟩
abbrev main_v197 : Ref sig .tc := ⟨.hbm, 298, rfl⟩
abbrev main_v198 : Ref sig .tc := ⟨.hbm, 299, rfl⟩
abbrev main_v199 : Ref sig .tc := ⟨.hbm, 300, rfl⟩
abbrev main_cst_56 : Ref sig .tc := ⟨.hbm, 301, rfl⟩
abbrev main_v200 : Ref sig .tc := ⟨.hbm, 302, rfl⟩
abbrev main_v201 : Ref sig .tc := ⟨.hbm, 303, rfl⟩
abbrev main_v202 : Ref sig .tc := ⟨.hbm, 304, rfl⟩
abbrev main_call21_cst : Ref sig .tc := ⟨.hbm, 305, rfl⟩
abbrev main_call21_v0 : Ref sig .tc := ⟨.hbm, 306, rfl⟩
abbrev main_v203 : Ref sig .tc := ⟨.hbm, 307, rfl⟩
abbrev main_cst_57 : Ref sig .tc := ⟨.hbm, 308, rfl⟩
abbrev main_v204 : Ref sig .tc := ⟨.hbm, 309, rfl⟩
abbrev main_v205 : Ref sig .tc := ⟨.hbm, 310, rfl⟩
abbrev main_cst_58 : Ref sig .tc := ⟨.hbm, 311, rfl⟩
abbrev main_v206 : Ref sig .tc := ⟨.hbm, 312, rfl⟩
abbrev main_v207 : Ref sig .tc := ⟨.hbm, 313, rfl⟩
abbrev main_v208 : Ref sig .tc := ⟨.hbm, 314, rfl⟩
abbrev main_cst_59 : Ref sig .tc := ⟨.hbm, 315, rfl⟩
abbrev main_v209 : Ref sig .tc := ⟨.hbm, 316, rfl⟩
abbrev main_v210 : Ref sig .tc := ⟨.hbm, 317, rfl⟩
abbrev main_cst_60 : Ref sig .tc := ⟨.hbm, 318, rfl⟩
abbrev main_v211 : Ref sig .tc := ⟨.hbm, 319, rfl⟩
abbrev main_v212 : Ref sig .tc := ⟨.hbm, 320, rfl⟩
abbrev main_v213 : Ref sig .tc := ⟨.hbm, 321, rfl⟩
abbrev main_cst_61 : Ref sig .tc := ⟨.hbm, 322, rfl⟩
abbrev main_v214 : Ref sig .tc := ⟨.hbm, 323, rfl⟩
abbrev main_v215 : Ref sig .tc := ⟨.hbm, 324, rfl⟩
abbrev main_v216 : Ref sig .tc := ⟨.hbm, 325, rfl⟩
abbrev main_call22_cst : Ref sig .tc := ⟨.hbm, 326, rfl⟩
abbrev main_call22_v0 : Ref sig .tc := ⟨.hbm, 327, rfl⟩
abbrev main_v217 : Ref sig .tc := ⟨.hbm, 328, rfl⟩
abbrev main_v218 : Ref sig .tc := ⟨.hbm, 329, rfl⟩
abbrev main_v219 : Ref sig .tc := ⟨.hbm, 330, rfl⟩
abbrev main_call23_cst : Ref sig .tc := ⟨.hbm, 331, rfl⟩
abbrev main_call23_v0 : Ref sig .tc := ⟨.hbm, 332, rfl⟩
abbrev main_v220 : Ref sig .tc := ⟨.hbm, 333, rfl⟩
abbrev main_v221 : Ref sig .tc := ⟨.hbm, 334, rfl⟩
abbrev main_cst_62 : Ref sig .tc := ⟨.hbm, 335, rfl⟩
abbrev main_v222 : Ref sig .tc := ⟨.hbm, 336, rfl⟩
abbrev main_v223 : Ref sig .tc := ⟨.hbm, 337, rfl⟩
abbrev main_cst_63 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩
abbrev main_cst_64 : Ref sig .tc := ⟨.hbm, 342, rfl⟩
abbrev main_v227 : Ref sig .tc := ⟨.hbm, 343, rfl⟩
abbrev main_v228 : Ref sig .tc := ⟨.hbm, 344, rfl⟩
abbrev main_cst_65 : Ref sig .tc := ⟨.hbm, 345, rfl⟩
abbrev main_v229 : Ref sig .tc := ⟨.hbm, 346, rfl⟩
abbrev main_v230 : Ref sig .tc := ⟨.hbm, 347, rfl⟩
abbrev main_v231 : Ref sig .tc := ⟨.hbm, 348, rfl⟩
abbrev main_cst_66 : Ref sig .tc := ⟨.hbm, 349, rfl⟩
abbrev main_v232 : Ref sig .tc := ⟨.hbm, 350, rfl⟩
abbrev main_v233 : Ref sig .tc := ⟨.hbm, 351, rfl⟩
abbrev main_v234 : Ref sig .tc := ⟨.hbm, 352, rfl⟩
abbrev main_call24_cst : Ref sig .tc := ⟨.hbm, 353, rfl⟩
abbrev main_call24_v0 : Ref sig .tc := ⟨.hbm, 354, rfl⟩
abbrev main_v235 : Ref sig .tc := ⟨.hbm, 355, rfl⟩
abbrev main_v236 : Ref sig .tc := ⟨.hbm, 356, rfl⟩
abbrev main_v237 : Ref sig .tc := ⟨.hbm, 357, rfl⟩
abbrev main_call25_cst : Ref sig .tc := ⟨.hbm, 358, rfl⟩
abbrev main_call25_v0 : Ref sig .tc := ⟨.hbm, 359, rfl⟩
abbrev main_v238 : Ref sig .tc := ⟨.hbm, 360, rfl⟩
abbrev main_v239 : Ref sig .tc := ⟨.hbm, 361, rfl⟩
abbrev main_cst_67 : Ref sig .tc := ⟨.hbm, 362, rfl⟩
abbrev main_v240 : Ref sig .tc := ⟨.hbm, 363, rfl⟩
abbrev main_v241 : Ref sig .tc := ⟨.hbm, 364, rfl⟩
abbrev main_cst_68 : Ref sig .tc := ⟨.hbm, 365, rfl⟩
abbrev main_v242 : Ref sig .tc := ⟨.hbm, 366, rfl⟩
abbrev main_v243 : Ref sig .tc := ⟨.hbm, 367, rfl⟩
abbrev main_v244 : Ref sig .tc := ⟨.hbm, 368, rfl⟩
abbrev main_cst_69 : Ref sig .tc := ⟨.hbm, 369, rfl⟩
abbrev main_v245 : Ref sig .tc := ⟨.hbm, 370, rfl⟩
abbrev main_v246 : Ref sig .tc := ⟨.hbm, 371, rfl⟩
abbrev main_cst_70 : Ref sig .tc := ⟨.hbm, 372, rfl⟩
abbrev main_v247 : Ref sig .tc := ⟨.hbm, 373, rfl⟩
abbrev main_v248 : Ref sig .tc := ⟨.hbm, 374, rfl⟩
abbrev main_v249 : Ref sig .tc := ⟨.hbm, 375, rfl⟩
abbrev main_cst_71 : Ref sig .tc := ⟨.hbm, 376, rfl⟩
abbrev main_v250 : Ref sig .tc := ⟨.hbm, 377, rfl⟩
abbrev main_v251 : Ref sig .tc := ⟨.hbm, 378, rfl⟩
abbrev main_v252 : Ref sig .tc := ⟨.hbm, 379, rfl⟩
abbrev main_call26_cst : Ref sig .tc := ⟨.hbm, 380, rfl⟩
abbrev main_call26_v0 : Ref sig .tc := ⟨.hbm, 381, rfl⟩
abbrev main_v253 : Ref sig .tc := ⟨.hbm, 382, rfl⟩
abbrev main_v254 : Ref sig .tc := ⟨.hbm, 383, rfl⟩
abbrev main_v255 : Ref sig .tc := ⟨.hbm, 384, rfl⟩
abbrev main_call27_cst : Ref sig .tc := ⟨.hbm, 385, rfl⟩
abbrev main_call27_v0 : Ref sig .tc := ⟨.hbm, 386, rfl⟩
abbrev main_v256 : Ref sig .tc := ⟨.hbm, 387, rfl⟩
abbrev main_v257 : Ref sig .tc := ⟨.hbm, 388, rfl⟩
abbrev main_cst_72 : Ref sig .tc := ⟨.hbm, 389, rfl⟩
abbrev main_v258 : Ref sig .tc := ⟨.hbm, 390, rfl⟩
abbrev main_v259 : Ref sig .tc := ⟨.hbm, 391, rfl⟩
abbrev main_cst_73 : Ref sig .tc := ⟨.hbm, 392, rfl⟩
abbrev main_v260 : Ref sig .tc := ⟨.hbm, 393, rfl⟩
abbrev main_v261 : Ref sig .tc := ⟨.hbm, 394, rfl⟩
abbrev main_v262 : Ref sig .tc := ⟨.hbm, 395, rfl⟩
abbrev main_cst_74 : Ref sig .tc := ⟨.hbm, 396, rfl⟩
abbrev main_v263 : Ref sig .tc := ⟨.hbm, 397, rfl⟩
abbrev main_v264 : Ref sig .tc := ⟨.hbm, 398, rfl⟩
abbrev main_cst_75 : Ref sig .tc := ⟨.hbm, 399, rfl⟩
abbrev main_v265 : Ref sig .tc := ⟨.hbm, 400, rfl⟩
abbrev main_v266 : Ref sig .tc := ⟨.hbm, 401, rfl⟩
abbrev main_v267 : Ref sig .tc := ⟨.hbm, 402, rfl⟩
abbrev main_cst_76 : Ref sig .tc := ⟨.hbm, 403, rfl⟩
abbrev main_v268 : Ref sig .tc := ⟨.hbm, 404, rfl⟩
abbrev main_v269 : Ref sig .tc := ⟨.hbm, 405, rfl⟩
abbrev main_v270 : Ref sig .tc := ⟨.hbm, 406, rfl⟩
abbrev main_call28_cst : Ref sig .tc := ⟨.hbm, 407, rfl⟩
abbrev main_call28_v0 : Ref sig .tc := ⟨.hbm, 408, rfl⟩
abbrev main_v271 : Ref sig .tc := ⟨.hbm, 409, rfl⟩
abbrev main_v272 : Ref sig .tc := ⟨.hbm, 410, rfl⟩
abbrev main_v273 : Ref sig .tc := ⟨.hbm, 411, rfl⟩
abbrev main_call29_cst : Ref sig .tc := ⟨.hbm, 412, rfl⟩
abbrev main_call29_v0 : Ref sig .tc := ⟨.hbm, 413, rfl⟩
abbrev main_v274 : Ref sig .tc := ⟨.hbm, 414, rfl⟩
abbrev main_v275 : Ref sig .tc := ⟨.hbm, 415, rfl⟩
abbrev main_cst_77 : Ref sig .tc := ⟨.hbm, 416, rfl⟩
abbrev main_v276 : Ref sig .tc := ⟨.hbm, 417, rfl⟩
abbrev main_v277 : Ref sig .tc := ⟨.hbm, 418, rfl⟩
abbrev main_cst_78 : Ref sig .tc := ⟨.hbm, 419, rfl⟩
abbrev main_v278 : Ref sig .tc := ⟨.hbm, 420, rfl⟩
abbrev main_v279 : Ref sig .tc := ⟨.hbm, 421, rfl⟩
abbrev main_v280 : Ref sig .tc := ⟨.hbm, 422, rfl⟩
abbrev main_cst_79 : Ref sig .tc := ⟨.hbm, 423, rfl⟩
abbrev main_v281 : Ref sig .tc := ⟨.hbm, 424, rfl⟩
abbrev main_v282 : Ref sig .tc := ⟨.hbm, 425, rfl⟩
abbrev main_cst_80 : Ref sig .tc := ⟨.hbm, 426, rfl⟩
abbrev main_v283 : Ref sig .tc := ⟨.hbm, 427, rfl⟩
abbrev main_v284 : Ref sig .tc := ⟨.hbm, 428, rfl⟩
abbrev main_v285 : Ref sig .tc := ⟨.hbm, 429, rfl⟩
abbrev main_cst_81 : Ref sig .tc := ⟨.hbm, 430, rfl⟩
abbrev main_v286 : Ref sig .tc := ⟨.hbm, 431, rfl⟩
abbrev main_v287 : Ref sig .tc := ⟨.hbm, 432, rfl⟩
abbrev main_v288 : Ref sig .tc := ⟨.hbm, 433, rfl⟩
abbrev main_call30_cst : Ref sig .tc := ⟨.hbm, 434, rfl⟩
abbrev main_call30_v0 : Ref sig .tc := ⟨.hbm, 435, rfl⟩
abbrev main_v289 : Ref sig .tc := ⟨.hbm, 436, rfl⟩
abbrev main_v290 : Ref sig .tc := ⟨.hbm, 437, rfl⟩
abbrev main_v291 : Ref sig .tc := ⟨.hbm, 438, rfl⟩
abbrev main_call31_cst : Ref sig .tc := ⟨.hbm, 439, rfl⟩
abbrev main_call31_v0 : Ref sig .tc := ⟨.hbm, 440, rfl⟩
abbrev main_v292 : Ref sig .tc := ⟨.hbm, 441, rfl⟩
abbrev main_v293 : Ref sig .tc := ⟨.hbm, 442, rfl⟩
abbrev main_cst_82 : Ref sig .tc := ⟨.hbm, 443, rfl⟩
abbrev main_v294 : Ref sig .tc := ⟨.hbm, 444, rfl⟩
abbrev main_v295 : Ref sig .tc := ⟨.hbm, 445, rfl⟩
abbrev main_cst_83 : Ref sig .tc := ⟨.hbm, 446, rfl⟩
abbrev main_v296 : Ref sig .tc := ⟨.hbm, 447, rfl⟩
abbrev main_v297 : Ref sig .tc := ⟨.hbm, 448, rfl⟩
abbrev main_v298 : Ref sig .tc := ⟨.hbm, 449, rfl⟩
abbrev main_cst_84 : Ref sig .tc := ⟨.hbm, 450, rfl⟩
abbrev main_v299 : Ref sig .tc := ⟨.hbm, 451, rfl⟩
abbrev main_v300 : Ref sig .tc := ⟨.hbm, 452, rfl⟩
abbrev main_cst_85 : Ref sig .tc := ⟨.hbm, 453, rfl⟩
abbrev main_v301 : Ref sig .tc := ⟨.hbm, 454, rfl⟩
abbrev main_v302 : Ref sig .tc := ⟨.hbm, 455, rfl⟩
abbrev main_v303 : Ref sig .tc := ⟨.hbm, 456, rfl⟩
abbrev main_cst_86 : Ref sig .tc := ⟨.hbm, 457, rfl⟩
abbrev main_v304 : Ref sig .tc := ⟨.hbm, 458, rfl⟩
abbrev main_v305 : Ref sig .tc := ⟨.hbm, 459, rfl⟩
abbrev main_v306 : Ref sig .tc := ⟨.hbm, 460, rfl⟩
abbrev main_call32_cst : Ref sig .tc := ⟨.hbm, 461, rfl⟩
abbrev main_call32_v0 : Ref sig .tc := ⟨.hbm, 462, rfl⟩
abbrev main_v307 : Ref sig .tc := ⟨.hbm, 463, rfl⟩
abbrev main_v308 : Ref sig .tc := ⟨.hbm, 464, rfl⟩
abbrev main_v309 : Ref sig .tc := ⟨.hbm, 465, rfl⟩
abbrev main_call33_cst : Ref sig .tc := ⟨.hbm, 466, rfl⟩
abbrev main_call33_v0 : Ref sig .tc := ⟨.hbm, 467, rfl⟩
abbrev main_v310 : Ref sig .tc := ⟨.hbm, 468, rfl⟩
abbrev main_v311 : Ref sig .tc := ⟨.hbm, 469, rfl⟩
abbrev main_cst_87 : Ref sig .tc := ⟨.hbm, 470, rfl⟩
abbrev main_v312 : Ref sig .tc := ⟨.hbm, 471, rfl⟩
abbrev main_v313 : Ref sig .tc := ⟨.hbm, 472, rfl⟩
abbrev main_cst_88 : Ref sig .tc := ⟨.hbm, 473, rfl⟩
abbrev main_v314 : Ref sig .tc := ⟨.hbm, 474, rfl⟩
abbrev main_v315 : Ref sig .tc := ⟨.hbm, 475, rfl⟩
abbrev main_v316 : Ref sig .tc := ⟨.hbm, 476, rfl⟩
abbrev main_cst_89 : Ref sig .tc := ⟨.hbm, 477, rfl⟩
abbrev main_v317 : Ref sig .tc := ⟨.hbm, 478, rfl⟩
abbrev main_v318 : Ref sig .tc := ⟨.hbm, 479, rfl⟩
abbrev main_cst_90 : Ref sig .tc := ⟨.hbm, 480, rfl⟩
abbrev main_v319 : Ref sig .tc := ⟨.hbm, 481, rfl⟩
abbrev main_v320 : Ref sig .tc := ⟨.hbm, 482, rfl⟩
abbrev main_v321 : Ref sig .tc := ⟨.hbm, 483, rfl⟩
abbrev main_cst_91 : Ref sig .tc := ⟨.hbm, 484, rfl⟩
abbrev main_v322 : Ref sig .tc := ⟨.hbm, 485, rfl⟩
abbrev main_v323 : Ref sig .tc := ⟨.hbm, 486, rfl⟩
abbrev main_v324 : Ref sig .tc := ⟨.hbm, 487, rfl⟩
abbrev main_call34_cst : Ref sig .tc := ⟨.hbm, 488, rfl⟩
abbrev main_call34_v0 : Ref sig .tc := ⟨.hbm, 489, rfl⟩
abbrev main_v325 : Ref sig .tc := ⟨.hbm, 490, rfl⟩
abbrev main_v326 : Ref sig .tc := ⟨.hbm, 491, rfl⟩
abbrev main_v327 : Ref sig .tc := ⟨.hbm, 492, rfl⟩
abbrev main_call35_cst : Ref sig .tc := ⟨.hbm, 493, rfl⟩
abbrev main_call35_v0 : Ref sig .tc := ⟨.hbm, 494, rfl⟩
abbrev main_v328 : Ref sig .tc := ⟨.hbm, 495, rfl⟩
abbrev main_v329 : Ref sig .tc := ⟨.hbm, 496, rfl⟩
abbrev main_cst_92 : Ref sig .tc := ⟨.hbm, 497, rfl⟩
abbrev main_v330 : Ref sig .tc := ⟨.hbm, 498, rfl⟩
abbrev main_v331 : Ref sig .tc := ⟨.hbm, 499, rfl⟩
abbrev main_cst_93 : Ref sig .tc := ⟨.hbm, 500, rfl⟩
abbrev main_v332 : Ref sig .tc := ⟨.hbm, 501, rfl⟩
abbrev main_v333 : Ref sig .tc := ⟨.hbm, 502, rfl⟩
abbrev main_v334 : Ref sig .tc := ⟨.hbm, 503, rfl⟩
abbrev main_cst_94 : Ref sig .tc := ⟨.hbm, 504, rfl⟩
abbrev main_v335 : Ref sig .tc := ⟨.hbm, 505, rfl⟩
abbrev main_v336 : Ref sig .tc := ⟨.hbm, 506, rfl⟩
abbrev main_cst_95 : Ref sig .tc := ⟨.hbm, 507, rfl⟩
abbrev main_v337 : Ref sig .tc := ⟨.hbm, 508, rfl⟩
abbrev main_v338 : Ref sig .tc := ⟨.hbm, 509, rfl⟩
abbrev main_v339 : Ref sig .tc := ⟨.hbm, 510, rfl⟩
abbrev main_cst_96 : Ref sig .tc := ⟨.hbm, 511, rfl⟩
abbrev main_v340 : Ref sig .tc := ⟨.hbm, 512, rfl⟩
abbrev main_v341 : Ref sig .tc := ⟨.hbm, 513, rfl⟩
abbrev main_v342 : Ref sig .tc := ⟨.hbm, 514, rfl⟩
abbrev main_call36_cst : Ref sig .tc := ⟨.hbm, 515, rfl⟩
abbrev main_call36_v0 : Ref sig .tc := ⟨.hbm, 516, rfl⟩
abbrev main_v343 : Ref sig .tc := ⟨.hbm, 517, rfl⟩
abbrev main_v344 : Ref sig .tc := ⟨.hbm, 518, rfl⟩
abbrev main_v345 : Ref sig .tc := ⟨.hbm, 519, rfl⟩
abbrev main_call37_cst : Ref sig .tc := ⟨.hbm, 520, rfl⟩
abbrev main_call37_v0 : Ref sig .tc := ⟨.hbm, 521, rfl⟩
abbrev main_v346 : Ref sig .tc := ⟨.hbm, 522, rfl⟩
abbrev main_v347 : Ref sig .tc := ⟨.hbm, 523, rfl⟩
abbrev main_cst_97 : Ref sig .tc := ⟨.hbm, 524, rfl⟩
abbrev main_v348 : Ref sig .tc := ⟨.hbm, 525, rfl⟩
abbrev main_v349 : Ref sig .tc := ⟨.hbm, 526, rfl⟩
abbrev main_cst_98 : Ref sig .tc := ⟨.hbm, 527, rfl⟩
abbrev main_v350 : Ref sig .tc := ⟨.hbm, 528, rfl⟩
abbrev main_v351 : Ref sig .tc := ⟨.hbm, 529, rfl⟩
abbrev main_v352 : Ref sig .tc := ⟨.hbm, 530, rfl⟩
abbrev main_cst_99 : Ref sig .tc := ⟨.hbm, 531, rfl⟩
abbrev main_v353 : Ref sig .tc := ⟨.hbm, 532, rfl⟩
abbrev main_v354 : Ref sig .tc := ⟨.hbm, 533, rfl⟩
abbrev main_cst_100 : Ref sig .tc := ⟨.hbm, 534, rfl⟩
abbrev main_v355 : Ref sig .tc := ⟨.hbm, 535, rfl⟩
abbrev main_v356 : Ref sig .tc := ⟨.hbm, 536, rfl⟩
abbrev main_v357 : Ref sig .tc := ⟨.hbm, 537, rfl⟩
abbrev main_cst_101 : Ref sig .tc := ⟨.hbm, 538, rfl⟩
abbrev main_v358 : Ref sig .tc := ⟨.hbm, 539, rfl⟩
abbrev main_v359 : Ref sig .tc := ⟨.hbm, 540, rfl⟩
abbrev main_v360 : Ref sig .tc := ⟨.hbm, 541, rfl⟩
abbrev main_call38_cst : Ref sig .tc := ⟨.hbm, 542, rfl⟩
abbrev main_call38_v0 : Ref sig .tc := ⟨.hbm, 543, rfl⟩
abbrev main_v361 : Ref sig .tc := ⟨.hbm, 544, rfl⟩
abbrev main_v362 : Ref sig .tc := ⟨.hbm, 545, rfl⟩
abbrev main_v363 : Ref sig .tc := ⟨.hbm, 546, rfl⟩
abbrev main_call39_cst : Ref sig .tc := ⟨.hbm, 547, rfl⟩
abbrev main_call39_v0 : Ref sig .tc := ⟨.hbm, 548, rfl⟩
abbrev main_v364 : Ref sig .tc := ⟨.hbm, 549, rfl⟩
abbrev main_v365 : Ref sig .tc := ⟨.hbm, 550, rfl⟩
abbrev main_cst_102 : Ref sig .tc := ⟨.hbm, 551, rfl⟩
abbrev main_v366 : Ref sig .tc := ⟨.hbm, 552, rfl⟩
abbrev main_v367 : Ref sig .tc := ⟨.hbm, 553, rfl⟩
abbrev main_cst_103 : Ref sig .tc := ⟨.hbm, 554, rfl⟩
abbrev main_v368 : Ref sig .tc := ⟨.hbm, 555, rfl⟩
abbrev main_v369 : Ref sig .tc := ⟨.hbm, 556, rfl⟩
abbrev main_v370 : Ref sig .tc := ⟨.hbm, 557, rfl⟩
abbrev main_cst_104 : Ref sig .tc := ⟨.hbm, 558, rfl⟩
abbrev main_v371 : Ref sig .tc := ⟨.hbm, 559, rfl⟩
abbrev main_v372 : Ref sig .tc := ⟨.hbm, 560, rfl⟩
abbrev main_cst_105 : Ref sig .tc := ⟨.hbm, 561, rfl⟩
abbrev main_v373 : Ref sig .tc := ⟨.hbm, 562, rfl⟩
abbrev main_v374 : Ref sig .tc := ⟨.hbm, 563, rfl⟩
abbrev main_v375 : Ref sig .tc := ⟨.hbm, 564, rfl⟩
abbrev main_cst_106 : Ref sig .tc := ⟨.hbm, 565, rfl⟩
abbrev main_v376 : Ref sig .tc := ⟨.hbm, 566, rfl⟩
abbrev main_v377 : Ref sig .tc := ⟨.hbm, 567, rfl⟩
abbrev main_v378 : Ref sig .tc := ⟨.hbm, 568, rfl⟩
abbrev main_call40_cst : Ref sig .tc := ⟨.hbm, 569, rfl⟩
abbrev main_call40_v0 : Ref sig .tc := ⟨.hbm, 570, rfl⟩
abbrev main_v379 : Ref sig .tc := ⟨.hbm, 571, rfl⟩
abbrev main_v380 : Ref sig .tc := ⟨.hbm, 572, rfl⟩
abbrev main_v381 : Ref sig .tc := ⟨.hbm, 573, rfl⟩
abbrev main_call41_cst : Ref sig .tc := ⟨.hbm, 574, rfl⟩
abbrev main_call41_v0 : Ref sig .tc := ⟨.hbm, 575, rfl⟩
abbrev main_v382 : Ref sig .tc := ⟨.hbm, 576, rfl⟩
abbrev main_v383 : Ref sig .tc := ⟨.hbm, 577, rfl⟩
abbrev main_v384 : Ref sig .tc := ⟨.hbm, 578, rfl⟩
abbrev main_cst_107 : Ref sig .tc := ⟨.hbm, 579, rfl⟩
abbrev main_v385 : Ref sig .tc := ⟨.hbm, 580, rfl⟩
abbrev main_cst_108 : Ref sig .tc := ⟨.hbm, 581, rfl⟩
abbrev main_v386 : Ref sig .tc := ⟨.hbm, 582, rfl⟩
abbrev main_cst_109 : Ref sig .tc := ⟨.hbm, 583, rfl⟩
abbrev main_v387 : Ref sig .tc := ⟨.hbm, 584, rfl⟩
abbrev main_cst_110 : Ref sig .tc := ⟨.hbm, 585, rfl⟩
abbrev main_v388 : Ref sig .tc := ⟨.hbm, 586, rfl⟩
abbrev main_v389 : Ref sig .tc := ⟨.hbm, 587, rfl⟩
abbrev main_v390 : Ref sig .tc := ⟨.hbm, 588, rfl⟩
abbrev main_cst_111 : Ref sig .tc := ⟨.hbm, 589, rfl⟩
abbrev main_v391 : Ref sig .tc := ⟨.hbm, 590, rfl⟩
abbrev main_cst_112 : Ref sig .tc := ⟨.hbm, 591, rfl⟩
abbrev main_v392 : Ref sig .tc := ⟨.hbm, 592, rfl⟩
abbrev main_cst_113 : Ref sig .tc := ⟨.hbm, 593, rfl⟩
abbrev main_v393 : Ref sig .tc := ⟨.hbm, 594, rfl⟩
abbrev main_cst_114 : Ref sig .tc := ⟨.hbm, 595, rfl⟩
abbrev main_v394 : Ref sig .tc := ⟨.hbm, 596, rfl⟩
abbrev main_v395 : Ref sig .tc := ⟨.hbm, 597, rfl⟩
abbrev main_cst_115 : Ref sig .tc := ⟨.hbm, 598, rfl⟩
abbrev main_v396 : Ref sig .tc := ⟨.hbm, 599, rfl⟩
abbrev main_v397 : Ref sig .tc := ⟨.hbm, 600, rfl⟩
abbrev main_v398 : Ref sig .tc := ⟨.hbm, 601, rfl⟩
abbrev main_cst_116 : Ref sig .tc := ⟨.hbm, 602, rfl⟩
abbrev main_v399 : Ref sig .tc := ⟨.hbm, 603, rfl⟩
abbrev main_v400 : Ref sig .tc := ⟨.hbm, 604, rfl⟩
abbrev main_cst_117 : Ref sig .tc := ⟨.hbm, 605, rfl⟩
abbrev main_v401 : Ref sig .tc := ⟨.hbm, 606, rfl⟩

abbrev nD : Nat := 1
abbrev τ : Topo := Topo.v7x

variable {F : FTy → Type} [FloatOps F]

class Facts₀ : Prop where
  bcast_S_S32x1x512x512 : S_.BroadcastsInDim S32x1x512x512 (![] : Fin 0 → Fin S32x1x512x512.rank)
  bcast_S_S_ : S_.BroadcastsInDim S_ (![] : Fin 0 → Fin S_.rank)
  reduceWindows_S32x1x512x512_S32x1x512x512_w1s1p0_0_w1s1p0_0_w3s1p1_1_w1s1p0_0 : S32x1x512x512.ReduceWindows (![1, 1, 3, 1] : Fin 4 → Nat) ![1, 1, 1, 1] ![0, 0, 1, 0] ![0, 0, 1, 0] S32x1x512x512
  h_S_ : 0 < S_.numel
  reduceWindows_S32x1x512x512_S32x1x512x512_w1s1p0_0_w1s1p0_0_w1s1p0_0_w3s1p1_1 : S32x1x512x512.ReduceWindows (![1, 1, 1, 3] : Fin 4 → Nat) ![1, 1, 1, 1] ![0, 0, 0, 1] ![0, 0, 0, 1] S32x1x512x512
  reduceWindows_S32x1x512x512_S32x1x512x512_w1s1p0_0_w1s1p0_0_w3s1p1_1_w3s1p1_1 : S32x1x512x512.ReduceWindows (![1, 1, 3, 3] : Fin 4 → Nat) ![1, 1, 1, 1] ![0, 0, 1, 1] ![0, 0, 1, 1] S32x1x512x512
  reducesTo_S32x1x512x512_S_d0_1_2_3 : S32x1x512x512.ReducesTo [0, 1, 2, 3] S_

variable [Facts₀]

class Facts : Prop extends Facts₀ where

variable [Facts]
-- ==== Proof.KernelBodyB.lean ====
/-
  The kernel body of `Cert.Kernel` (the word-level program), the pipeline's proof data and the frame run, at any float instance.

  A grid point loads two [2, 512, 512] blocks (predictions and targets of two images), computes, and stores one
  [1, 8, 128] block. Its two counted loops touch no memory: a trip maps the carried pair (eroded image, skeleton) to
  its two payloads, so each loop is the fold of that map over its ten trips (`foldA` for the predictions,
  `foldB` for the targets). `blockOut x y` is what the point stores: the four sums — skeleton(σ x)·y, skeleton(σ x),
  skeleton(y)·σ x, skeleton(y) — placed in lanes 0 to 3 of the first row, zero elsewhere.
  The proof data says: each input staging buffer keeps its block, the output's holds `blockOut` of the two input
  blocks; the invariant is the class's. The run is the library's frame run around the region, continued by @main's
  closing host operations.
-/
import proofs.«429048_j16329465659785_3_alg».proof.Proof.Gen.Kernel.Frame
import proofs.«429048_j16329465659785_3_alg».proof.Proof.Gen.Kernel.Skeleton
import Idealize.ShloMosaic.Lib.Pipeline.Value

noncomputable section

namespace Cert.Proof.KB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-! ## The two loops are folds -/

/-- A trip of the first loop yields its two payloads and touches no memory. -/
theorem t1_body_pure (i : grid0.Coords) (arg1 : Memref sig .tc .vmem S2x512x512 .f32) (harg1 : arg1.IsWhole) (arg2 : Memref sig .tc .vmem S2x512x512 .f32) (harg2 : arg2.IsWhole) (arg3 : Memref sig .tc .vmem S1x8x128 .f32) (harg3 : arg3.IsWhole) (v3 v5 v7 v9 : IVec S2x512x512 1) (v13 v14 v31 v35 v36 : FVec F S2x512x512 .f32) (cst_17 : F .f32) :
    k0_t1_body (F := F) i arg1 harg1 arg2 harg2 arg3 harg3 v3 v5 v7 v9 v13 v14 v31 v35 v36 cst_17
      = fun _ acc => .ret (k0_pay2 v3 v5 v7 v9 acc.1, k0_pay3 v3 v5 v7 v9 acc.1 acc.2) := by
  funext k acc; obtain ⟨a, b⟩ := acc; rfl

/-- A trip of the second loop likewise. -/
theorem t2_body_pure (i : grid0.Coords) (arg1 : Memref sig .tc .vmem S2x512x512 .f32) (harg1 : arg1.IsWhole) (arg2 : Memref sig .tc .vmem S2x512x512 .f32) (harg2 : arg2.IsWhole) (arg3 : Memref sig .tc .vmem S1x8x128 .f32) (harg3 : arg3.IsWhole) (v3 v5 v7 v9 : IVec S2x512x512 1) (v13 v14 : FVec F S2x512x512 .f32) (v57 : F .f32) (v78 : FVec F S2x512x512 .f32) :
    k0_t2_body (F := F) i arg1 harg1 arg2 harg2 arg3 harg3 v3 v5 v7 v9 v13 v14 v57 v78
      = fun _ acc => .ret (k0_pay4 v3 v5 v7 v9 acc.1, k0_pay5 v3 v5 v7 v9 acc.1 acc.2) := by
  funext k acc; obtain ⟨a, b⟩ := acc; rfl

/-- The first loop's result from the prediction block `x`: ten trips from (erode (σ x), relu (σ x − open (σ x))). -/
def foldA (x : Vec F S2x512x512 .f32) : FVec F S2x512x512 .f32 × FVec F S2x512x512 .f32 :=
  Scf.fold (n := k0_t1_loop.trips)
    (fun _ acc => (k0_pay2 k0_pay6 k0_pay7 k0_pay8 k0_pay9 acc.1, k0_pay3 k0_pay6 k0_pay7 k0_pay8 k0_pay9 acc.1 acc.2))
    (k0_pay12 x, k0_pay15 k0_pay7 k0_pay8 k0_pay9 (k0_pay11 x) (k0_pay13 x) (k0_pay14 x) (Scalar.ofBits .f32 0xFF800000#32))

/-- The second loop's result from the target block `y`: ten trips from (erode y, relu (y − open y)). -/
def foldB (y : Vec F S2x512x512 .f32) : FVec F S2x512x512 .f32 × FVec F S2x512x512 .f32 :=
  Scf.fold (n := k0_t2_loop.trips)
    (fun _ acc => (k0_pay4 k0_pay6 k0_pay7 k0_pay8 k0_pay9 acc.1, k0_pay5 k0_pay6 k0_pay7 k0_pay8 k0_pay9 acc.1 acc.2))
    (k0_pay18 k0_pay6 k0_pay7 k0_pay8 k0_pay9 (k0_pay10 y),
      k0_pay19 k0_pay6 k0_pay7 k0_pay8 k0_pay9 (k0_pay10 y) (k0_pay18 k0_pay6 k0_pay7 k0_pay8 k0_pay9 (k0_pay10 y)))

/-- What a grid point stores from its prediction block `x` and its target block `y`. -/
def blockOut (x y : Vec F S2x512x512 .f32) : FVec F S1x8x128 .f32 :=
  k0_pay1 (k0_pay17 (foldA x).2) (k0_pay20 (k0_pay11 x) (foldB y).2) (k0_pay21 (foldB y).2)
    (iota .tc S1x8x128 32 [1] iota_S1x8x128_d1_w32) (iota .tc S1x8x128 32 [2] iota_S1x8x128_d2_w32)
    (k0_pay22 (k0_pay16 (k0_pay10 y) (foldA x).2)) k0_pay23

/-- The whole-buffer rectangles' offsets are zero. -/
theorem off0 : (![0, 0, 0] : Fin 3 → ℕ) = fun _ => 0 := funext fun a => by fin_cases a <;> rfl

/-- One store through the output's whole-buffer rectangle covers every index. -/
theorem cover_out (w : Vec F S1x8x128 .f32) (y : S1x8x128.Idx) :
    ∃ pc ∈ ([⟨Rect.unit (s := S1x8x128) ![0, 0, 0] S1x8x128.size inb_S1x8x128_S1x8x128_0_0_0, w⟩] : List (View.Piece (Elt F) S1x8x128 .f32)), y ∈ pc.1.set :=
  View.cover_of_tiled [⟨Rect.unit (s := S1x8x128) ![0, 0, 0] S1x8x128.size inb_S1x8x128_S1x8x128_0_0_0, w⟩] S1x8x128.size (by rfl) y

/-! ## The body's triple -/

/-- The kernel body on whole staging memrefs, the inputs' reading as `x0` and `x1`, the output's at anything, runs to the
    continuation holding the inputs' as they were and the output's reading as `blockOut x0 x1`. -/
theorem sound_kernel (c : Dev nD) (i : grid0.Coords) (arg1 : Memref sig .tc .vmem S2x512x512 .f32) (harg1 : arg1.IsWhole) (arg2 : Memref sig .tc .vmem S2x512x512 .f32) (harg2 : arg2.IsWhole) (arg3 : Memref sig .tc .vmem S1x8x128 .f32) (harg3 : arg3.IsWhole)
    (x0 x1 : Vec F S2x512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (blockOut x0 x1)) -∗ K ⟨⟩))
      ⊢ wp frame (wpE (defs₀ (F := F)) Variants.none c none) Set.univ (cc0__cldice_kernel i arg1 harg1 arg2 harg2 arg3 harg3) K := by
  simp only [cc0__cldice_kernel_eq_skeleton]; unfold cc0__cldice_kernel_skel
  unfold owns
  iintro ⟨⟨%f0, %hf0, H0⟩, ⟨%f1, %hf1, H1⟩, ⟨%d2, %f2, -, H2⟩, Hk⟩
  subst hf0 hf1
  sl_exec
  rw [t1_body_pure]
  sl_exec
  rw [t2_body_pure]
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _), View.canon_unit_zero off0]
  sl_unfold_run_names
  simp only [View.readAt_eq_ld, View.ld_unit_zero (S := S2x512x512) off0]
  rfl

/-! ## The pipeline's proof data -/

variable (m : (ℓ : Loc nD τ sig) → Buf (Elt F) ℓ) (ρ : Dev nD → PrngReg)

/-- The proof data of the one pipeline on core `c`: the arrays as the region finds them; after the body at point `t` each
    input's buffer at its block and the output's at `blockOut` of the two input blocks; the class's invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := ΦA spec0 c
  q _ := fullShare
  owed _ := 0

theorem A_eq (c : Dev nD) (w : Fin cfg0.W) : (dats m 0 c).A w = V m c (Pipeline.arrRef spec0 w) := by dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = blockOut (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- From any memory with zero counters every weakly fair execution of @main terminates, and every final state has every
    array of the pipeline at what the library computes from the proof data and every other unscoped buffer as the host
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.KB

end
-- ==== Proof.KernelBodyI.lean ====
/-
  The kernel body of `Cert.KernelIdeal`, the pipeline's proof data and the frame run, at any float instance.

  A grid point loads two [2, 512, 512] blocks (predictions and targets of two images), computes, and stores one
  [1, 8, 128] block. Its two counted loops touch no memory: a trip maps the carried pair (eroded image, skeleton) to
  its two payloads, so each loop is the fold of that map over its ten trips (`foldA` for the predictions,
  `foldB` for the targets). `blockOut x y` is what the point stores: the four sums — skeleton(σ x)·y, skeleton(σ x),
  skeleton(y)·σ x, skeleton(y) — placed in lanes 0 to 3 of the first row, zero elsewhere.
  The proof data says: each input staging buffer keeps its block, the output's holds `blockOut` of the two input
  blocks; the invariant is the class's. The run is the library's frame run around the region, continued by @main's
  closing host operations.
-/
import proofs.«429048_j16329465659785_3_alg».proof.Proof.Gen.KernelIdeal.Frame
import proofs.«429048_j16329465659785_3_alg».proof.Proof.Gen.KernelIdeal.Skeleton
import Idealize.ShloMosaic.Lib.Pipeline.Value

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-! ## The two loops are folds -/

/-- A trip of the first loop yields its two payloads and touches no memory. -/
theorem t1_body_pure (i : grid0.Coords) (arg1 : Memref sig .tc .vmem S2x512x512 .f32) (harg1 : arg1.IsWhole) (arg2 : Memref sig .tc .vmem S2x512x512 .f32) (harg2 : arg2.IsWhole) (arg3 : Memref sig .tc .vmem S1x8x128 .f32) (harg3 : arg3.IsWhole) (v3 v5 v7 v9 : IVec S2x512x512 1) (v13 v14 v31 v35 v36 : FVec F S2x512x512 .f32) (cst_17 : F .f32) :
    k0_t1_body (F := F) i arg1 harg1 arg2 harg2 arg3 harg3 v3 v5 v7 v9 v13 v14 v31 v35 v36 cst_17
      = fun _ acc => .ret (k0_pay2 v3 v5 v7 v9 acc.1, k0_pay3 v3 v5 v7 v9 acc.1 acc.2) := by
  funext k acc; obtain ⟨a, b⟩ := acc; rfl

/-- A trip of the second loop likewise. -/
theorem t2_body_pure (i : grid0.Coords) (arg1 : Memref sig .tc .vmem S2x512x512 .f32) (harg1 : arg1.IsWhole) (arg2 : Memref sig .tc .vmem S2x512x512 .f32) (harg2 : arg2.IsWhole) (arg3 : Memref sig .tc .vmem S1x8x128 .f32) (harg3 : arg3.IsWhole) (v3 v5 v7 v9 : IVec S2x512x512 1) (v13 v14 : FVec F S2x512x512 .f32) (v57 : F .f32) (v78 : FVec F S2x512x512 .f32) :
    k0_t2_body (F := F) i arg1 harg1 arg2 harg2 arg3 harg3 v3 v5 v7 v9 v13 v14 v57 v78
      = fun _ acc => .ret (k0_pay4 v3 v5 v7 v9 acc.1, k0_pay5 v3 v5 v7 v9 acc.1 acc.2) := by
  funext k acc; obtain ⟨a, b⟩ := acc; rfl

/-- The first loop's result from the prediction block `x`: ten trips from (erode (σ x), relu (σ x − open (σ x))). -/
def foldA (x : Vec F S2x512x512 .f32) : FVec F S2x512x512 .f32 × FVec F S2x512x512 .f32 :=
  Scf.fold (n := k0_t1_loop.trips)
    (fun _ acc => (k0_pay2 k0_pay6 k0_pay7 k0_pay8 k0_pay9 acc.1, k0_pay3 k0_pay6 k0_pay7 k0_pay8 k0_pay9 acc.1 acc.2))
    (k0_pay12 x, k0_pay15 k0_pay7 k0_pay8 k0_pay9 (k0_pay11 x) (k0_pay13 x) (k0_pay14 x) (Scalar.ofBits .f32 0xFF800000#32))

/-- The second loop's result from the target block `y`: ten trips from (erode y, relu (y − open y)). -/
def foldB (y : Vec F S2x512x512 .f32) : FVec F S2x512x512 .f32 × FVec F S2x512x512 .f32 :=
  Scf.fold (n := k0_t2_loop.trips)
    (fun _ acc => (k0_pay4 k0_pay6 k0_pay7 k0_pay8 k0_pay9 acc.1, k0_pay5 k0_pay6 k0_pay7 k0_pay8 k0_pay9 acc.1 acc.2))
    (k0_pay18 k0_pay6 k0_pay7 k0_pay8 k0_pay9 (k0_pay10 y),
      k0_pay19 k0_pay6 k0_pay7 k0_pay8 k0_pay9 (k0_pay10 y) (k0_pay18 k0_pay6 k0_pay7 k0_pay8 k0_pay9 (k0_pay10 y)))

/-- What a grid point stores from its prediction block `x` and its target block `y`. -/
def blockOut (x y : Vec F S2x512x512 .f32) : FVec F S1x8x128 .f32 :=
  k0_pay1 (k0_pay17 (foldA x).2) (k0_pay20 (k0_pay11 x) (foldB y).2) (k0_pay21 (foldB y).2)
    (iota .tc S1x8x128 32 [1] iota_S1x8x128_d1_w32) (iota .tc S1x8x128 32 [2] iota_S1x8x128_d2_w32)
    (k0_pay22 (k0_pay16 (k0_pay10 y) (foldA x).2)) k0_pay23

/-- The whole-buffer rectangles' offsets are zero. -/
theorem off0 : (![0, 0, 0] : Fin 3 → ℕ) = fun _ => 0 := funext fun a => by fin_cases a <;> rfl

/-- One store through the output's whole-buffer rectangle covers every index. -/
theorem cover_out (w : Vec F S1x8x128 .f32) (y : S1x8x128.Idx) :
    ∃ pc ∈ ([⟨Rect.unit (s := S1x8x128) ![0, 0, 0] S1x8x128.size inb_S1x8x128_S1x8x128_0_0_0, w⟩] : List (View.Piece (Elt F) S1x8x128 .f32)), y ∈ pc.1.set :=
  View.cover_of_tiled [⟨Rect.unit (s := S1x8x128) ![0, 0, 0] S1x8x128.size inb_S1x8x128_S1x8x128_0_0_0, w⟩] S1x8x128.size (by rfl) y

/-! ## The body's triple -/

/-- The kernel body on whole staging memrefs, the inputs' reading as `x0` and `x1`, the output's at anything, runs to the
    continuation holding the inputs' as they were and the output's reading as `blockOut x0 x1`. -/
theorem sound_kernel (c : Dev nD) (i : grid0.Coords) (arg1 : Memref sig .tc .vmem S2x512x512 .f32) (harg1 : arg1.IsWhole) (arg2 : Memref sig .tc .vmem S2x512x512 .f32) (harg2 : arg2.IsWhole) (arg3 : Memref sig .tc .vmem S1x8x128 .f32) (harg3 : arg3.IsWhole)
    (x0 x1 : Vec F S2x512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (blockOut x0 x1)) -∗ K ⟨⟩))
      ⊢ wp frame (wpE (defs₀ (F := F)) Variants.none c none) Set.univ (cc0__cldice_kernel i arg1 harg1 arg2 harg2 arg3 harg3) K := by
  simp only [cc0__cldice_kernel_eq_skeleton]; unfold cc0__cldice_kernel_skel
  unfold owns
  iintro ⟨⟨%f0, %hf0, H0⟩, ⟨%f1, %hf1, H1⟩, ⟨%d2, %f2, -, H2⟩, Hk⟩
  subst hf0 hf1
  sl_exec
  rw [t1_body_pure]
  sl_exec
  rw [t2_body_pure]
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_out _), View.canon_unit_zero off0]
  sl_unfold_run_names
  simp only [View.readAt_eq_ld, View.ld_unit_zero (S := S2x512x512) off0]
  rfl

/-! ## The pipeline's proof data -/

variable (m : (ℓ : Loc nD τ sig) → Buf (Elt F) ℓ) (ρ : Dev nD → PrngReg)

/-- The proof data of the one pipeline on core `c`: the arrays as the region finds them; after the body at point `t` each
    input's buffer at its block and the output's at `blockOut` of the two input blocks; the class's invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := ΦA spec0 c
  q _ := fullShare
  owed _ := 0

theorem A_eq (c : Dev nD) (w : Fin cfg0.W) : (dats m 0 c).A w = V m c (Pipeline.arrRef spec0 w) := by dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = blockOut (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- From any memory with zero counters every weakly fair execution of @main terminates, and every final state has every
    array of the pipeline at what the library computes from the proof data and every other unscoped buffer as the host
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.KI

end
-- ==== Proof.KernelArray.lean ====
/-
  The kernel's output array after the run, and its input blocks as parts of the argument arrays, at any float instance.

  Grid point `t` of 16 reads images 2t and 2t + 1 of each argument (the [32, 1, 512, 512] argument reshaped to
  [32, 512, 512], blocks of two images) and writes block `t` of the [16, 8, 128] output. The blocks written back tile
  the output, so after the last point the output holds, at (t, r, l), what point `t` stored at (0, r, l).
-/
import proofs.«429048_j16329465659785_3_alg».proof.Proof.KernelBodyI
import Idealize.ShloMosaic.Lib.Pipeline.Value
import Idealize.ShloMosaic.Lib.ValueIdx
import Idealize.ShloMosaic.Lib.StableHlo.Run

noncomputable section

namespace Cert.Proof.KA

open Cert.KernelIdeal Cert.KernelIdeal.Gen
open Cert.Proof.KI
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- Grid point number `k`. -/
def pt (k : Fin 16) : Fin cfg0.N := ⟨k.val, by rw [show cfg0.N = 16 from N_0]; exact k.isLt⟩

/-- The output array after the run: at (t, r, l) what point `t` stored at (0, r, l). -/
def outArr (c : Dev nD) : FVec F S16x8x128 .f32 := fun i =>
  blockOut (iblk m c 0 (pt (i 0))) (iblk m c 1 (pt (i 0))) (ix3 (0 : Fin 1) (i 1) (i 2))

/-- The printed index maps over the grid: each window's block index is (t, 0, 0). -/
theorem idx0 : ∀ t : Fin cfg0.N, win0_0.index t 0 = t.val ∧ win0_0.index t 1 = 0 ∧ win0_0.index t 2 = 0 :=
  (by decide +kernel : ∀ t : Fin grid0.N, _)
/-- The same for the second input window. -/
theorem idx1 : ∀ t : Fin cfg0.N, win0_1.index t 0 = t.val ∧ win0_1.index t 1 = 0 ∧ win0_1.index t 2 = 0 :=
  (by decide +kernel : ∀ t : Fin grid0.N, _)
/-- The same for the output window. -/
theorem idx2 : ∀ t : Fin cfg0.N, win0_2.index t 0 = t.val ∧ win0_2.index t 1 = 0 ∧ win0_2.index t 2 = 0 :=
  (by decide +kernel : ∀ t : Fin grid0.N, _)

/-- The array the first window stages is the first argument with its unit axis dropped. -/
theorem V_v0 (c : Dev nD) : (V m c main_v0 : S32x512x512.Idx → Elt F .f32)
    = shapeCast S32x512x512 (m ((c : Thread nD τ).loc main_arg0)) shapeCasts_S32x1x512x512_S32x512x512 := by
  show StableHlo.after (List.flatten [hostOps0]) (fun b => m (c, b)) (Proc.devRef .tc main_v0) = _
  simp only [hostOps0, List.flatten_cons, List.flatten_nil, List.append_nil]
  after_results
  rfl

/-- Where point `t`'s output block sits in the array: entry (0, r, l) of the block is entry (t, r, l) of the array. -/
theorem emb2 (t : Fin cfg0.N) (y : S1x8x128.Idx) :
    (((cfg0.win 2).blk t).view.emb y : S16x8x128.Idx)
      = ix3 (⟨t.val, by have := t.isLt; have h16 : cfg0.N = 16 := N_0; omega⟩ : Fin 16) (y 1) (y 2) := by
  obtain ⟨e0, e1, e2⟩ := idx2 t
  funext a; apply Fin.ext
  match a with
  | ⟨0, _⟩ => show win0_2.index t 0 * 1 + 1 * (y 0).val = t.val
              have : (y 0).val < 1 := (y 0).isLt
              rw [e0]; omega
  | ⟨1, _⟩ => show win0_2.index t 1 * 8 + 1 * (y 1).val = (y 1).val; rw [e1]; omega
  | ⟨2, _⟩ => show win0_2.index t 2 * 128 + 1 * (y 2).val = (y 2).val; rw [e2]; omega

/-- Entry `y` of what point `t` stores is `outArr` at the entry's place in the array. -/
theorem out_at (c : Dev nD) (t : Fin cfg0.N) (y : S1x8x128.Idx) :
    blockOut (iblk m c 0 t) (iblk m c 1 t) y = outArr m c (((cfg0.win 2).blk t).view.emb y) := by
  rw [emb2 t y]
  show _ = blockOut (iblk m c 0 (pt ⟨t.val, _⟩)) (iblk m c 1 (pt ⟨t.val, _⟩)) (ix3 (0 : Fin 1) (y 1) (y 2))
  have hp : pt (⟨t.val, by have := t.isLt; have h16 : cfg0.N = 16 := N_0; omega⟩ : Fin 16) = t := Fin.ext rfl
  have hy : y = (ix3 (0 : Fin 1) (y 1) (y 2) : S1x8x128.Idx) := by
    funext a
    match a with
    | ⟨0, _⟩ => exact Subsingleton.elim (α := Fin 1) _ _
    | ⟨1, _⟩ => rfl
    | ⟨2, _⟩ => rfl
  rw [hp]
  exact congrArg (blockOut (iblk m c 0 t) (iblk m c 1 t)) hy

/-- What point `t` writes back is block `t` of `outArr`. -/
theorem flushed_eq (c : Dev nD) (t : Fin cfg0.N) (hf : (cfg0.win 2).flush t = true) :
    (dats m 0 c).flushed 2 t = ((cfg0.win 2).blk t).view.read (Elt F) (outArr m c) := by
  show (cfg0.win 2).cut (grid0.coords t) ((dats m 0 c).after 2 t) = _
  rw [after0_2]
  funext y
  exact out_at m c t y

/-- The output array ends holding `outArr`. -/
theorem final_out (c : Dev nD) : (dats m 0 c).arrAt 2 cfg0.N = outArr m c :=
  (dats m 0 c).arrAt_eq_of_cover 2 (outArr m c) (flushed_eq m c) fun i =>
    ⟨pt (i 0), flush0_2 _, by
      obtain ⟨e0, e1, e2⟩ := idx2 (pt (i 0))
      show i ∈ ((View.whole main_v2).slice (win0_2.rect (pt (i 0)))).set
      rw [View.set_slice_whole, Rect.mem_set_unit]
      intro a
      have h1 : (i 1 : Nat) < 8 := (i 1).isLt
      have h2 : (i 2 : Nat) < 128 := (i 2).isLt
      match a with
      | ⟨0, _⟩ => show win0_2.index (pt (i 0)) 0 * 1 ≤ (i 0 : Nat) ∧ (i 0 : Nat) < win0_2.index (pt (i 0)) 0 * 1 + 1
                  rw [e0]; show (i 0 : Nat) * 1 ≤ (i 0 : Nat) ∧ (i 0 : Nat) < (i 0 : Nat) * 1 + 1; omega
      | ⟨1, _⟩ => show win0_2.index (pt (i 0)) 1 * 8 ≤ (i 1 : Nat) ∧ (i 1 : Nat) < win0_2.index (pt (i 0)) 1 * 8 + 8
                  rw [e1]; omega
      | ⟨2, _⟩ => show win0_2.index (pt (i 0)) 2 * 128 ≤ (i 2 : Nat) ∧ (i 2 : Nat) < win0_2.index (pt (i 0)) 2 * 128 + 128
                  rw [e2]; omega⟩

/-- The array the second window stages is the second argument with its unit axis dropped. -/
theorem V_v1 (c : Dev nD) : (V m c main_v1 : S32x512x512.Idx → Elt F .f32)
    = shapeCast S32x512x512 (m ((c : Thread nD τ).loc main_arg1)) shapeCasts_S32x1x512x512_S32x512x512 := by
  show StableHlo.after (List.flatten [hostOps0]) (fun b => m (c, b)) (Proc.devRef .tc main_v1) = _
  simp only [hostOps0, List.flatten_cons, List.flatten_nil, List.append_nil]
  after_results
  rfl

/-- Entry (b, h, w) of point `t`'s prediction block is entry (2t + b, 0, h, w) of the first argument: the block sits at
    row 2t of the reshaped array, and dropping the unit axis keeps the row-major position. -/
theorem iblk0_at (c : Dev nD) (t : Fin cfg0.N) (b : Fin 2) (h w : Fin 512) (hb : 2 * t.val + b.val < 32) :
    (iblk m c 0 t : Vec F S2x512x512 .f32) (ix3 b h w)
      = (m ((c : Thread nD τ).loc main_arg0) : S32x1x512x512.Idx → Elt F .f32) (ix4 (⟨2 * t.val + b.val, hb⟩ : Fin 32) (0 : Fin 1) h w) := by
  obtain ⟨e0, e1, e2⟩ := idx0 t
  unfold iblk
  rw [View.read_apply]
  show V m c main_v0 _ = _
  rw [V_v0]
  refine shapeCast_apply _ _ _ _ ?_
  have hl : (S32x1x512x512.rowMajor (ix4 (⟨2 * t.val + b.val, hb⟩ : Fin 32) (0 : Fin 1) h w)).val
      = (((2 * t.val + b.val) * 1 + 0) * 512 + h.val) * 512 + w.val :=
    Shape.rowMajor_val_four (d := ![32, 1, 512, 512]) _
  have hr : (S32x512x512.rowMajor (((cfg0.win 0).blk t).view.emb (ix3 b h w))).val
      = ((win0_0.index t 0 * 2 + 1 * b.val) * 512 + (win0_0.index t 1 * 512 + 1 * h.val)) * 512 + (win0_0.index t 2 * 512 + 1 * w.val) :=
    Shape.rowMajor_val_three (d := ![32, 512, 512]) _
  show (S32x1x512x512.rowMajor _).val = _
  rw [hl, hr, e0, e1, e2]; omega

/-- Entry (b, h, w) of point `t`'s target block is entry (2t + b, 0, h, w) of the second argument. -/
theorem iblk1_at (c : Dev nD) (t : Fin cfg0.N) (b : Fin 2) (h w : Fin 512) (hb : 2 * t.val + b.val < 32) :
    (iblk m c 1 t : Vec F S2x512x512 .f32) (ix3 b h w)
      = (m ((c : Thread nD τ).loc main_arg1) : S32x1x512x512.Idx → Elt F .f32) (ix4 (⟨2 * t.val + b.val, hb⟩ : Fin 32) (0 : Fin 1) h w) := by
  obtain ⟨e0, e1, e2⟩ := idx1 t
  unfold iblk
  rw [View.read_apply]
  show V m c main_v1 _ = _
  rw [V_v1]
  refine shapeCast_apply _ _ _ _ ?_
  have hl : (S32x1x512x512.rowMajor (ix4 (⟨2 * t.val + b.val, hb⟩ : Fin 32) (0 : Fin 1) h w)).val
      = (((2 * t.val + b.val) * 1 + 0) * 512 + h.val) * 512 + w.val :=
    Shape.rowMajor_val_four (d := ![32, 1, 512, 512]) _
  have hr : (S32x512x512.rowMajor (((cfg0.win 1).blk t).view.emb (ix3 b h w))).val
      = ((win0_1.index t 0 * 2 + 1 * b.val) * 512 + (win0_1.index t 1 * 512 + 1 * h.val)) * 512 + (win0_1.index t 2 * 512 + 1 * w.val) :=
    Shape.rowMajor_val_three (d := ![32, 512, 512]) _
  show (S32x1x512x512.rowMajor _).val = _
  rw [hl, hr, e0, e1, e2]; omega

/-- Point `t`'s prediction block is images 2t and 2t + 1 of the first argument. -/
theorem iblk0_apply (c : Dev nD) (k : Fin 16) (b : Fin 2) (h w : Fin 512) :
    (iblk m c 0 (pt k) : Vec F S2x512x512 .f32) (ix3 b h w)
      = (m ((c : Thread nD τ).loc main_arg0) : S32x1x512x512.Idx → Elt F .f32) (ix4 (⟨2 * k.val + b.val, by omega⟩ : Fin 32) (0 : Fin 1) h w) :=
  iblk0_at m c (pt k) b h w _

/-- Point `t`'s target block is images 2t and 2t + 1 of the second argument. -/
theorem iblk1_apply (c : Dev nD) (k : Fin 16) (b : Fin 2) (h w : Fin 512) :
    (iblk m c 1 (pt k) : Vec F S2x512x512 .f32) (ix3 b h w)
      = (m ((c : Thread nD τ).loc main_arg1) : S32x1x512x512.Idx → Elt F .f32) (ix4 (⟨2 * k.val + b.val, by omega⟩ : Fin 32) (0 : Fin 1) h w) :=
  iblk1_at m c (pt k) b h w _

end Cert.Proof.KA

end
-- ==== Proof.Plane.lean ====
/-
  One 512 × 512 image over the extended reals, and the soft-skeleton recurrence on it.

  `up`, `down`, `left`, `right` read the neighbour one row above, one row below, one column to the left,
  one column to the right, and a given fill value where that neighbour lies outside the image.
  `erodeP` is the minimum over the plus-shaped neighbourhood (the centre, its two vertical and its two horizontal
  neighbours, +∞ outside); `dilateP` the maximum over the 3 × 3 neighbourhood, written separably: first the maximum
  over the three rows, then over the three columns of that (−∞ outside).
  `deltaP e = relu (e − dilate (erode e))` and `accP s d = s + relu (d − s · d)`.
  The recurrence is carried in two equivalent forms:
    * `stepP` carries (erode x, skeleton): one erosion per step;
    * `stepR` carries (x, skeleton) and erodes twice per step.
  Ten steps of either give the soft skeleton (`skelR_eq`).
-/
import Idealize.ShloMosaic.PureOps.Ideal

noncomputable section

namespace ClDice

open Idealize.ShloMosaic

/-- One 512 × 512 image over the extended reals. -/
abbrev Plane := Fin 512 → Fin 512 → EReal

/-- The entry one row above, `fill` on the first row. -/
def up (fill : EReal) (x : Plane) : Plane := fun h w =>
  if hh : 1 ≤ h.val then x ⟨h.val - 1, by omega⟩ w else fill
/-- The entry one row below, `fill` on the last row. -/
def down (fill : EReal) (x : Plane) : Plane := fun h w =>
  if hh : h.val + 1 < 512 then x ⟨h.val + 1, hh⟩ w else fill
/-- The entry one column to the left, `fill` on the first column. -/
def left (fill : EReal) (x : Plane) : Plane := fun h w =>
  if hw : 1 ≤ w.val then x h ⟨w.val - 1, by omega⟩ else fill
/-- The entry one column to the right, `fill` on the last column. -/
def right (fill : EReal) (x : Plane) : Plane := fun h w =>
  if hw : w.val + 1 < 512 then x h ⟨w.val + 1, hw⟩ else fill

/-- Soft erosion: the minimum over the centre and its four axis neighbours. -/
def erodeP (x : Plane) : Plane := fun h w =>
  min (min (min (x h w) (up ⊤ x h w)) (down ⊤ x h w)) (min (min (x h w) (left ⊤ x h w)) (right ⊤ x h w))
/-- The maximum over three consecutive rows. -/
def maxH (x : Plane) : Plane := fun h w => max (max (x h w) (up ⊥ x h w)) (down ⊥ x h w)
/-- The maximum over three consecutive columns. -/
def maxW (x : Plane) : Plane := fun h w => max (max (x h w) (left ⊥ x h w)) (right ⊥ x h w)
/-- Soft dilation: the maximum over the 3 × 3 neighbourhood, rows first. -/
def dilateP (x : Plane) : Plane := maxW (maxH x)
/-- What an image loses under opening, clipped at zero. -/
def deltaP (e : Plane) : Plane := fun h w => max (e h w - dilateP (erodeP e) h w) 0
/-- The skeleton's update by one difference image. -/
def accP (s d : Plane) : Plane := fun h w => s h w + max (d h w - s h w * d h w) 0
/-- One step carrying the eroded image. -/
def stepP (p : Plane × Plane) : Plane × Plane := (erodeP p.1, accP p.2 (deltaP p.1))
/-- The soft skeleton after ten steps, the eroded image carried. -/
def skelP (img : Plane) : Plane := (stepP^[10] (erodeP img, deltaP img)).2
/-- One step carrying the image itself. -/
def stepR (p : Plane × Plane) : Plane × Plane := (erodeP p.1, accP p.2 (deltaP (erodeP p.1)))
/-- The soft skeleton after ten steps, the image itself carried. -/
def skelR (img : Plane) : Plane := (stepR^[10] (img, deltaP img)).2
/-- The logistic function, entry by entry. -/
def sigP (x : Plane) : Plane := fun h w => Ideal.logistic (x h w)

/-- The erosion as a window reduction writes it: each three-entry window folded from +∞, top to bottom and left to right. -/
def erodeFold (x : Plane) : Plane := fun h w =>
  min (min (min (min ⊤ (up ⊤ x h w)) (x h w)) (down ⊤ x h w)) (min (min (min ⊤ (left ⊤ x h w)) (x h w)) (right ⊤ x h w))

/-- The dilation as one 3 × 3 window reduction writes it: the nine entries folded from −∞ in row-major order. -/
def dilateFold (x : Plane) : Plane := fun h w =>
  max (max (max (max (max (max (max (max (max ⊥
    (up ⊥ (left ⊥ x) h w)) (up ⊥ x h w)) (up ⊥ (right ⊥ x) h w))
    (left ⊥ x h w)) (x h w)) (right ⊥ x h w))
    (down ⊥ (left ⊥ x) h w)) (down ⊥ x h w)) (down ⊥ (right ⊥ x) h w)

theorem erodeFold_eq (x : Plane) : erodeFold x = erodeP x := by
  funext h w
  unfold erodeFold erodeP
  -- +∞ is the identity of min; what is left is a rearrangement of the same six entries
  simp only [min_top_left]
  ac_rfl

theorem dilateFold_eq (x : Plane) : dilateFold x = dilateP x := by
  funext h w
  unfold dilateFold dilateP maxW maxH up down left right
  -- the four boundary conditions decide every branch; −∞ is the identity of max; then both sides
  -- are the maximum of the same entries, each occurring once
  by_cases h1 : 1 ≤ h.val <;> by_cases h2 : h.val + 1 < 512 <;>
    by_cases h3 : 1 ≤ w.val <;> by_cases h4 : w.val + 1 < 512 <;>
    simp only [h1, h2, h3, h4, ↓reduceDIte, max_bot_left, max_bot_right] <;> ac_rfl

/-- After any number of steps, the pair carried by `stepP` started at `(erode x, s)` is the erosion of the image
carried by `stepR` started at `(x, s)`, with the same skeleton. -/
theorem stepP_iterate_erode (n : ℕ) : ∀ (x s : Plane),
    stepP^[n] (erodeP x, s) = (erodeP (stepR^[n] (x, s)).1, (stepR^[n] (x, s)).2) := by
  induction n with
  | zero => intro x s; rfl
  | succ n ih =>
    intro x s
    rw [Function.iterate_succ_apply, Function.iterate_succ_apply]
    -- one step of either form adds the same difference image; the carried images are erode (erode x) and erode x
    exact ih (erodeP x) (accP s (deltaP (erodeP x)))

/-- Carrying the image or its erosion gives the same skeleton. -/
theorem skelR_eq (img : Plane) : skelR img = skelP img := by
  unfold skelR skelP
  rw [stepP_iterate_erode 10 img (deltaP img)]

end ClDice

end
-- ==== Proof.KernelPools.lean ====
/-
  The kernel's pooling payloads read plane by plane at the ideal instance.

  A [2, 512, 512] block is two images; `planeK x b` is image `b`. A rotation by 1 along rows or columns brings the
  previous row or column, a rotation by 511 the next one; the four masks (row index < 1, row index ≥ 511, the same for
  columns) replace the entry that wrapped around by the fill value. So each payload is, on every image separately,
  the erosion, the dilation or the recurrence step of `Plane.lean`.
-/
import proofs.«429048_j16329465659785_3_alg».proof.Proof.Gen.KernelIdeal.Skeleton
import proofs.«429048_j16329465659785_3_alg».proof.Proof.Plane
import Idealize.ShloMosaic.Lib.ValueIdx
import Idealize.ShloMosaic.Lib.KernelVsHost
import Idealize.ShloMosaic.Lib.Pipeline.Value

noncomputable section

namespace Cert.Proof.KV

open Cert.KernelIdeal Cert.KernelIdeal.Gen ClDice
open Idealize.ShloMosaic Idealize.ShloMosaic.ValueIdx

/-- Image `b` of a [2, 512, 512] block. -/
def planeK (x : FVec Ideal S2x512x512 .f32) (b : Fin 2) : Plane := fun h w => x (ix3 b h w)

/-! ## The fill words -/

/-- The word 0x7F800000 is +∞. -/
theorem ofBits_posInf : Ideal.ofBits .f32 0x7F800000#32 = (⊤ : EReal) := by
  simp [Ideal.ofBits, Ideal.ieee]

/-- The word 0xFF800000 is −∞. -/
theorem ofBits_negInf : Ideal.ofBits .f32 0xFF800000#32 = (⊥ : EReal) := by
  simp [Ideal.ofBits, Ideal.ieee]

/-! ## The four masks at an index -/

/-- A coordinate below 512, as a 32-bit word, is signed-less-than 1 exactly when it is 0. -/
theorem slt_one_ofNat (n : ℕ) (hn : n < 512) :
    IntOp.cmpi .slt (BitVec.ofNat 32 n) 1#32 = if n < 1 then 1#1 else 0#1 := by
  have h1 : (BitVec.ofNat 32 n).toInt = (n : Int) := by
    rw [BitVec.toInt_eq_toNat_cond, BitVec.toNat_ofNat]
    have : n % 2 ^ 32 = n := Nat.mod_eq_of_lt (by omega)
    rw [this, if_pos (by omega)]
  have h2 : (1#32 : BitVec 32).toInt = 1 := by decide
  show BitVec.ofBool ((BitVec.ofNat 32 n).slt 1#32) = _
  rw [BitVec.slt, h1, h2]
  by_cases h : n < 1
  · rw [if_pos h]; have : ((n : Int) < 1) := by omega
    simp [this]
  · rw [if_neg h]; have : ¬ ((n : Int) < 1) := by omega
    simp [this]

/-- A coordinate below 512, as a 32-bit word, is signed-at-least 511 exactly when it is 511. -/
theorem sge_511_ofNat (n : ℕ) (hn : n < 512) :
    IntOp.cmpi .sge (BitVec.ofNat 32 n) 511#32 = if 511 ≤ n then 1#1 else 0#1 := by
  have h1 : (BitVec.ofNat 32 n).toInt = (n : Int) := by
    rw [BitVec.toInt_eq_toNat_cond, BitVec.toNat_ofNat]
    have : n % 2 ^ 32 = n := Nat.mod_eq_of_lt (by omega)
    rw [this, if_pos (by omega)]
  have h2 : (511#32 : BitVec 32).toInt = 511 := by decide
  show BitVec.ofBool ((511#32 : BitVec 32).sle (BitVec.ofNat 32 n)) = _
  rw [BitVec.sle, h1, h2]
  by_cases h : 511 ≤ n
  · rw [if_pos h]; have : ((511 : Int) ≤ n) := by omega
    simp [this]
  · rw [if_neg h]; have : ¬ ((511 : Int) ≤ n) := by omega
    simp [this]

/-- The first mask marks the first row. -/
theorem pay6_at (b : Fin 2) (h w : Fin 512) : k0_pay6 (ix3 b h w) = if h.val < 1 then 1#1 else 0#1 := by
  unfold k0_pay6
  show IntOp.cmpi .slt (BitVec.ofNat 32 (0 * 512 + h.val)) 1#32 = _
  rw [Nat.zero_mul, Nat.zero_add]
  exact slt_one_ofNat h.val h.isLt

/-- The second mask marks the last row. -/
theorem pay7_at (b : Fin 2) (h w : Fin 512) : k0_pay7 (ix3 b h w) = if 511 ≤ h.val then 1#1 else 0#1 := by
  unfold k0_pay7
  show IntOp.cmpi .sge (BitVec.ofNat 32 (0 * 512 + h.val)) 511#32 = _
  rw [Nat.zero_mul, Nat.zero_add]
  exact sge_511_ofNat h.val h.isLt

/-- The third mask marks the first column. -/
theorem pay8_at (b : Fin 2) (h w : Fin 512) : k0_pay8 (ix3 b h w) = if w.val < 1 then 1#1 else 0#1 := by
  unfold k0_pay8
  show IntOp.cmpi .slt (BitVec.ofNat 32 (0 * 512 + w.val)) 1#32 = _
  rw [Nat.zero_mul, Nat.zero_add]
  exact slt_one_ofNat w.val w.isLt

/-- The fourth mask marks the last column. -/
theorem pay9_at (b : Fin 2) (h w : Fin 512) : k0_pay9 (ix3 b h w) = if 511 ≤ w.val then 1#1 else 0#1 := by
  unfold k0_pay9
  show IntOp.cmpi .sge (BitVec.ofNat 32 (0 * 512 + w.val)) 511#32 = _
  rw [Nat.zero_mul, Nat.zero_add]
  exact sge_511_ofNat w.val w.isLt

/-! ## The four rotations away from the wrapped entry -/

/-- A rotation by 1 along the rows reads the previous row (off the first row). -/
theorem rot_up (x : FVec Ideal S2x512x512 .f32) (b : Fin 2) (h w : Fin 512) (hh : 1 ≤ h.val) :
    dynamicRotate 1 1#32 none x rotates_S2x512x512_d1 (ix3 b h w) = x (ix3 b ⟨h.val - 1, by omega⟩ w) := by
  refine dynamicRotate_apply (1 : Fin 3) 1#32 x rotates_S2x512x512_d1 _ _ ?_
  intro a
  fin_cases a
  · simp [ix3]
  · simp [ix3]
    omega
  · simp [ix3]

/-- A rotation by 511 = −1 (mod 512) along the rows reads the next row (off the last row). -/
theorem rot_down (x : FVec Ideal S2x512x512 .f32) (b : Fin 2) (h w : Fin 512) (hh : h.val + 1 < 512) :
    dynamicRotate 1 511#32 none x rotates_S2x512x512_d1 (ix3 b h w) = x (ix3 b ⟨h.val + 1, hh⟩ w) := by
  refine dynamicRotate_apply (1 : Fin 3) 511#32 x rotates_S2x512x512_d1 _ _ ?_
  intro a
  fin_cases a
  · simp [ix3]
  · simp [ix3]
    omega
  · simp [ix3]

/-- A rotation by 1 along the columns reads the previous column (off the first column). -/
theorem rot_left (x : FVec Ideal S2x512x512 .f32) (b : Fin 2) (h w : Fin 512) (hw : 1 ≤ w.val) :
    dynamicRotate 2 1#32 none x rotates_S2x512x512_d2 (ix3 b h w) = x (ix3 b h ⟨w.val - 1, by omega⟩) := by
  refine dynamicRotate_apply (2 : Fin 3) 1#32 x rotates_S2x512x512_d2 _ _ ?_
  intro a
  fin_cases a
  · simp [ix3]
  · simp [ix3]
  · simp [ix3]
    omega

/-- A rotation by 511 = −1 (mod 512) along the columns reads the next column (off the last column). -/
theorem rot_right (x : FVec Ideal S2x512x512 .f32) (b : Fin 2) (h w : Fin 512) (hw : w.val + 1 < 512) :
    dynamicRotate 2 511#32 none x rotates_S2x512x512_d2 (ix3 b h w) = x (ix3 b h ⟨w.val + 1, hw⟩) := by
  refine dynamicRotate_apply (2 : Fin 3) 511#32 x rotates_S2x512x512_d2 _ _ ?_
  intro a
  fin_cases a
  · simp [ix3]
  · simp [ix3]
  · simp [ix3]
    omega

/-! ## The four masked neighbour blocks, and what the kernel builds from them -/

/-- The block of previous rows, `fw`'s value on the first row. -/
def upV (fw : BitVec 32) (x : FVec Ideal S2x512x512 .f32) : FVec Ideal S2x512x512 .f32 :=
  select k0_pay6 (broadcast S2x512x512 (Scalar.ofBits (F := Ideal) .f32 fw)) (dynamicRotate 1 1#32 none x rotates_S2x512x512_d1)
/-- The block of next rows, `fw`'s value on the last row. -/
def downV (fw : BitVec 32) (x : FVec Ideal S2x512x512 .f32) : FVec Ideal S2x512x512 .f32 :=
  select k0_pay7 (broadcast S2x512x512 (Scalar.ofBits (F := Ideal) .f32 fw)) (dynamicRotate 1 511#32 none x rotates_S2x512x512_d1)
/-- The block of previous columns, `fw`'s value on the first column. -/
def leftV (fw : BitVec 32) (x : FVec Ideal S2x512x512 .f32) : FVec Ideal S2x512x512 .f32 :=
  select k0_pay8 (broadcast S2x512x512 (Scalar.ofBits (F := Ideal) .f32 fw)) (dynamicRotate 2 1#32 none x rotates_S2x512x512_d2)
/-- The block of next columns, `fw`'s value on the last column. -/
def rightV (fw : BitVec 32) (x : FVec Ideal S2x512x512 .f32) : FVec Ideal S2x512x512 .f32 :=
  select k0_pay9 (broadcast S2x512x512 (Scalar.ofBits (F := Ideal) .f32 fw)) (dynamicRotate 2 511#32 none x rotates_S2x512x512_d2)

/-- On each image the masked rotation by 1 along the rows is `up`. -/
theorem planeK_upV (fw : BitVec 32) (x : FVec Ideal S2x512x512 .f32) (b : Fin 2) :
    planeK (upV fw x) b = up (Ideal.ofBits .f32 fw) (planeK x b) := by
  funext h w
  show Scalar.select (k0_pay6 (ix3 b h w)) (Ideal.ofBits .f32 fw) (dynamicRotate 1 1#32 none x rotates_S2x512x512_d1 (ix3 b h w)) = _
  unfold up
  rw [pay6_at]
  by_cases hh : 1 ≤ h.val
  · rw [if_neg (by omega), select_zero, dif_pos hh, rot_up x b h w hh]; rfl
  · rw [if_pos (by omega), select_one, dif_neg hh]

/-- On each image the masked rotation by 511 along the rows is `down`. -/
theorem planeK_downV (fw : BitVec 32) (x : FVec Ideal S2x512x512 .f32) (b : Fin 2) :
    planeK (downV fw x) b = down (Ideal.ofBits .f32 fw) (planeK x b) := by
  funext h w
  show Scalar.select (k0_pay7 (ix3 b h w)) (Ideal.ofBits .f32 fw) (dynamicRotate 1 511#32 none x rotates_S2x512x512_d1 (ix3 b h w)) = _
  unfold down
  rw [pay7_at]
  by_cases hh : h.val + 1 < 512
  · rw [if_neg (by omega), select_zero, dif_pos hh, rot_down x b h w hh]; rfl
  · rw [if_pos (by omega), select_one, dif_neg hh]

/-- On each image the masked rotation by 1 along the columns is `left`. -/
theorem planeK_leftV (fw : BitVec 32) (x : FVec Ideal S2x512x512 .f32) (b : Fin 2) :
    planeK (leftV fw x) b = left (Ideal.ofBits .f32 fw) (planeK x b) := by
  funext h w
  show Scalar.select (k0_pay8 (ix3 b h w)) (Ideal.ofBits .f32 fw) (dynamicRotate 2 1#32 none x rotates_S2x512x512_d2 (ix3 b h w)) = _
  unfold left
  rw [pay8_at]
  by_cases hw : 1 ≤ w.val
  · rw [if_neg (by omega), select_zero, dif_pos hw, rot_left x b h w hw]; rfl
  · rw [if_pos (by omega), select_one, dif_neg hw]

/-- On each image the masked rotation by 511 along the columns is `right`. -/
theorem planeK_rightV (fw : BitVec 32) (x : FVec Ideal S2x512x512 .f32) (b : Fin 2) :
    planeK (rightV fw x) b = right (Ideal.ofBits .f32 fw) (planeK x b) := by
  funext h w
  show Scalar.select (k0_pay9 (ix3 b h w)) (Ideal.ofBits .f32 fw) (dynamicRotate 2 511#32 none x rotates_S2x512x512_d2 (ix3 b h w)) = _
  unfold right
  rw [pay9_at]
  by_cases hw : w.val + 1 < 512
  · rw [if_neg (by omega), select_zero, dif_pos hw, rot_right x b h w hw]; rfl
  · rw [if_pos (by omega), select_one, dif_neg hw]

/-- The erosion of a block as the kernel writes it. -/
def erodeV (x : FVec Ideal S2x512x512 .f32) : FVec Ideal S2x512x512 .f32 :=
  minimumf (minimumf (minimumf x (upV 0x7F800000#32 x)) (downV 0x7F800000#32 x))
    (minimumf (minimumf x (leftV 0x7F800000#32 x)) (rightV 0x7F800000#32 x))
/-- The maximum over three rows of a block as the kernel writes it. -/
def maxHV (x : FVec Ideal S2x512x512 .f32) : FVec Ideal S2x512x512 .f32 :=
  maximumf (maximumf x (upV 0xFF800000#32 x)) (downV 0xFF800000#32 x)
/-- The maximum over three columns of a block as the kernel writes it. -/
def maxWV (x : FVec Ideal S2x512x512 .f32) : FVec Ideal S2x512x512 .f32 :=
  maximumf (maximumf x (leftV 0xFF800000#32 x)) (rightV 0xFF800000#32 x)
/-- What a block loses under opening, clipped at zero, as the kernel writes it from the block and its erosion. -/
def deltaV (e er : FVec Ideal S2x512x512 .f32) : FVec Ideal S2x512x512 .f32 :=
  maximumf (subf e (maxWV (maxHV er))) (broadcast S2x512x512 (Scalar.ofBits (F := Ideal) .f32 0x00000000#32))

/-- The block erosion is the erosion of each image. -/
theorem planeK_erodeV (x : FVec Ideal S2x512x512 .f32) (b : Fin 2) : planeK (erodeV x) b = erodeP (planeK x b) := by
  funext h w
  show min (min (min (planeK x b h w) (planeK (upV 0x7F800000#32 x) b h w)) (planeK (downV 0x7F800000#32 x) b h w))
      (min (min (planeK x b h w) (planeK (leftV 0x7F800000#32 x) b h w)) (planeK (rightV 0x7F800000#32 x) b h w)) = _
  rw [planeK_upV, planeK_downV, planeK_leftV, planeK_rightV, ofBits_posInf]
  rfl

/-- The block maximum over three rows is that of each image. -/
theorem planeK_maxHV (x : FVec Ideal S2x512x512 .f32) (b : Fin 2) : planeK (maxHV x) b = maxH (planeK x b) := by
  funext h w
  show max (max (planeK x b h w) (planeK (upV 0xFF800000#32 x) b h w)) (planeK (downV 0xFF800000#32 x) b h w) = _
  rw [planeK_upV, planeK_downV, ofBits_negInf]
  rfl

/-- The block maximum over three columns is that of each image. -/
theorem planeK_maxWV (x : FVec Ideal S2x512x512 .f32) (b : Fin 2) : planeK (maxWV x) b = maxW (planeK x b) := by
  funext h w
  show max (max (planeK x b h w) (planeK (leftV 0xFF800000#32 x) b h w)) (planeK (rightV 0xFF800000#32 x) b h w) = _
  rw [planeK_leftV, planeK_rightV, ofBits_negInf]
  rfl

/-- The block's loss under opening is that of each image. -/
theorem planeK_deltaV (e : FVec Ideal S2x512x512 .f32) (b : Fin 2) :
    planeK (deltaV e (erodeV e)) b = deltaP (planeK e b) := by
  funext h w
  show max (planeK e b h w - planeK (maxWV (maxHV (erodeV e))) b h w) (Ideal.ofBits .f32 0x00000000#32) = _
  rw [planeK_maxWV, planeK_maxHV, planeK_erodeV, Ideal.ofBits_zero_f32]
  rfl

/-! ## The payloads -/

/-- The shape cast of a block to its own shape is the block. -/
theorem pay10_eq (y : Vec Ideal S2x512x512 .f32) : k0_pay10 (F := Ideal) y = y := by
  unfold k0_pay10
  exact shapeCast_self y _

/-- The logistic function, entry by entry. -/
theorem pay11_apply (x : Vec Ideal S2x512x512 .f32) (b : Fin 2) (h w : Fin 512) :
    k0_pay11 (F := Ideal) x (ix3 b h w) = sigP (planeK x b) h w := by
  show Ideal.logistic (k0_pay10 (F := Ideal) x (ix3 b h w)) = _
  rw [pay10_eq]
  rfl

/-- The logistic block is the logistic image, image by image. -/
theorem planeK_pay11 (x : Vec Ideal S2x512x512 .f32) (b : Fin 2) : planeK (k0_pay11 (F := Ideal) x) b = sigP (planeK x b) := by
  funext h w; exact pay11_apply x b h w

/-- The erosion inside the first loop. -/
theorem pay2_apply (e : FVec Ideal S2x512x512 .f32) (b : Fin 2) (h w : Fin 512) :
    k0_pay2 (F := Ideal) k0_pay6 k0_pay7 k0_pay8 k0_pay9 e (ix3 b h w) = erodeP (planeK e b) h w :=
  congrFun (congrFun (planeK_erodeV e b) h) w

/-- The skeleton update of a block as the kernel writes it. -/
def accV (s d : FVec Ideal S2x512x512 .f32) : FVec Ideal S2x512x512 .f32 :=
  addf s (maximumf (subf d (mulf s d)) (broadcast S2x512x512 (Scalar.ofBits (F := Ideal) .f32 0x00000000#32)))

/-- The block's skeleton update is that of each image. -/
theorem planeK_accV (s d : FVec Ideal S2x512x512 .f32) (b : Fin 2) : planeK (accV s d) b = accP (planeK s b) (planeK d b) := by
  funext h w
  show planeK s b h w + max (planeK d b h w - planeK s b h w * planeK d b h w) (Ideal.ofBits .f32 0x00000000#32) = _
  rw [Ideal.ofBits_zero_f32]
  rfl

/-- The skeleton update inside the first loop. -/
theorem pay3_apply (e s : FVec Ideal S2x512x512 .f32) (b : Fin 2) (h w : Fin 512) :
    k0_pay3 (F := Ideal) k0_pay6 k0_pay7 k0_pay8 k0_pay9 e s (ix3 b h w) = accP (planeK s b) (deltaP (planeK e b)) h w := by
  show planeK (accV s (deltaV e (erodeV e))) b h w = _
  rw [planeK_accV, planeK_deltaV]

/-- The erosion inside the second loop. -/
theorem pay4_apply (e : FVec Ideal S2x512x512 .f32) (b : Fin 2) (h w : Fin 512) :
    k0_pay4 (F := Ideal) k0_pay6 k0_pay7 k0_pay8 k0_pay9 e (ix3 b h w) = erodeP (planeK e b) h w :=
  congrFun (congrFun (planeK_erodeV e b) h) w

/-- The skeleton update inside the second loop. -/
theorem pay5_apply (e s : FVec Ideal S2x512x512 .f32) (b : Fin 2) (h w : Fin 512) :
    k0_pay5 (F := Ideal) k0_pay6 k0_pay7 k0_pay8 k0_pay9 e s (ix3 b h w) = accP (planeK s b) (deltaP (planeK e b)) h w := by
  show planeK (accV s (deltaV e (erodeV e))) b h w = _
  rw [planeK_accV, planeK_deltaV]

/-- The first erosion of the predictions: of the logistic image. -/
theorem pay12_apply (x : Vec Ideal S2x512x512 .f32) (b : Fin 2) (h w : Fin 512) :
    k0_pay12 (F := Ideal) x (ix3 b h w) = erodeP (sigP (planeK x b)) h w := by
  show planeK (erodeV (k0_pay11 (F := Ideal) x)) b h w = _
  rw [planeK_erodeV, planeK_pay11]

/-- The first skeleton of the predictions: what the logistic image loses under opening, clipped at zero. -/
theorem pay15_apply (x : Vec Ideal S2x512x512 .f32) (b : Fin 2) (h w : Fin 512) :
    k0_pay15 (F := Ideal) k0_pay7 k0_pay8 k0_pay9 (k0_pay11 x) (k0_pay13 x) (k0_pay14 x) (Scalar.ofBits .f32 0xFF800000#32) (ix3 b h w)
      = deltaP (sigP (planeK x b)) h w := by
  show planeK (deltaV (k0_pay11 (F := Ideal) x) (erodeV (k0_pay11 (F := Ideal) x))) b h w = _
  rw [planeK_deltaV, planeK_pay11]

/-- The first erosion of the targets. -/
theorem pay18_apply (y : FVec Ideal S2x512x512 .f32) (b : Fin 2) (h w : Fin 512) :
    k0_pay18 (F := Ideal) k0_pay6 k0_pay7 k0_pay8 k0_pay9 y (ix3 b h w) = erodeP (planeK y b) h w :=
  congrFun (congrFun (planeK_erodeV y b) h) w

/-- The first skeleton of the targets. -/
theorem pay19_apply (y : FVec Ideal S2x512x512 .f32) (b : Fin 2) (h w : Fin 512) :
    k0_pay19 (F := Ideal) k0_pay6 k0_pay7 k0_pay8 k0_pay9 y (k0_pay18 (F := Ideal) k0_pay6 k0_pay7 k0_pay8 k0_pay9 y) (ix3 b h w) = deltaP (planeK y b) h w := by
  show planeK (deltaV y (erodeV y)) b h w = _
  rw [planeK_deltaV]

end Cert.Proof.KV
end
-- ==== Proof.KernelSums.lean ====
/-
  The kernel's four block sums and their placement, at the ideal instance.

  A block's sum is taken by viewing the [2, 512, 512] block as [1, 2, 512, 512], reducing its last three axes into a
  one-entry vector, and extracting that entry: at the ideal instance the sum over all 2 · 512 · 512 entries.
  The stored [1, 8, 128] block carries the four sums in lanes 0, 1, 2, 3 of its first row: four nested selections on
  (row = 0 ∧ lane = k), the later selections outermost.
-/
import proofs.«429048_j16329465659785_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Proof.KS

open Cert.KernelIdeal Cert.KernelIdeal.Gen
open Idealize.ShloMosaic Idealize.ShloMosaic.ValueIdx

/-- The indices of a `[1, a, b, c]` array are the triples of its three non-unit coordinates: the unit axis has the one
coordinate `0`. -/
def idx4Equiv (a b c : ℕ) : (⟨4, ![1, a, b, c]⟩ : Shape).Idx ≃ Fin a × Fin b × Fin c where
  toFun i := ((i 1 : Fin a), (i 2 : Fin b), (i 3 : Fin c))
  invFun p := ix4 (0 : Fin 1) p.1 p.2.1 p.2.2
  left_inv i := by
    funext d
    match d with
    | ⟨0, _⟩ => exact Subsingleton.elim (α := Fin 1) _ _
    | ⟨1, _⟩ => rfl
    | ⟨2, _⟩ => rfl
    | ⟨3, _⟩ => rfl
  right_inv p := rfl

/-- A sum over every index of a `[1, a, b, c]` array is the iterated sum over its three non-unit coordinates. -/
theorem sum_idx4 {a b c : ℕ} (f : (⟨4, ![1, a, b, c]⟩ : Shape).Idx → EReal) :
    ∑ i, f i = ∑ x : Fin a, ∑ y : Fin b, ∑ z : Fin c, f (ix4 (0 : Fin 1) x y z) := by
  rw [← Equiv.sum_comp (idx4Equiv a b c).symm, Fintype.sum_prod_type]
  refine Finset.sum_congr rfl fun x _ => ?_
  rw [Fintype.sum_prod_type]
  rfl

/-- A block viewed as `[1, 2, 512, 512]`, reduced by addition over its last three axes into the one-entry vector, viewed
as `[1, 1, 1, 1]` and read at its only index: the reduction into a one-entry shape is the sum over every index of the
view, the view at `(0, b, h, w)` is the block at `(b, h, w)`, so the value is the block's sum over its coordinates. -/
theorem blockSum_eq (x : FVec Ideal S2x512x512 .f32) :
    extractAt ![0, 0, 0, 0]
        (shapeCast S1x1x1x1
          (multiReduction .add [1, 2, 3] S1 (shapeCast S1x2x512x512 x shapeCasts_S2x512x512_S1x2x512x512) 0x00000000#32
            reduces_S1x2x512x512_S1 (.inl rfl) rfl)
          shapeCasts_S1_S1x1x1x1)
        inpos_S1x1x1x1_p0_0_0_0
      = ∑ b : Fin 2, ∑ h : Fin 512, ∑ w : Fin 512, x (ix3 b h w) := by
  refine (Ideal.multiReduction_add_total (shapeCast S1x2x512x512 x shapeCasts_S2x512x512_S1x2x512x512) 0x00000000#32
    reduces_S1x2x512x512_S1 (by decide) (.inl rfl) rfl _).trans ?_
  rw [sum_idx4]
  simp only [shapeCast_abc_1abc_apply]

/-- The sum of the products of two blocks. -/
theorem pay16_eq (y s : FVec Ideal S2x512x512 .f32) :
    k0_pay16 (F := Ideal) y s = ∑ b : Fin 2, ∑ h : Fin 512, ∑ w : Fin 512, s (ix3 b h w) * y (ix3 b h w) := by
  unfold k0_pay16
  exact (blockSum_eq (mulf s y)).trans (by simp only [mulf_apply])

/-- The sum of a block. -/
theorem pay17_eq (s : FVec Ideal S2x512x512 .f32) :
    k0_pay17 (F := Ideal) s = ∑ b : Fin 2, ∑ h : Fin 512, ∑ w : Fin 512, s (ix3 b h w) := by
  unfold k0_pay17
  exact blockSum_eq s

/-- The sum of the products of two blocks (second skeleton). -/
theorem pay20_eq (v s : FVec Ideal S2x512x512 .f32) :
    k0_pay20 (F := Ideal) v s = ∑ b : Fin 2, ∑ h : Fin 512, ∑ w : Fin 512, s (ix3 b h w) * v (ix3 b h w) := by
  unfold k0_pay20
  exact (blockSum_eq (mulf s v)).trans (by simp only [mulf_apply])

/-- The sum of a block (second skeleton). -/
theorem pay21_eq (s : FVec Ideal S2x512x512 .f32) :
    k0_pay21 (F := Ideal) s = ∑ b : Fin 2, ∑ h : Fin 512, ∑ w : Fin 512, s (ix3 b h w) := by
  unfold k0_pay21
  exact blockSum_eq s

/-- Lane `l < 4` of the first row of the stored block holds the `l`-th sum. -/
theorem lanes_apply (s1 s2 s3 s4 : EReal) (l : Fin 4) :
    k0_pay1 (F := Ideal) s2 s3 s4 (iota .tc S1x8x128 32 [1] iota_S1x8x128_d1_w32) (iota .tc S1x8x128 32 [2] iota_S1x8x128_d2_w32)
        (k0_pay22 (F := Ideal) s1) k0_pay23 (ix3 (0 : Fin 1) (0 : Fin 8) (⟨l.val, by omega⟩ : Fin 128))
      = ![s1, s2, s3, s4] l := by
  -- The row coordinate is 0, so every row test holds; the lane coordinate is `l`, so of the four lane tests
  -- (against 0, 1, 2, 3) exactly the `l`-th holds: the nested selections return the `l`-th sum.
  unfold k0_pay1 k0_pay22 k0_pay23
  fin_cases l <;> rfl

end Cert.Proof.KS

end
-- ==== Proof.Sums.lean ====
/-
  The four sums of a stack of image pairs (predictions `pp`, targets `tt`), over every image, row and column:
    0: skeleton (σ pred) · target     1: skeleton (σ pred)     2: skeleton (target) · σ pred     3: skeleton (target).
-/
import proofs.«429048_j16329465659785_3_alg».proof.Proof.Plane

noncomputable section

namespace ClDice

/-- The four sums. -/
def sums4 {B : Nat} (pp tt : Fin B → Plane) : Fin 4 → EReal :=
  ![∑ b : Fin B, ∑ h : Fin 512, ∑ w : Fin 512, skelP (sigP (pp b)) h w * tt b h w,
    ∑ b : Fin B, ∑ h : Fin 512, ∑ w : Fin 512, skelP (sigP (pp b)) h w,
    ∑ b : Fin B, ∑ h : Fin 512, ∑ w : Fin 512, skelP (tt b) h w * sigP (pp b) h w,
    ∑ b : Fin B, ∑ h : Fin 512, ∑ w : Fin 512, skelP (tt b) h w]

end ClDice

end
-- ==== Proof.KernelFold.lean ====
/-
  What a grid point stores, at the ideal instance: each loop's fold is ten steps of the skeleton recurrence on each of
  the block's two images, so lane `l < 4` of the stored block's first row is the `l`-th of the four sums over the block's
  two image pairs.
-/
import proofs.«429048_j16329465659785_3_alg».proof.Proof.KernelBodyI
import proofs.«429048_j16329465659785_3_alg».proof.Proof.KernelPools
import proofs.«429048_j16329465659785_3_alg».proof.Proof.KernelSums
import proofs.«429048_j16329465659785_3_alg».proof.Proof.Sums

noncomputable section

namespace Cert.Proof.KF

open Cert.KernelIdeal Cert.KernelIdeal.Gen ClDice
open Cert.Proof.KI Cert.Proof.KV Cert.Proof.KS
open Idealize.ShloMosaic Idealize.ShloMosaic.ValueIdx

/-! ## A loop whose trips ignore the trip number iterates its trip map -/

/-- Folding a list by a map that ignores the list's entries applies the map once per entry. -/
theorem foldl_const_iterate {α σ : Type} (f : σ → σ) : ∀ (l : List α) (init : σ),
    l.foldl (fun acc _ => f acc) init = f^[l.length] init
  | [], _ => rfl
  | _ :: l, init => by
    rw [List.foldl_cons, List.length_cons, Function.iterate_succ_apply]
    exact foldl_const_iterate f l (f init)

/-- So the fold of a trip map that ignores the trip number, over `n` trips, is the `n`-th iterate. -/
theorem fold_const {σ : Type} {n : ℕ} (f : σ → σ) (init : σ) :
    Scf.fold (n := n) (fun _ acc => f acc) init = f^[n] init := by
  rw [Scf.fold_eq, foldl_const_iterate, List.length_finRange]

/-- The first loop runs ten trips: from 0 to 0 + 10 by 1. -/
theorem trips1 : k0_t1_loop.trips = 10 := by decide

/-- The second loop runs ten trips likewise. -/
theorem trips2 : k0_t2_loop.trips = 10 := by decide

/-! ## A trip is, on each image, one step of the skeleton recurrence -/

/-- A pair of blocks. -/
abbrev Blocks := FVec Ideal S2x512x512 .f32 × FVec Ideal S2x512x512 .f32

/-- Image `b` of each block of a pair. -/
def planes2 (p : Blocks) (b : Fin 2) : Plane × Plane := (planeK p.1 b, planeK p.2 b)

/-- A trip of the first loop on the carried pair (eroded block, skeleton). -/
def tripA (p : Blocks) : Blocks :=
  (k0_pay2 k0_pay6 k0_pay7 k0_pay8 k0_pay9 p.1, k0_pay3 k0_pay6 k0_pay7 k0_pay8 k0_pay9 p.1 p.2)

/-- A trip of the second loop on the carried pair. -/
def tripB (p : Blocks) : Blocks :=
  (k0_pay4 k0_pay6 k0_pay7 k0_pay8 k0_pay9 p.1, k0_pay5 k0_pay6 k0_pay7 k0_pay8 k0_pay9 p.1 p.2)

/-- On each image a trip of the first loop erodes the carried image and adds what it loses under opening to the
skeleton: one step of the recurrence. -/
theorem planes2_tripA (p : Blocks) (b : Fin 2) : planes2 (tripA p) b = stepP (planes2 p b) :=
  Prod.ext (funext fun h => funext fun w => pay2_apply p.1 b h w)
    (funext fun h => funext fun w => pay3_apply p.1 p.2 b h w)

/-- A trip of the second loop likewise. -/
theorem planes2_tripB (p : Blocks) (b : Fin 2) : planes2 (tripB p) b = stepP (planes2 p b) :=
  Prod.ext (funext fun h => funext fun w => pay4_apply p.1 b h w)
    (funext fun h => funext fun w => pay5_apply p.1 p.2 b h w)

/-- So any number of trips is, on each image, that many steps of the recurrence. -/
theorem planes2_iterate (g : Blocks → Blocks) (hg : ∀ p b, planes2 (g p) b = stepP (planes2 p b)) (b : Fin 2) :
    ∀ (n : ℕ) (p : Blocks), planes2 (g^[n] p) b = stepP^[n] (planes2 p b)
  | 0, _ => rfl
  | n + 1, p => by
    rw [Function.iterate_succ_apply, Function.iterate_succ_apply, planes2_iterate g hg b n (g p), hg]

/-- The first loop's skeleton, image by image: the soft skeleton of the logistic image. -/
theorem foldA_plane (x : Vec Ideal S2x512x512 .f32) (b : Fin 2) (h w : Fin 512) :
    (foldA (F := Ideal) x).2 (ix3 b h w) = skelP (sigP (planeK x b)) h w := by
  -- ten trips from (erode (σ x), what σ x loses under opening): on image `b` ten steps from the skeleton's start
  have hfold : foldA (F := Ideal) x = tripA^[10]
      (k0_pay12 x, k0_pay15 k0_pay7 k0_pay8 k0_pay9 (k0_pay11 x) (k0_pay13 x) (k0_pay14 x) (Scalar.ofBits .f32 0xFF800000#32)) := by
    unfold foldA
    rw [← trips1]
    exact fold_const tripA _
  have hstart : planes2 (k0_pay12 (F := Ideal) x,
      k0_pay15 k0_pay7 k0_pay8 k0_pay9 (k0_pay11 x) (k0_pay13 x) (k0_pay14 x) (Scalar.ofBits .f32 0xFF800000#32)) b
        = (erodeP (sigP (planeK x b)), deltaP (sigP (planeK x b))) :=
    Prod.ext (funext fun h => funext fun w => pay12_apply x b h w) (funext fun h => funext fun w => pay15_apply x b h w)
  show (planes2 (foldA (F := Ideal) x) b).2 h w = _
  rw [hfold, planes2_iterate tripA planes2_tripA b, hstart]
  rfl

/-- The second loop's skeleton, image by image: the soft skeleton of the target image. -/
theorem foldB_plane (y : Vec Ideal S2x512x512 .f32) (b : Fin 2) (h w : Fin 512) :
    (foldB (F := Ideal) y).2 (ix3 b h w) = skelP (planeK y b) h w := by
  -- ten trips from (erode y, what y loses under opening): on image `b` ten steps from the skeleton's start
  have hfold : foldB (F := Ideal) y = tripB^[10]
      (k0_pay18 k0_pay6 k0_pay7 k0_pay8 k0_pay9 (k0_pay10 y),
        k0_pay19 k0_pay6 k0_pay7 k0_pay8 k0_pay9 (k0_pay10 y) (k0_pay18 k0_pay6 k0_pay7 k0_pay8 k0_pay9 (k0_pay10 y))) := by
    unfold foldB
    rw [← trips2]
    exact fold_const tripB _
  have hstart : planes2 (k0_pay18 (F := Ideal) k0_pay6 k0_pay7 k0_pay8 k0_pay9 (k0_pay10 y),
      k0_pay19 k0_pay6 k0_pay7 k0_pay8 k0_pay9 (k0_pay10 y) (k0_pay18 k0_pay6 k0_pay7 k0_pay8 k0_pay9 (k0_pay10 y))) b
        = (erodeP (planeK y b), deltaP (planeK y b)) := by
    rw [pay10_eq]
    exact Prod.ext (funext fun h => funext fun w => pay18_apply y b h w) (funext fun h => funext fun w => pay19_apply y b h w)
  show (planes2 (foldB (F := Ideal) y) b).2 h w = _
  rw [hfold, planes2_iterate tripB planes2_tripB b, hstart]
  rfl

/-- Lane `l < 4` of the first row of what a point stores: the `l`-th sum over the block's two image pairs. -/
theorem blockOut_lane (x y : Vec Ideal S2x512x512 .f32) (l : Fin 4) :
    blockOut (F := Ideal) x y (ix3 (0 : Fin 1) (0 : Fin 8) (⟨l.val, by omega⟩ : Fin 128)) = sums4 (planeK x) (planeK y) l := by
  unfold blockOut
  rw [lanes_apply, pay16_eq, pay17_eq, pay20_eq, pay21_eq, pay10_eq]
  simp only [foldA_plane, foldB_plane, pay11_apply]
  fin_cases l <;> rfl

end Cert.Proof.KF

end
-- ==== Proof.SumsBlocks.lean ====
/-
  Sixteen blocks of two images are thirty-two images: each of the four sums over all 32 image pairs is the sum, over
  the 16 blocks, of that sum over the block's two pairs (images 2k and 2k + 1 form block k).
-/
import proofs.«429048_j16329465659785_3_alg».proof.Proof.Sums
import Mathlib.Algebra.BigOperators.Group.Finset.Defs
import Mathlib.Data.Fintype.BigOperators
import Mathlib.Logic.Equiv.Fin.Basic

noncomputable section

namespace ClDice

/-- Image `b` of block `k`. -/
def inBlock (k : Fin 16) (b : Fin 2) : Fin 32 := ⟨2 * k.val + b.val, by omega⟩

/-- A sum over the 32 images is the sum over the 16 blocks of the sum over each block's two images: `(k, b) ↦ 2k + b` is a
bijection from `Fin 16 × Fin 2` onto `Fin 32`. -/
theorem sum_blocks (g : Fin 32 → EReal) : ∑ k : Fin 16, ∑ b : Fin 2, g (inBlock k b) = ∑ n : Fin 32, g n := by
  rw [← Fintype.sum_prod_type' (fun k b => g (inBlock k b))]
  refine Fintype.sum_equiv (finProdFinEquiv (m := 16) (n := 2)) _ _ fun p => congrArg g (Fin.ext ?_)
  show 2 * p.1.val + p.2.val = p.2.val + 2 * p.1.val
  omega

/-- The four sums split over the sixteen blocks. -/
theorem sums4_blocks (pp tt : Fin 32 → Plane) (l : Fin 4) :
    ∑ k : Fin 16, sums4 (fun b : Fin 2 => pp (inBlock k b)) (fun b : Fin 2 => tt (inBlock k b)) l = sums4 pp tt l := by
  fin_cases l
  · exact sum_blocks fun n => ∑ h : Fin 512, ∑ w : Fin 512, skelP (sigP (pp n)) h w * tt n h w
  · exact sum_blocks fun n => ∑ h : Fin 512, ∑ w : Fin 512, skelP (sigP (pp n)) h w
  · exact sum_blocks fun n => ∑ h : Fin 512, ∑ w : Fin 512, skelP (tt n) h w * sigP (pp n) h w
  · exact sum_blocks fun n => ∑ h : Fin 512, ∑ w : Fin 512, skelP (tt n) h w

end ClDice

end
-- ==== Proof.Tail.lean ====
/-
  The scalar formula both programs end with, as one function of the four sums
    a = Σ skel(pred) · target,  b = Σ skel(pred),  c = Σ skel(target) · sigmoid(pred),  d = Σ skel(target):
  with p = (a + 1) / (b + 1) and q = (c + 1) / (d + 1) the result is 1 − 2·p·q / (p + q + ε).
  It is stated over rank-zero tensors at any float instance, in the host's operations, and is never opened:
  the two programs agree as soon as their four sums do.
-/
import Idealize.ShloMosaic.PureOps

noncomputable section

namespace ClDice

open Idealize.ShloMosaic

variable {F : FTy → Type} [FloatOps F]

/-- A rank-zero f32 tensor. -/
abbrev Scal (F : FTy → Type) [FloatOps F] := FVec F (⟨0, ![]⟩ : Shape) .f32

/-- The closing formula on the four sums. -/
def tailH (a b c d : Scal F) : Scal F :=
  let p : Scal F := Host.divf (addf a (constant ⟨0, ![]⟩ .f32 0x3F800000#32)) (addf b (constant ⟨0, ![]⟩ .f32 0x3F800000#32))
  let q : Scal F := Host.divf (addf c (constant ⟨0, ![]⟩ .f32 0x3F800000#32)) (addf d (constant ⟨0, ![]⟩ .f32 0x3F800000#32))
  subf (constant ⟨0, ![]⟩ .f32 0x3F800000#32)
    (Host.divf (mulf (mulf (constant ⟨0, ![]⟩ .f32 0x40000000#32) p) q) (addf (addf p q) (constant ⟨0, ![]⟩ .f32 0x33D6BF95#32)))

end ClDice

end
-- ==== Proof.KernelTail.lean ====
/-
  The kernel program's closing host operations: they sum the [16, 8, 128] output over its grid axis, take lanes 0 to 3
  of the first row, and apply the closing formula. So the program's result is the closing formula of four lane sums of
  the output array; and at the ideal instance lane sum `l` is zero plus the sum over the 16 grid points of what each
  stored in lane `l`, that is the `l`-th of the four sums over all 32 image pairs.
-/
import proofs.«429048_j16329465659785_3_alg».proof.Proof.KernelArray
import proofs.«429048_j16329465659785_3_alg».proof.Proof.KernelFold
import proofs.«429048_j16329465659785_3_alg».proof.Proof.SumsBlocks
import proofs.«429048_j16329465659785_3_alg».proof.Proof.Tail
import Idealize.ShloMosaic.PureOps.Ideal.Laws

noncomputable section

namespace Cert.Proof.KT

open Cert.KernelIdeal Cert.KernelIdeal.Gen
open Cert.Proof.KI Cert.Proof.KA Cert.Proof.KV Cert.Proof.KF ClDice
open Idealize.ShloMosaic Idealize.ShloMosaic.TcCoe Idealize.SL.Sem Idealize.ShloMosaic.ValueIdx Idealize.ShloMosaic.StableHlo
open Idealize.ShloMosaic.Pipeline (Dat)

variable {F : FTy → Type} [FloatOps F]

/-- Lane `l` of the first row of the blocks' sum over the grid axis, as a rank-zero tensor. -/
def laneSum (A : FVec F S16x8x128 .f32) (l : Fin 4) (hs : S8x128.Slices ![0, l.val] S1x1) : FVec F S_ .f32 :=
  shapeCast S_ (extractStridedSlice S1x1 ![0, l.val] (Host.reduceAdd A (constant S_ .f32 0x00000000#32) reducesTo_S16x8x128_S8x128_d0 h_S_) hs) shapeCasts_S1x1_S_

/-- The closing host operations from any contents: the closing formula of the four lane sums of the output array. -/
theorem tail_after (W : Valuation τ sig (Elt F)) (A : FVec F S16x8x128 .f32) (hA : W (Proc.devRef .tc main_v2) = A) :
    StableHlo.after hostOps1 W (Proc.devRef .tc main_v23)
      = tailH (laneSum A 0 slices_S8x128_S1x1_0_0) (laneSum A 1 slices_S8x128_S1x1_0_1) (laneSum A 2 slices_S8x128_S1x1_0_2) (laneSum A 3 slices_S8x128_S1x1_0_3) := by
  subst hA
  after_results_simp <;> rfl

variable (m : (ℓ : Loc nD τ sig) → Buf (Elt F) ℓ)

/-- The program's result after the run. -/
theorem tail_value (c : Dev nD) :
    Pipeline.afterTail₀ cfgs (dats m) 0 (V0 m) [hostOps1] c main_v23
      = tailH (laneSum (outArr m c) 0 slices_S8x128_S1x1_0_0) (laneSum (outArr m c) 1 slices_S8x128_S1x1_0_1) (laneSum (outArr m c) 2 slices_S8x128_S1x1_0_2) (laneSum (outArr m c) 3 slices_S8x128_S1x1_0_3) := by
  unfold Pipeline.afterTail₀
  have hfl : ([hostOps1] : List (List (HloOp τ sig (Elt F)))).flatten = hostOps1 := by
    simp only [List.flatten_cons, List.flatten_nil, List.append_nil]
  rw [hfl]
  exact tail_after _ _ ((Pipeline.withArrays_arr spec0 launch0.win.arr_inj c _ _ 2).trans (final_out m c))

/-- Image `n` of a [32, 1, 512, 512] argument. -/
def planeA (X : S32x1x512x512.Idx → EReal) (n : Fin 32) : Plane := fun h w => X (ix4 n (0 : Fin 1) h w)

/-- At the ideal instance a lane sum is zero plus the sum over the sixteen blocks of that lane of the first row. -/
theorem laneSum_apply (A : FVec Ideal S16x8x128 .f32) (l : Fin 4) (hs : S8x128.Slices ![0, l.val] S1x1) (i : S_.Idx) :
    laneSum (F := Ideal) A l hs i = 0 + ∑ k : Fin 16, A (ix3 k (0 : Fin 8) (⟨l.val, by omega⟩ : Fin 128)) := by
  have hred : S16x8x128.Reduces [0] S8x128 := by decide
  unfold laneSum
  -- the rank-zero cast reads the one entry of the [1, 1] slice, which is entry (0, l) of the reduced array
  rw [shapeCast_apply _ shapeCasts_S1x1_S_ i (ix2 (0 : Fin 1) (0 : Fin 1))
        (congrArg Fin.val (Subsingleton.elim (α := Fin 1) _ _)),
      extractStridedSlice_apply _ _ hs _ (ix2 (0 : Fin 8) (⟨l.val, by omega⟩ : Fin 128)) (fun a => by fin_cases a <;> rfl)]
  -- the host's sum over the grid axis: the initial value plus the sum over the sixteen blocks
  refine (Ideal.hostReduceAdd_single reducesTo_S16x8x128_S8x128_d0 hred A _ _).trans ?_
  have h0 : constant (F := Ideal) S_ .f32 0x00000000#32 (Shape.Idx.first h_S_) = 0 := Ideal.ofBits_zero_f32
  rw [h0]
  -- the index inserted at grid coordinate `k` over (0, l) is (k, 0, l)
  refine congrArg (0 + ·) (Finset.sum_congr rfl fun k _ => congrArg A ?_)
  funext a
  fin_cases a <;> rfl

/-- The kernel's `l`-th lane sum is zero plus the `l`-th of the four sums over all 32 image pairs of the arguments. -/
theorem kernel_sums (mI : (ℓ : Loc nD τ sig) → Buf (Elt Ideal) ℓ) (c : Dev nD) (l : Fin 4) (hs : S8x128.Slices ![0, l.val] S1x1) (i : S_.Idx) :
    laneSum (F := Ideal) (outArr mI c) l hs i
      = 0 + sums4 (planeA (mI ((c : Thread nD τ).loc main_arg0))) (planeA (mI ((c : Thread nD τ).loc main_arg1))) l := by
  rw [laneSum_apply, ← sums4_blocks]
  refine congrArg (0 + ·) (Finset.sum_congr rfl fun k _ => ?_)
  -- entry (k, 0, l) of the output array is what point `k` stored at (0, 0, l): the `l`-th sum over its two image pairs
  show blockOut (iblk mI c 0 (pt k)) (iblk mI c 1 (pt k)) (ix3 (0 : Fin 1) (0 : Fin 8) (⟨l.val, by omega⟩ : Fin 128)) = _
  rw [blockOut_lane]
  -- point `k`'s blocks are images 2k and 2k + 1 of the arguments
  have hx : planeK (iblk mI c 0 (pt k)) = fun b : Fin 2 => planeA (mI ((c : Thread nD τ).loc main_arg0)) (inBlock k b) := by
    funext b h w
    exact iblk0_apply mI c k b h w
  have hy : planeK (iblk mI c 1 (pt k)) = fun b : Fin 2 => planeA (mI ((c : Thread nD τ).loc main_arg1)) (inBlock k b) := by
    funext b h w
    exact iblk1_apply mI c k b h w
  rw [hx, hy]

end Cert.Proof.KT

end
-- ==== Proof.KernelRun.lean ====
/-
  The kernel program's run with its result named: every weakly fair execution terminates, the result buffer holds the
  closing formula of the four lane sums of the output array, and the two arguments end as launched.
-/
import proofs.«429048_j16329465659785_3_alg».proof.Proof.KernelTail

noncomputable section

namespace Cert.Proof.KT

open Cert.KernelIdeal Cert.KernelIdeal.Gen
open Cert.Proof.KI Cert.Proof.KA ClDice
open Idealize.ShloMosaic Idealize.ShloMosaic.TcCoe Idealize.SL.Sem

variable {F : FTy → Type} [FloatOps F]
variable (m : (ℓ : Loc nD τ sig) → Buf (Elt F) ℓ) (ρ : Dev nD → PrngReg)

/-- The program's result as a function of the launch memory. -/
def result (c : Dev nD) : FVec F S_ .f32 :=
  tailH (laneSum (outArr m c) 0 slices_S8x128_S1x1_0_0) (laneSum (outArr m c) 1 slices_S8x128_S1x1_0_1) (laneSum (outArr m c) 2 slices_S8x128_S1x1_0_2) (laneSum (outArr m c) 3 slices_S8x128_S1x1_0_3)

/-- The run, read at the result and at the two arguments. -/
theorem run_value : θ_run defs (onTc (τ := τ) (main (F := F))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v23 (Pipeline.mem_restRefs_of main_v23 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.Proof.KT

end
-- ==== Proof.RefStage.lean ====
/-
  The reference program's stages, each as one function of whole [32, 1, 512, 512] tensors in the host's own
  operations: the logistic function spelt 1 / (1 + exp (−x)); the erosion as the minimum of a 3 × 1 and a 1 × 3 window
  reduction padded with +∞; the dilation as one 3 × 3 window reduction padded with −∞; relu as the maximum with the
  zero tensor; one step of the skeleton recurrence (the image carried, eroded twice); the total sum. `refG` is the
  whole reference: the closing formula of the four sums.
-/
import proofs.«429048_j16329465659785_3_alg».proof.ReferenceIdeal
import proofs.«429048_j16329465659785_3_alg».proof.Proof.Tail

noncomputable section

namespace Cert.Proof.Ref

open Idealize.ShloMosaic Cert.ReferenceIdeal
open Cert.ReferenceIdeal.Facts₀ Cert.ReferenceIdeal.Facts

variable {F : FTy → Type} [FloatOps F] [Cert.ReferenceIdeal.Facts]

/-- A whole image batch. -/
abbrev Img (F : FTy → Type) [FloatOps F] := FVec F S32x1x512x512 .f32

/-- The rank-zero +∞ a minimum window pads with. -/
def posInf : FVec F S_ .f32 := broadcastInDim S_ ![] bcast_S_S_ (constant S_ .f32 0x7F800000#32)
/-- The rank-zero −∞ a maximum window pads with. -/
def negInf : FVec F S_ .f32 := broadcastInDim S_ ![] bcast_S_S_ (constant S_ .f32 0xFF800000#32)
/-- A constant tensor. -/
def splat (b : BitVec 32) : Img F := broadcastInDim S32x1x512x512 ![] bcast_S_S32x1x512x512 (constant S_ .f32 b)

/-- The minimum over three consecutive rows. -/
def minRows (x : Img F) : Img F :=
  Host.reduceWindow FloatOps.minimumf ![1, 1, 3, 1] ![1, 1, 1, 1] ![0, 0, 1, 0] ![0, 0, 1, 0] x (posInf (F := F)) reduceWindows_S32x1x512x512_S32x1x512x512_w1s1p0_0_w1s1p0_0_w3s1p1_1_w1s1p0_0 h_S_
/-- The minimum over three consecutive columns. -/
def minCols (x : Img F) : Img F :=
  Host.reduceWindow FloatOps.minimumf ![1, 1, 1, 3] ![1, 1, 1, 1] ![0, 0, 0, 1] ![0, 0, 0, 1] x (posInf (F := F)) reduceWindows_S32x1x512x512_S32x1x512x512_w1s1p0_0_w1s1p0_0_w1s1p0_0_w3s1p1_1 h_S_
/-- Soft erosion. -/
def erodeH (x : Img F) : Img F := minimumf (minRows x) (minCols x)
/-- Soft dilation: the maximum over the 3 × 3 window. -/
def dilateH (x : Img F) : Img F :=
  Host.reduceWindow FloatOps.maximumf ![1, 1, 3, 3] ![1, 1, 1, 1] ![0, 0, 1, 1] ![0, 0, 1, 1] x (negInf (F := F)) reduceWindows_S32x1x512x512_S32x1x512x512_w1s1p0_0_w1s1p0_0_w3s1p1_1_w3s1p1_1 h_S_
/-- relu. -/
def reluH (x : Img F) : Img F := maximumf x (splat 0x00000000#32)
/-- What an image loses under opening, clipped at zero. -/
def deltaH (x : Img F) : Img F := reluH (subf x (dilateH (erodeH x)))
/-- The skeleton's update by one difference image. -/
def accH (s d : Img F) : Img F := addf s (reluH (subf d (mulf s d)))
/-- The logistic function as the host spells it. -/
def sigH (x : Img F) : Img F := Host.divf (splat 0x3F800000#32) (addf (splat 0x3F800000#32) (Host.exp (Host.negf x)))
/-- One step: the image eroded, the skeleton updated by the eroded image's difference. -/
def stepH (p : Img F × Img F) : Img F × Img F := (erodeH p.1, accH p.2 (deltaH (erodeH p.1)))
/-- The soft skeleton: ten steps from the image and its own difference. -/
def skelH (img : Img F) : Img F := (stepH^[10] (img, deltaH img)).2
/-- The sum of every entry. -/
def sumH (x : Img F) : FVec F S_ .f32 := Host.reduceAdd x (constant S_ .f32 0x00000000#32) reducesTo_S32x1x512x512_S_d0_1_2_3 h_S_

/-- The reference's result as a function of its two arguments. -/
def refG (p t : Img F) : FVec F S_ .f32 :=
  ClDice.tailH (sumH (mulf (skelH (sigH p)) t)) (sumH (skelH (sigH p))) (sumH (mulf (skelH t) (sigH p))) (sumH (skelH t))

end Cert.Proof.Ref

end
-- ==== Proof.RefChunks.lean ====
/-
  The reference program's run, stretch by stretch. Its 605 operations come in 24 consecutive stretches; for each one,
  started from ANY contents W of the buffers, this file says what the stretch leaves in the buffers that later
  stretches read, as a stage function of what W holds in the buffers the stretch reads:
    the logistic stretch writes sigH of the first argument;
    a skeleton's start writes deltaH of its image;
    a skeleton's step writes the eroded image and the skeleton updated by the eroded image's difference;
    the closing stretch writes the closing formula of the four sums.
  The `keep_…` lemmas say which of the carried buffers a stretch leaves as they were.
-/
import proofs.«429048_j16329465659785_3_alg».proof.Proof.RefOps
import proofs.«429048_j16329465659785_3_alg».proof.Proof.RefStage

noncomputable section
namespace Cert.Proof.RefChunks
open Cert.ReferenceIdeal Cert.ReferenceIdeal.Gen Idealize.ShloMosaic Idealize.ShloMosaic.TcCoe Idealize.SL.Sem Idealize.ShloMosaic.StableHlo
open Cert.Proof.RefOps Cert.Proof.Ref

variable {F : FTy → Type} [FloatOps F]

/-! ## The logistic stretch -/

theorem chunk_sig (W : Valuation τ sig (Elt F)) (A : Img F) (ha : W (Proc.devRef .tc main_arg0) = A) :
    after ops_sig W (Proc.devRef .tc main_v5) = sigH A := by
  subst ha
  after_results_simp <;> rfl

theorem keep_sig (W : Valuation τ sig (Elt F)) :
    after ops_sig W (Proc.devRef .tc main_arg0) = W (Proc.devRef .tc main_arg0)
    ∧ after ops_sig W (Proc.devRef .tc main_arg1) = W (Proc.devRef .tc main_arg1) := by
  constructor
  · after_results_simp <;> rfl
  · after_results_simp <;> rfl

/-! ## The first skeleton: its start and its ten steps -/

theorem chunk_pinit (W : Valuation τ sig (Elt F)) (X : Img F) (hx : W (Proc.devRef .tc main_v5) = X) :
    after ops_pinit W (Proc.devRef .tc main_v14) = deltaH X := by
  subst hx
  after_results_simp <;> rfl

theorem keep_pinit (W : Valuation τ sig (Elt F)) :
    after ops_pinit W (Proc.devRef .tc main_arg0) = W (Proc.devRef .tc main_arg0)
    ∧ after ops_pinit W (Proc.devRef .tc main_arg1) = W (Proc.devRef .tc main_arg1)
    ∧ after ops_pinit W (Proc.devRef .tc main_v5) = W (Proc.devRef .tc main_v5) := by
  refine ⟨?_, ?_, ?_⟩
  · after_results_simp <;> rfl
  · after_results_simp <;> rfl
  · after_results_simp <;> rfl

theorem chunk_p1 (W : Valuation τ sig (Elt F)) (X S : Img F)
    (hx : W (Proc.devRef .tc main_v5) = X) (hs : W (Proc.devRef .tc main_v14) = S) :
    after ops_p1 W (Proc.devRef .tc main_v19) = erodeH X
    ∧ after ops_p1 W (Proc.devRef .tc main_v32) = accH S (deltaH (erodeH X)) := by
  subst hx hs
  constructor
  · after_results_simp <;> rfl
  · after_results_simp <;> rfl

theorem keep_p1 (W : Valuation τ sig (Elt F)) :
    after ops_p1 W (Proc.devRef .tc main_arg0) = W (Proc.devRef .tc main_arg0)
    ∧ after ops_p1 W (Proc.devRef .tc main_arg1) = W (Proc.devRef .tc main_arg1)
    ∧ after ops_p1 W (Proc.devRef .tc main_v5) = W (Proc.devRef .tc main_v5) := by
  refine ⟨?_, ?_, ?_⟩
  · after_results_simp <;> rfl
  · after_results_simp <;> rfl
  · after_results_simp <;> rfl

theorem chunk_p2 (W : Valuation τ sig (Elt F)) (X S : Img F)
    (hx : W (Proc.devRef .tc main_v19) = X) (hs : W (Proc.devRef .tc main_v32) = S) :
    after ops_p2 W (Proc.devRef .tc main_v37) = erodeH X
    ∧ after ops_p2 W (Proc.devRef .tc main_v50) = accH S (deltaH (erodeH X)) := by
  subst hx hs
  constructor
  · after_results_simp <;> rfl
  · after_results_simp <;> rfl

theorem keep_p2 (W : Valuation τ sig (Elt F)) :
    after ops_p2 W (Proc.devRef .tc main_arg0) = W (Proc.devRef .tc main_arg0)
    ∧ after ops_p2 W (Proc.devRef .tc main_arg1) = W (Proc.devRef .tc main_arg1)
    ∧ after ops_p2 W (Proc.devRef .tc main_v5) = W (Proc.devRef .tc main_v5) := by
  refine ⟨?_, ?_, ?_⟩
  · after_results_simp <;> rfl
  · after_results_simp <;> rfl
  · after_results_simp <;> rfl

theorem chunk_p3 (W : Valuation τ sig (Elt F)) (X S : Img F)
    (hx : W (Proc.devRef .tc main_v37) = X) (hs : W (Proc.devRef .tc main_v50) = S) :
    after ops_p3 W (Proc.devRef .tc main_v55) = erodeH X
    ∧ after ops_p3 W (Proc.devRef .tc main_v68) = accH S (deltaH (erodeH X)) := by
  subst hx hs
  constructor
  · after_results_simp <;> rfl
  · after_results_simp <;> rfl

theorem keep_p3 (W : Valuation τ sig (Elt F)) :
    after ops_p3 W (Proc.devRef .tc main_arg0) = W (Proc.devRef .tc main_arg0)
    ∧ after ops_p3 W (Proc.devRef .tc main_arg1) = W (Proc.devRef .tc main_arg1)
    ∧ after ops_p3 W (Proc.devRef .tc main_v5) = W (Proc.devRef .tc main_v5) := by
  refine ⟨?_, ?_, ?_⟩
  · after_results_simp <;> rfl
  · after_results_simp <;> rfl
  · after_results_simp <;> rfl

theorem chunk_p4 (W : Valuation τ sig (Elt F)) (X S : Img F)
    (hx : W (Proc.devRef .tc main_v55) = X) (hs : W (Proc.devRef .tc main_v68) = S) :
    after ops_p4 W (Proc.devRef .tc main_v73) = erodeH X
    ∧ after ops_p4 W (Proc.devRef .tc main_v86) = accH S (deltaH (erodeH X)) := by
  subst hx hs
  constructor
  · after_results_simp <;> rfl
  · after_results_simp <;> rfl

theorem keep_p4 (W : Valuation τ sig (Elt F)) :
    after ops_p4 W (Proc.devRef .tc main_arg0) = W (Proc.devRef .tc main_arg0)
    ∧ after ops_p4 W (Proc.devRef .tc main_arg1) = W (Proc.devRef .tc main_arg1)
    ∧ after ops_p4 W (Proc.devRef .tc main_v5) = W (Proc.devRef .tc main_v5) := by
  refine ⟨?_, ?_, ?_⟩
  · after_results_simp <;> rfl
  · after_results_simp <;> rfl
  · after_results_simp <;> rfl

theorem chunk_p5 (W : Valuation τ sig (Elt F)) (X S : Img F)
    (hx : W (Proc.devRef .tc main_v73) = X) (hs : W (Proc.devRef .tc main_v86) = S) :
    after ops_p5 W (Proc.devRef .tc main_v91) = erodeH X
    ∧ after ops_p5 W (Proc.devRef .tc main_v104) = accH S (deltaH (erodeH X)) := by
  subst hx hs
  constructor
  · after_results_simp <;> rfl
  · after_results_simp <;> rfl

theorem keep_p5 (W : Valuation τ sig (Elt F)) :
    after ops_p5 W (Proc.devRef .tc main_arg0) = W (Proc.devRef .tc main_arg0)
    ∧ after ops_p5 W (Proc.devRef .tc main_arg1) = W (Proc.devRef .tc main_arg1)
    ∧ after ops_p5 W (Proc.devRef .tc main_v5) = W (Proc.devRef .tc main_v5) := by
  refine ⟨?_, ?_, ?_⟩
  · after_results_simp <;> rfl
  · after_results_simp <;> rfl
  · after_results_simp <;> rfl

theorem chunk_p6 (W : Valuation τ sig (Elt F)) (X S : Img F)
    (hx : W (Proc.devRef .tc main_v91) = X) (hs : W (Proc.devRef .tc main_v104) = S) :
    after ops_p6 W (Proc.devRef .tc main_v109) = erodeH X
    ∧ after ops_p6 W (Proc.devRef .tc main_v122) = accH S (deltaH (erodeH X)) := by
  subst hx hs
  constructor
  · after_results_simp <;> rfl
  · after_results_simp <;> rfl

theorem keep_p6 (W : Valuation τ sig (Elt F)) :
    after ops_p6 W (Proc.devRef .tc main_arg0) = W (Proc.devRef .tc main_arg0)
    ∧ after ops_p6 W (Proc.devRef .tc main_arg1) = W (Proc.devRef .tc main_arg1)
    ∧ after ops_p6 W (Proc.devRef .tc main_v5) = W (Proc.devRef .tc main_v5) := by
  refine ⟨?_, ?_, ?_⟩
  · after_results_simp <;> rfl
  · after_results_simp <;> rfl
  · after_results_simp <;> rfl

theorem chunk_p7 (W : Valuation τ sig (Elt F)) (X S : Img F)
    (hx : W (Proc.devRef .tc main_v109) = X) (hs : W (Proc.devRef .tc main_v122) = S) :
    after ops_p7 W (Proc.devRef .tc main_v127) = erodeH X
    ∧ after ops_p7 W (Proc.devRef .tc main_v140) = accH S (deltaH (erodeH X)) := by
  subst hx hs
  constructor
  · after_results_simp <;> rfl
  · after_results_simp <;> rfl

theorem keep_p7 (W : Valuation τ sig (Elt F)) :
    after ops_p7 W (Proc.devRef .tc main_arg0) = W (Proc.devRef .tc main_arg0)
    ∧ after ops_p7 W (Proc.devRef .tc main_arg1) = W (Proc.devRef .tc main_arg1)
    ∧ after ops_p7 W (Proc.devRef .tc main_v5) = W (Proc.devRef .tc main_v5) := by
  refine ⟨?_, ?_, ?_⟩
  · after_results_simp <;> rfl
  · after_results_simp <;> rfl
  · after_results_simp <;> rfl

theorem chunk_p8 (W : Valuation τ sig (Elt F)) (X S : Img F)
    (hx : W (Proc.devRef .tc main_v127) = X) (hs : W (Proc.devRef .tc main_v140) = S) :
    after ops_p8 W (Proc.devRef .tc main_v145) = erodeH X
    ∧ after ops_p8 W (Proc.devRef .tc main_v158) = accH S (deltaH (erodeH X)) := by
  subst hx hs
  constructor
  · after_results_simp <;> rfl
  · after_results_simp <;> rfl

theorem keep_p8 (W : Valuation τ sig (Elt F)) :
    after ops_p8 W (Proc.devRef .tc main_arg0) = W (Proc.devRef .tc main_arg0)
    ∧ after ops_p8 W (Proc.devRef .tc main_arg1) = W (Proc.devRef .tc main_arg1)
    ∧ after ops_p8 W (Proc.devRef .tc main_v5) = W (Proc.devRef .tc main_v5) := by
  refine ⟨?_, ?_, ?_⟩
  · after_results_simp <;> rfl
  · after_results_simp <;> rfl
  · after_results_simp <;> rfl

theorem chunk_p9 (W : Valuation τ sig (Elt F)) (X S : Img F)
    (hx : W (Proc.devRef .tc main_v145) = X) (hs : W (Proc.devRef .tc main_v158) = S) :
    after ops_p9 W (Proc.devRef .tc main_v163) = erodeH X
    ∧ after ops_p9 W (Proc.devRef .tc main_v176) = accH S (deltaH (erodeH X)) := by
  subst hx hs
  constructor
  · after_results_simp <;> rfl
  · after_results_simp <;> rfl

theorem keep_p9 (W : Valuation τ sig (Elt F)) :
    after ops_p9 W (Proc.devRef .tc main_arg0) = W (Proc.devRef .tc main_arg0)
    ∧ after ops_p9 W (Proc.devRef .tc main_arg1) = W (Proc.devRef .tc main_arg1)
    ∧ after ops_p9 W (Proc.devRef .tc main_v5) = W (Proc.devRef .tc main_v5) := by
  refine ⟨?_, ?_, ?_⟩
  · after_results_simp <;> rfl
  · after_results_simp <;> rfl
  · after_results_simp <;> rfl

theorem chunk_p10 (W : Valuation τ sig (Elt F)) (X S : Img F)
    (hx : W (Proc.devRef .tc main_v163) = X) (hs : W (Proc.devRef .tc main_v176) = S) :
    after ops_p10 W (Proc.devRef .tc main_v181) = erodeH X
    ∧ after ops_p10 W (Proc.devRef .tc main_v194) = accH S (deltaH (erodeH X)) := by
  subst hx hs
  constructor
  · after_results_simp <;> rfl
  · after_results_simp <;> rfl

theorem keep_p10 (W : Valuation τ sig (Elt F)) :
    after ops_p10 W (Proc.devRef .tc main_arg0) = W (Proc.devRef .tc main_arg0)
    ∧ after ops_p10 W (Proc.devRef .tc main_arg1) = W (Proc.devRef .tc main_arg1)
    ∧ after ops_p10 W (Proc.devRef .tc main_v5) = W (Proc.devRef .tc main_v5) := by
  refine ⟨?_, ?_, ?_⟩
  · after_results_simp <;> rfl
  · after_results_simp <;> rfl
  · after_results_simp <;> rfl

/-! ## The second skeleton: its start and its ten steps -/

theorem chunk_tinit (W : Valuation τ sig (Elt F)) (X : Img F) (hx : W (Proc.devRef .tc main_arg1) = X) :
    after ops_tinit W (Proc.devRef .tc main_v203) = deltaH X := by
  subst hx
  after_results_simp <;> rfl

theorem keep_tinit (W : Valuation τ sig (Elt F)) :
    after ops_tinit W (Proc.devRef .tc main_arg0) = W (Proc.devRef .tc main_arg0)
    ∧ after ops_tinit W (Proc.devRef .tc main_arg1) = W (Proc.devRef .tc main_arg1)
    ∧ after ops_tinit W (Proc.devRef .tc main_v5) = W (Proc.devRef .tc main_v5)
    ∧ after ops_tinit W (Proc.devRef .tc main_v194) = W (Proc.devRef .tc main_v194) := by
  refine ⟨?_, ?_, ?_, ?_⟩
  · after_results_simp <;> rfl
  · after_results_simp <;> rfl
  · after_results_simp <;> rfl
  · after_results_simp <;> rfl

theorem chunk_t1 (W : Valuation τ sig (Elt F)) (X S : Img F)
    (hx : W (Proc.devRef .tc main_arg1) = X) (hs : W (Proc.devRef .tc main_v203) = S) :
    after ops_t1 W (Proc.devRef .tc main_v208) = erodeH X
    ∧ after ops_t1 W (Proc.devRef .tc main_v221) = accH S (deltaH (erodeH X)) := by
  subst hx hs
  constructor
  · after_results_simp <;> rfl
  · after_results_simp <;> rfl

theorem keep_t1 (W : Valuation τ sig (Elt F)) :
    after ops_t1 W (Proc.devRef .tc main_arg0) = W (Proc.devRef .tc main_arg0)
    ∧ after ops_t1 W (Proc.devRef .tc main_arg1) = W (Proc.devRef .tc main_arg1)
    ∧ after ops_t1 W (Proc.devRef .tc main_v5) = W (Proc.devRef .tc main_v5)
    ∧ after ops_t1 W (Proc.devRef .tc main_v194) = W (Proc.devRef .tc main_v194) := by
  refine ⟨?_, ?_, ?_, ?_⟩
  · after_results_simp <;> rfl
  · after_results_simp <;> rfl
  · after_results_simp <;> rfl
  · after_results_simp <;> rfl

theorem chunk_t2 (W : Valuation τ sig (Elt F)) (X S : Img F)
    (hx : W (Proc.devRef .tc main_v208) = X) (hs : W (Proc.devRef .tc main_v221) = S) :
    after ops_t2 W (Proc.devRef .tc main_v226) = erodeH X
    ∧ after ops_t2 W (Proc.devRef .tc main_v239) = accH S (deltaH (erodeH X)) := by
  subst hx hs
  constructor
  · after_results_simp <;> rfl
  · after_results_simp <;> rfl

theorem keep_t2 (W : Valuation τ sig (Elt F)) :
    after ops_t2 W (Proc.devRef .tc main_arg0) = W (Proc.devRef .tc main_arg0)
    ∧ after ops_t2 W (Proc.devRef .tc main_arg1) = W (Proc.devRef .tc main_arg1)
    ∧ after ops_t2 W (Proc.devRef .tc main_v5) = W (Proc.devRef .tc main_v5)
    ∧ after ops_t2 W (Proc.devRef .tc main_v194) = W (Proc.devRef .tc main_v194) := by
  refine ⟨?_, ?_, ?_, ?_⟩
  · after_results_simp <;> rfl
  · after_results_simp <;> rfl
  · after_results_simp <;> rfl
  · after_results_simp <;> rfl

theorem chunk_t3 (W : Valuation τ sig (Elt F)) (X S : Img F)
    (hx : W (Proc.devRef .tc main_v226) = X) (hs : W (Proc.devRef .tc main_v239) = S) :
    after ops_t3 W (Proc.devRef .tc main_v244) = erodeH X
    ∧ after ops_t3 W (Proc.devRef .tc main_v257) = accH S (deltaH (erodeH X)) := by
  subst hx hs
  constructor
  · after_results_simp <;> rfl
  · after_results_simp <;> rfl

theorem keep_t3 (W : Valuation τ sig (Elt F)) :
    after ops_t3 W (Proc.devRef .tc main_arg0) = W (Proc.devRef .tc main_arg0)
    ∧ after ops_t3 W (Proc.devRef .tc main_arg1) = W (Proc.devRef .tc main_arg1)
    ∧ after ops_t3 W (Proc.devRef .tc main_v5) = W (Proc.devRef .tc main_v5)
    ∧ after ops_t3 W (Proc.devRef .tc main_v194) = W (Proc.devRef .tc main_v194) := by
  refine ⟨?_, ?_, ?_, ?_⟩
  · after_results_simp <;> rfl
  · after_results_simp <;> rfl
  · after_results_simp <;> rfl
  · after_results_simp <;> rfl

theorem chunk_t4 (W : Valuation τ sig (Elt F)) (X S : Img F)
    (hx : W (Proc.devRef .tc main_v244) = X) (hs : W (Proc.devRef .tc main_v257) = S) :
    after ops_t4 W (Proc.devRef .tc main_v262) = erodeH X
    ∧ after ops_t4 W (Proc.devRef .tc main_v275) = accH S (deltaH (erodeH X)) := by
  subst hx hs
  constructor
  · after_results_simp <;> rfl
  · after_results_simp <;> rfl

theorem keep_t4 (W : Valuation τ sig (Elt F)) :
    after ops_t4 W (Proc.devRef .tc main_arg0) = W (Proc.devRef .tc main_arg0)
    ∧ after ops_t4 W (Proc.devRef .tc main_arg1) = W (Proc.devRef .tc main_arg1)
    ∧ after ops_t4 W (Proc.devRef .tc main_v5) = W (Proc.devRef .tc main_v5)
    ∧ after ops_t4 W (Proc.devRef .tc main_v194) = W (Proc.devRef .tc main_v194) := by
  refine ⟨?_, ?_, ?_, ?_⟩
  · after_results_simp <;> rfl
  · after_results_simp <;> rfl
  · after_results_simp <;> rfl
  · after_results_simp <;> rfl

theorem chunk_t5 (W : Valuation τ sig (Elt F)) (X S : Img F)
    (hx : W (Proc.devRef .tc main_v262) = X) (hs : W (Proc.devRef .tc main_v275) = S) :
    after ops_t5 W (Proc.devRef .tc main_v280) = erodeH X
    ∧ after ops_t5 W (Proc.devRef .tc main_v293) = accH S (deltaH (erodeH X)) := by
  subst hx hs
  constructor
  · after_results_simp <;> rfl
  · after_results_simp <;> rfl

theorem keep_t5 (W : Valuation τ sig (Elt F)) :
    after ops_t5 W (Proc.devRef .tc main_arg0) = W (Proc.devRef .tc main_arg0)
    ∧ after ops_t5 W (Proc.devRef .tc main_arg1) = W (Proc.devRef .tc main_arg1)
    ∧ after ops_t5 W (Proc.devRef .tc main_v5) = W (Proc.devRef .tc main_v5)
    ∧ after ops_t5 W (Proc.devRef .tc main_v194) = W (Proc.devRef .tc main_v194) := by
  refine ⟨?_, ?_, ?_, ?_⟩
  · after_results_simp <;> rfl
  · after_results_simp <;> rfl
  · after_results_simp <;> rfl
  · after_results_simp <;> rfl

theorem chunk_t6 (W : Valuation τ sig (Elt F)) (X S : Img F)
    (hx : W (Proc.devRef .tc main_v280) = X) (hs : W (Proc.devRef .tc main_v293) = S) :
    after ops_t6 W (Proc.devRef .tc main_v298) = erodeH X
    ∧ after ops_t6 W (Proc.devRef .tc main_v311) = accH S (deltaH (erodeH X)) := by
  subst hx hs
  constructor
  · after_results_simp <;> rfl
  · after_results_simp <;> rfl

theorem keep_t6 (W : Valuation τ sig (Elt F)) :
    after ops_t6 W (Proc.devRef .tc main_arg0) = W (Proc.devRef .tc main_arg0)
    ∧ after ops_t6 W (Proc.devRef .tc main_arg1) = W (Proc.devRef .tc main_arg1)
    ∧ after ops_t6 W (Proc.devRef .tc main_v5) = W (Proc.devRef .tc main_v5)
    ∧ after ops_t6 W (Proc.devRef .tc main_v194) = W (Proc.devRef .tc main_v194) := by
  refine ⟨?_, ?_, ?_, ?_⟩
  · after_results_simp <;> rfl
  · after_results_simp <;> rfl
  · after_results_simp <;> rfl
  · after_results_simp <;> rfl

theorem chunk_t7 (W : Valuation τ sig (Elt F)) (X S : Img F)
    (hx : W (Proc.devRef .tc main_v298) = X) (hs : W (Proc.devRef .tc main_v311) = S) :
    after ops_t7 W (Proc.devRef .tc main_v316) = erodeH X
    ∧ after ops_t7 W (Proc.devRef .tc main_v329) = accH S (deltaH (erodeH X)) := by
  subst hx hs
  constructor
  · after_results_simp <;> rfl
  · after_results_simp <;> rfl

theorem keep_t7 (W : Valuation τ sig (Elt F)) :
    after ops_t7 W (Proc.devRef .tc main_arg0) = W (Proc.devRef .tc main_arg0)
    ∧ after ops_t7 W (Proc.devRef .tc main_arg1) = W (Proc.devRef .tc main_arg1)
    ∧ after ops_t7 W (Proc.devRef .tc main_v5) = W (Proc.devRef .tc main_v5)
    ∧ after ops_t7 W (Proc.devRef .tc main_v194) = W (Proc.devRef .tc main_v194) := by
  refine ⟨?_, ?_, ?_, ?_⟩
  · after_results_simp <;> rfl
  · after_results_simp <;> rfl
  · after_results_simp <;> rfl
  · after_results_simp <;> rfl

theorem chunk_t8 (W : Valuation τ sig (Elt F)) (X S : Img F)
    (hx : W (Proc.devRef .tc main_v316) = X) (hs : W (Proc.devRef .tc main_v329) = S) :
    after ops_t8 W (Proc.devRef .tc main_v334) = erodeH X
    ∧ after ops_t8 W (Proc.devRef .tc main_v347) = accH S (deltaH (erodeH X)) := by
  subst hx hs
  constructor
  · after_results_simp <;> rfl
  · after_results_simp <;> rfl

theorem keep_t8 (W : Valuation τ sig (Elt F)) :
    after ops_t8 W (Proc.devRef .tc main_arg0) = W (Proc.devRef .tc main_arg0)
    ∧ after ops_t8 W (Proc.devRef .tc main_arg1) = W (Proc.devRef .tc main_arg1)
    ∧ after ops_t8 W (Proc.devRef .tc main_v5) = W (Proc.devRef .tc main_v5)
    ∧ after ops_t8 W (Proc.devRef .tc main_v194) = W (Proc.devRef .tc main_v194) := by
  refine ⟨?_, ?_, ?_, ?_⟩
  · after_results_simp <;> rfl
  · after_results_simp <;> rfl
  · after_results_simp <;> rfl
  · after_results_simp <;> rfl

theorem chunk_t9 (W : Valuation τ sig (Elt F)) (X S : Img F)
    (hx : W (Proc.devRef .tc main_v334) = X) (hs : W (Proc.devRef .tc main_v347) = S) :
    after ops_t9 W (Proc.devRef .tc main_v352) = erodeH X
    ∧ after ops_t9 W (Proc.devRef .tc main_v365) = accH S (deltaH (erodeH X)) := by
  subst hx hs
  constructor
  · after_results_simp <;> rfl
  · after_results_simp <;> rfl

theorem keep_t9 (W : Valuation τ sig (Elt F)) :
    after ops_t9 W (Proc.devRef .tc main_arg0) = W (Proc.devRef .tc main_arg0)
    ∧ after ops_t9 W (Proc.devRef .tc main_arg1) = W (Proc.devRef .tc main_arg1)
    ∧ after ops_t9 W (Proc.devRef .tc main_v5) = W (Proc.devRef .tc main_v5)
    ∧ after ops_t9 W (Proc.devRef .tc main_v194) = W (Proc.devRef .tc main_v194) := by
  refine ⟨?_, ?_, ?_, ?_⟩
  · after_results_simp <;> rfl
  · after_results_simp <;> rfl
  · after_results_simp <;> rfl
  · after_results_simp <;> rfl

theorem chunk_t10 (W : Valuation τ sig (Elt F)) (X S : Img F)
    (hx : W (Proc.devRef .tc main_v352) = X) (hs : W (Proc.devRef .tc main_v365) = S) :
    after ops_t10 W (Proc.devRef .tc main_v370) = erodeH X
    ∧ after ops_t10 W (Proc.devRef .tc main_v383) = accH S (deltaH (erodeH X)) := by
  subst hx hs
  constructor
  · after_results_simp <;> rfl
  · after_results_simp <;> rfl

theorem keep_t10 (W : Valuation τ sig (Elt F)) :
    after ops_t10 W (Proc.devRef .tc main_arg0) = W (Proc.devRef .tc main_arg0)
    ∧ after ops_t10 W (Proc.devRef .tc main_arg1) = W (Proc.devRef .tc main_arg1)
    ∧ after ops_t10 W (Proc.devRef .tc main_v5) = W (Proc.devRef .tc main_v5)
    ∧ after ops_t10 W (Proc.devRef .tc main_v194) = W (Proc.devRef .tc main_v194) := by
  refine ⟨?_, ?_, ?_, ?_⟩
  · after_results_simp <;> rfl
  · after_results_simp <;> rfl
  · after_results_simp <;> rfl
  · after_results_simp <;> rfl

/-! ## The closing stretch: the four sums and the closing formula -/

theorem chunk_tail (W : Valuation τ sig (Elt F)) (SP ST P T : Img F)
    (hsp : W (Proc.devRef .tc main_v194) = SP) (hst : W (Proc.devRef .tc main_v383) = ST)
    (hp : W (Proc.devRef .tc main_v5) = P) (ht : W (Proc.devRef .tc main_arg1) = T) :
    after ops_tail W (Proc.devRef .tc main_v401)
      = ClDice.tailH (sumH (mulf SP T)) (sumH SP) (sumH (mulf ST P)) (sumH ST) := by
  subst hsp hst hp ht
  after_results_simp <;> rfl

theorem keep_tail (W : Valuation τ sig (Elt F)) :
    after ops_tail W (Proc.devRef .tc main_arg0) = W (Proc.devRef .tc main_arg0)
    ∧ after ops_tail W (Proc.devRef .tc main_arg1) = W (Proc.devRef .tc main_arg1) := by
  constructor
  · after_results_simp <;> rfl
  · after_results_simp <;> rfl

end Cert.Proof.RefChunks
end
-- ==== Proof.LibSeqLine.lean ====
/-
  Lines of host operations: three general facts for running a host program whose operations are listed piece by piece
  (one piece per window of the program, or per call of a local function).

  `chain_map_seq`: pieces run one after the other are their concatenation run as one line. `after_append`: the
  contents after two lines in a row are the second line's applied to what the first leaves. `forall_flatten`: a
  property every operation of every piece has, every operation of the concatenation has.
-/
import Idealize.ShloMosaic.Lib.StableHlo.Run
import Idealize.ShloMosaic.Lib.Pipeline.Regions

noncomputable section

namespace Cert.LibSeqLine

open Idealize.ShloMosaic Idealize.ShloMosaic.TcCoe Idealize.SL.Sem Idealize.ShloMosaic.StableHlo

section General

variable {nD : Nat} {τ : Topo} {sig : RefSig} {Val : EltTy → Type} {Λ : Labels}

/-- Lines run one after the other are their concatenation run as one line. -/
theorem chain_map_seq : ∀ L : List (List (HloOp τ sig Val)),
    Pipeline.chain (L.map fun l => (seq l : Prog (TpuEff nD τ sig Val Λ .tc) PUnit)) = seq L.flatten
  | [] => rfl
  | l :: L => by rw [List.map_cons, Pipeline.chain_cons, List.flatten_cons, seq_append, chain_map_seq L]

/-- The contents after two lines in a row: the second applied to what the first leaves. -/
theorem after_append : ∀ (l₁ l₂ : List (HloOp τ sig Val)) (V : Valuation τ sig Val), after (l₁ ++ l₂) V = after l₂ (after l₁ V)
  | [], _, _ => rfl
  | op :: l, l₂, V => by rw [List.cons_append, after_cons, after_cons, after_append l l₂]

/-- A property of every operation of every line holds of every operation of their concatenation. -/
theorem forall_flatten {α : Type} {p : α → Prop} (L : List (List α)) (h : ∀ l ∈ L, l.Forall p) : ∀ x ∈ L.flatten, p x := by
  intro x hx
  obtain ⟨l, hl, hxl⟩ := List.mem_flatten.mp hx
  exact (List.forall_iff_forall_mem.mp (h l hl)) x hxl

end General

end Cert.LibSeqLine

end
-- ==== Proof.RefRun.lean ====
/-
  The reference program's run as one statement: from any memory, every weakly fair execution of the reference ends with
  its result buffer at `refG` of its two arguments, and the arguments as they were.

  The program is a line of 605 operations in 24 consecutive stretches. The contents after the whole line are the last
  stretch's applied to what the stretches before it leave; going through the stretches in order, each one's lemma
  (what it writes, what it keeps) is applied to the contents so far, held as an opaque valuation, and only the
  values of the carried buffers are threaded along: the two arguments, the logistic image, the image and the skeleton
  of the recurrence under way (after k steps: the two components of the k-th iterate of `stepH`), and the first
  skeleton once it is complete.
-/
import proofs.«429048_j16329465659785_3_alg».proof.Proof.RefChunks
import proofs.«429048_j16329465659785_3_alg».proof.Proof.LibSeqLine
import Mathlib.Logic.Function.Iterate

noncomputable section
namespace Cert.Proof.RefRun
open Cert.ReferenceIdeal Cert.ReferenceIdeal.Gen Idealize.ShloMosaic Idealize.ShloMosaic.TcCoe Idealize.SL.Sem Idealize.ShloMosaic.StableHlo
open Cert.Proof.RefOps Cert.Proof.Ref Cert.Proof.RefChunks Cert.LibSeqLine

variable {F : FTy → Type} [FloatOps F]

/-! ## The recurrence after k steps -/

/-- The image and the skeleton after `k` steps, from an image and its own difference. -/
def stepsH (k : ℕ) (img : Img F) : Img F × Img F := stepH^[k] (img, deltaH img)

theorem stepsH_zero_fst (img : Img F) : (stepsH 0 img).1 = img := rfl
theorem stepsH_zero_snd (img : Img F) : (stepsH 0 img).2 = deltaH img := rfl

/-- One more step erodes the image. -/
theorem stepsH_succ_fst (k : ℕ) (img : Img F) : (stepsH (k + 1) img).1 = erodeH (stepsH k img).1 := by
  unfold stepsH
  rw [Function.iterate_succ_apply']
  rfl

/-- One more step updates the skeleton by the eroded image's difference. -/
theorem stepsH_succ_snd (k : ℕ) (img : Img F) :
    (stepsH (k + 1) img).2 = accH (stepsH k img).2 (deltaH (erodeH (stepsH k img).1)) := by
  unfold stepsH
  rw [Function.iterate_succ_apply']
  rfl

/-- The soft skeleton is the skeleton after ten steps. -/
theorem skelH_eq (img : Img F) : skelH img = (stepsH 10 img).2 := rfl

/-- What one step's stretch writes, read as the next iterate. -/
theorem step_next {k : ℕ} {img x s x' s' : Img F} (hx : x = (stepsH k img).1) (hs : s = (stepsH k img).2)
    (hx' : x' = erodeH x) (hs' : s' = accH s (deltaH (erodeH x))) :
    x' = (stepsH (k + 1) img).1 ∧ s' = (stepsH (k + 1) img).2 := by
  subst hx hs
  exact ⟨hx'.trans (stepsH_succ_fst k img).symm, hs'.trans (stepsH_succ_snd k img).symm⟩

/-! ## Going through the stretches -/

/-- What the run has to leave in final contents `W`, from initial contents `V`. -/
def Post (V W : Valuation τ sig (Elt F)) : Prop :=
  W (Proc.devRef .tc main_v401) = refG (V (Proc.devRef .tc main_arg0)) (V (Proc.devRef .tc main_arg1))
  ∧ W (Proc.devRef .tc main_arg0) = V (Proc.devRef .tc main_arg0)
  ∧ W (Proc.devRef .tc main_arg1) = V (Proc.devRef .tc main_arg1)

/-- The first stretch comes off: a property of the contents after all the stretches holds as soon as it holds after
    the remaining ones, from whatever contents `W` the first stretch leaves. -/
theorem peel (l : List (HloOp τ sig (Elt F))) (L : List (List (HloOp τ sig (Elt F)))) (V : Valuation τ sig (Elt F))
    (Q : Valuation τ sig (Elt F) → Prop) (h : ∀ W, W = after l V → Q (after L.flatten W)) :
    Q (after (l :: L).flatten V) := by
  rw [List.flatten_cons, after_append]
  exact h _ rfl

/-- The contents after the whole line, at the result and at the two arguments. -/
theorem after_ops_post (V : Valuation τ sig (Elt F)) : Post V (after ops V) := by
  -- the logistic image of the first argument, as one name
  obtain ⟨P, hP⟩ : ∃ P : Img F, P = sigH (V (Proc.devRef .tc main_arg0)) := ⟨_, rfl⟩
  show Post V (after (List.flatten [ops_sig, ops_pinit, ops_p1, ops_p2, ops_p3, ops_p4, ops_p5, ops_p6, ops_p7, ops_p8,
    ops_p9, ops_p10, ops_tinit, ops_t1, ops_t2, ops_t3, ops_t4, ops_t5, ops_t6, ops_t7, ops_t8, ops_t9, ops_t10, ops_tail]) V)
  -- the logistic stretch
  refine peel _ _ _ (Post V) fun W1 hW1 => ?_
  obtain ⟨a1, b1⟩ : W1 (Proc.devRef .tc main_arg0) = V (Proc.devRef .tc main_arg0)
      ∧ W1 (Proc.devRef .tc main_arg1) = V (Proc.devRef .tc main_arg1) := by
    rw [hW1]; exact keep_sig V
  have p1 : W1 (Proc.devRef .tc main_v5) = P := by
    rw [hW1, hP]; exact chunk_sig V _ rfl
  clear hW1
  -- the first skeleton's start
  refine peel _ _ _ (Post V) fun W2 hW2 => ?_
  obtain ⟨a2, b2, p2⟩ : W2 (Proc.devRef .tc main_arg0) = V (Proc.devRef .tc main_arg0)
      ∧ W2 (Proc.devRef .tc main_arg1) = V (Proc.devRef .tc main_arg1) ∧ W2 (Proc.devRef .tc main_v5) = P := by
    rw [hW2]; obtain ⟨h0, h1, h5⟩ := keep_pinit W1; exact ⟨h0.trans a1, h1.trans b1, h5.trans p1⟩
  have x2 : W2 (Proc.devRef .tc main_v5) = (stepsH 0 P).1 := p2.trans (stepsH_zero_fst P).symm
  have s2 : W2 (Proc.devRef .tc main_v14) = (stepsH 0 P).2 := by
    rw [hW2]; exact (chunk_pinit W1 _ p1).trans (stepsH_zero_snd P).symm
  clear hW2 a1 b1 p1 W1
  -- its ten steps
  refine peel _ _ _ (Post V) fun W3 hW3 => ?_
  obtain ⟨a3, b3, p3⟩ : W3 (Proc.devRef .tc main_arg0) = V (Proc.devRef .tc main_arg0)
      ∧ W3 (Proc.devRef .tc main_arg1) = V (Proc.devRef .tc main_arg1) ∧ W3 (Proc.devRef .tc main_v5) = P := by
    rw [hW3]; obtain ⟨h0, h1, h5⟩ := keep_p1 W2; exact ⟨h0.trans a2, h1.trans b2, h5.trans p2⟩
  obtain ⟨x3, s3⟩ : W3 (Proc.devRef .tc main_v19) = (stepsH 1 P).1 ∧ W3 (Proc.devRef .tc main_v32) = (stepsH 1 P).2 := by
    rw [hW3]; obtain ⟨hx, hs⟩ := chunk_p1 W2 _ _ rfl rfl; exact step_next x2 s2 hx hs
  clear hW3 a2 b2 p2 x2 s2 W2
  refine peel _ _ _ (Post V) fun W4 hW4 => ?_
  obtain ⟨a4, b4, p4⟩ : W4 (Proc.devRef .tc main_arg0) = V (Proc.devRef .tc main_arg0)
      ∧ W4 (Proc.devRef .tc main_arg1) = V (Proc.devRef .tc main_arg1) ∧ W4 (Proc.devRef .tc main_v5) = P := by
    rw [hW4]; obtain ⟨h0, h1, h5⟩ := keep_p2 W3; exact ⟨h0.trans a3, h1.trans b3, h5.trans p3⟩
  obtain ⟨x4, s4⟩ : W4 (Proc.devRef .tc main_v37) = (stepsH 2 P).1 ∧ W4 (Proc.devRef .tc main_v50) = (stepsH 2 P).2 := by
    rw [hW4]; obtain ⟨hx, hs⟩ := chunk_p2 W3 _ _ rfl rfl; exact step_next x3 s3 hx hs
  clear hW4 a3 b3 p3 x3 s3 W3
  refine peel _ _ _ (Post V) fun W5 hW5 => ?_
  obtain ⟨a5, b5, p5⟩ : W5 (Proc.devRef .tc main_arg0) = V (Proc.devRef .tc main_arg0)
      ∧ W5 (Proc.devRef .tc main_arg1) = V (Proc.devRef .tc main_arg1) ∧ W5 (Proc.devRef .tc main_v5) = P := by
    rw [hW5]; obtain ⟨h0, h1, h5⟩ := keep_p3 W4; exact ⟨h0.trans a4, h1.trans b4, h5.trans p4⟩
  obtain ⟨x5, s5⟩ : W5 (Proc.devRef .tc main_v55) = (stepsH 3 P).1 ∧ W5 (Proc.devRef .tc main_v68) = (stepsH 3 P).2 := by
    rw [hW5]; obtain ⟨hx, hs⟩ := chunk_p3 W4 _ _ rfl rfl; exact step_next x4 s4 hx hs
  clear hW5 a4 b4 p4 x4 s4 W4
  refine peel _ _ _ (Post V) fun W6 hW6 => ?_
  obtain ⟨a6, b6, p6⟩ : W6 (Proc.devRef .tc main_arg0) = V (Proc.devRef .tc main_arg0)
      ∧ W6 (Proc.devRef .tc main_arg1) = V (Proc.devRef .tc main_arg1) ∧ W6 (Proc.devRef .tc main_v5) = P := by
    rw [hW6]; obtain ⟨h0, h1, h5⟩ := keep_p4 W5; exact ⟨h0.trans a5, h1.trans b5, h5.trans p5⟩
  obtain ⟨x6, s6⟩ : W6 (Proc.devRef .tc main_v73) = (stepsH 4 P).1 ∧ W6 (Proc.devRef .tc main_v86) = (stepsH 4 P).2 := by
    rw [hW6]; obtain ⟨hx, hs⟩ := chunk_p4 W5 _ _ rfl rfl; exact step_next x5 s5 hx hs
  clear hW6 a5 b5 p5 x5 s5 W5
  refine peel _ _ _ (Post V) fun W7 hW7 => ?_
  obtain ⟨a7, b7, p7⟩ : W7 (Proc.devRef .tc main_arg0) = V (Proc.devRef .tc main_arg0)
      ∧ W7 (Proc.devRef .tc main_arg1) = V (Proc.devRef .tc main_arg1) ∧ W7 (Proc.devRef .tc main_v5) = P := by
    rw [hW7]; obtain ⟨h0, h1, h5⟩ := keep_p5 W6; exact ⟨h0.trans a6, h1.trans b6, h5.trans p6⟩
  obtain ⟨x7, s7⟩ : W7 (Proc.devRef .tc main_v91) = (stepsH 5 P).1 ∧ W7 (Proc.devRef .tc main_v104) = (stepsH 5 P).2 := by
    rw [hW7]; obtain ⟨hx, hs⟩ := chunk_p5 W6 _ _ rfl rfl; exact step_next x6 s6 hx hs
  clear hW7 a6 b6 p6 x6 s6 W6
  refine peel _ _ _ (Post V) fun W8 hW8 => ?_
  obtain ⟨a8, b8, p8⟩ : W8 (Proc.devRef .tc main_arg0) = V (Proc.devRef .tc main_arg0)
      ∧ W8 (Proc.devRef .tc main_arg1) = V (Proc.devRef .tc main_arg1) ∧ W8 (Proc.devRef .tc main_v5) = P := by
    rw [hW8]; obtain ⟨h0, h1, h5⟩ := keep_p6 W7; exact ⟨h0.trans a7, h1.trans b7, h5.trans p7⟩
  obtain ⟨x8, s8⟩ : W8 (Proc.devRef .tc main_v109) = (stepsH 6 P).1 ∧ W8 (Proc.devRef .tc main_v122) = (stepsH 6 P).2 := by
    rw [hW8]; obtain ⟨hx, hs⟩ := chunk_p6 W7 _ _ rfl rfl; exact step_next x7 s7 hx hs
  clear hW8 a7 b7 p7 x7 s7 W7
  refine peel _ _ _ (Post V) fun W9 hW9 => ?_
  obtain ⟨a9, b9, p9⟩ : W9 (Proc.devRef .tc main_arg0) = V (Proc.devRef .tc main_arg0)
      ∧ W9 (Proc.devRef .tc main_arg1) = V (Proc.devRef .tc main_arg1) ∧ W9 (Proc.devRef .tc main_v5) = P := by
    rw [hW9]; obtain ⟨h0, h1, h5⟩ := keep_p7 W8; exact ⟨h0.trans a8, h1.trans b8, h5.trans p8⟩
  obtain ⟨x9, s9⟩ : W9 (Proc.devRef .tc main_v127) = (stepsH 7 P).1 ∧ W9 (Proc.devRef .tc main_v140) = (stepsH 7 P).2 := by
    rw [hW9]; obtain ⟨hx, hs⟩ := chunk_p7 W8 _ _ rfl rfl; exact step_next x8 s8 hx hs
  clear hW9 a8 b8 p8 x8 s8 W8
  refine peel _ _ _ (Post V) fun W10 hW10 => ?_
  obtain ⟨a10, b10, p10⟩ : W10 (Proc.devRef .tc main_arg0) = V (Proc.devRef .tc main_arg0)
      ∧ W10 (Proc.devRef .tc main_arg1) = V (Proc.devRef .tc main_arg1) ∧ W10 (Proc.devRef .tc main_v5) = P := by
    rw [hW10]; obtain ⟨h0, h1, h5⟩ := keep_p8 W9; exact ⟨h0.trans a9, h1.trans b9, h5.trans p9⟩
  obtain ⟨x10, s10⟩ : W10 (Proc.devRef .tc main_v145) = (stepsH 8 P).1 ∧ W10 (Proc.devRef .tc main_v158) = (stepsH 8 P).2 := by
    rw [hW10]; obtain ⟨hx, hs⟩ := chunk_p8 W9 _ _ rfl rfl; exact step_next x9 s9 hx hs
  clear hW10 a9 b9 p9 x9 s9 W9
  refine peel _ _ _ (Post V) fun W11 hW11 => ?_
  obtain ⟨a11, b11, p11⟩ : W11 (Proc.devRef .tc main_arg0) = V (Proc.devRef .tc main_arg0)
      ∧ W11 (Proc.devRef .tc main_arg1) = V (Proc.devRef .tc main_arg1) ∧ W11 (Proc.devRef .tc main_v5) = P := by
    rw [hW11]; obtain ⟨h0, h1, h5⟩ := keep_p9 W10; exact ⟨h0.trans a10, h1.trans b10, h5.trans p10⟩
  obtain ⟨x11, s11⟩ : W11 (Proc.devRef .tc main_v163) = (stepsH 9 P).1 ∧ W11 (Proc.devRef .tc main_v176) = (stepsH 9 P).2 := by
    rw [hW11]; obtain ⟨hx, hs⟩ := chunk_p9 W10 _ _ rfl rfl; exact step_next x10 s10 hx hs
  clear hW11 a10 b10 p10 x10 s10 W10
  refine peel _ _ _ (Post V) fun W12 hW12 => ?_
  obtain ⟨a12, b12, p12⟩ : W12 (Proc.devRef .tc main_arg0) = V (Proc.devRef .tc main_arg0)
      ∧ W12 (Proc.devRef .tc main_arg1) = V (Proc.devRef .tc main_arg1) ∧ W12 (Proc.devRef .tc main_v5) = P := by
    rw [hW12]; obtain ⟨h0, h1, h5⟩ := keep_p10 W11; exact ⟨h0.trans a11, h1.trans b11, h5.trans p11⟩
  have q12 : W12 (Proc.devRef .tc main_v194) = (stepsH 10 P).2 := by
    rw [hW12]; obtain ⟨hx, hs⟩ := chunk_p10 W11 _ _ rfl rfl; exact (step_next x11 s11 hx hs).2
  clear hW12 a11 b11 p11 x11 s11 W11
  -- the second skeleton's start: its image is the second argument itself
  refine peel _ _ _ (Post V) fun W13 hW13 => ?_
  obtain ⟨a13, b13, p13, q13⟩ : W13 (Proc.devRef .tc main_arg0) = V (Proc.devRef .tc main_arg0)
      ∧ W13 (Proc.devRef .tc main_arg1) = V (Proc.devRef .tc main_arg1) ∧ W13 (Proc.devRef .tc main_v5) = P
      ∧ W13 (Proc.devRef .tc main_v194) = (stepsH 10 P).2 := by
    rw [hW13]; obtain ⟨h0, h1, h5, h194⟩ := keep_tinit W12
    exact ⟨h0.trans a12, h1.trans b12, h5.trans p12, h194.trans q12⟩
  have x13 : W13 (Proc.devRef .tc main_arg1) = (stepsH 0 (V (Proc.devRef .tc main_arg1))).1 :=
    b13.trans (stepsH_zero_fst _).symm
  have s13 : W13 (Proc.devRef .tc main_v203) = (stepsH 0 (V (Proc.devRef .tc main_arg1))).2 := by
    rw [hW13]; exact (chunk_tinit W12 _ b12).trans (stepsH_zero_snd _).symm
  clear hW13 a12 b12 p12 q12 W12
  -- its ten steps
  refine peel _ _ _ (Post V) fun W14 hW14 => ?_
  obtain ⟨a14, b14, p14, q14⟩ : W14 (Proc.devRef .tc main_arg0) = V (Proc.devRef .tc main_arg0)
      ∧ W14 (Proc.devRef .tc main_arg1) = V (Proc.devRef .tc main_arg1) ∧ W14 (Proc.devRef .tc main_v5) = P
      ∧ W14 (Proc.devRef .tc main_v194) = (stepsH 10 P).2 := by
    rw [hW14]; obtain ⟨h0, h1, h5, h194⟩ := keep_t1 W13
    exact ⟨h0.trans a13, h1.trans b13, h5.trans p13, h194.trans q13⟩
  obtain ⟨x14, s14⟩ : W14 (Proc.devRef .tc main_v208) = (stepsH 1 (V (Proc.devRef .tc main_arg1))).1
      ∧ W14 (Proc.devRef .tc main_v221) = (stepsH 1 (V (Proc.devRef .tc main_arg1))).2 := by
    rw [hW14]; obtain ⟨hx, hs⟩ := chunk_t1 W13 _ _ rfl rfl; exact step_next x13 s13 hx hs
  clear hW14 a13 b13 p13 q13 x13 s13 W13
  refine peel _ _ _ (Post V) fun W15 hW15 => ?_
  obtain ⟨a15, b15, p15, q15⟩ : W15 (Proc.devRef .tc main_arg0) = V (Proc.devRef .tc main_arg0)
      ∧ W15 (Proc.devRef .tc main_arg1) = V (Proc.devRef .tc main_arg1) ∧ W15 (Proc.devRef .tc main_v5) = P
      ∧ W15 (Proc.devRef .tc main_v194) = (stepsH 10 P).2 := by
    rw [hW15]; obtain ⟨h0, h1, h5, h194⟩ := keep_t2 W14
    exact ⟨h0.trans a14, h1.trans b14, h5.trans p14, h194.trans q14⟩
  obtain ⟨x15, s15⟩ : W15 (Proc.devRef .tc main_v226) = (stepsH 2 (V (Proc.devRef .tc main_arg1))).1
      ∧ W15 (Proc.devRef .tc main_v239) = (stepsH 2 (V (Proc.devRef .tc main_arg1))).2 := by
    rw [hW15]; obtain ⟨hx, hs⟩ := chunk_t2 W14 _ _ rfl rfl; exact step_next x14 s14 hx hs
  clear hW15 a14 b14 p14 q14 x14 s14 W14
  refine peel _ _ _ (Post V) fun W16 hW16 => ?_
  obtain ⟨a16, b16, p16, q16⟩ : W16 (Proc.devRef .tc main_arg0) = V (Proc.devRef .tc main_arg0)
      ∧ W16 (Proc.devRef .tc main_arg1) = V (Proc.devRef .tc main_arg1) ∧ W16 (Proc.devRef .tc main_v5) = P
      ∧ W16 (Proc.devRef .tc main_v194) = (stepsH 10 P).2 := by
    rw [hW16]; obtain ⟨h0, h1, h5, h194⟩ := keep_t3 W15
    exact ⟨h0.trans a15, h1.trans b15, h5.trans p15, h194.trans q15⟩
  obtain ⟨x16, s16⟩ : W16 (Proc.devRef .tc main_v244) = (stepsH 3 (V (Proc.devRef .tc main_arg1))).1
      ∧ W16 (Proc.devRef .tc main_v257) = (stepsH 3 (V (Proc.devRef .tc main_arg1))).2 := by
    rw [hW16]; obtain ⟨hx, hs⟩ := chunk_t3 W15 _ _ rfl rfl; exact step_next x15 s15 hx hs
  clear hW16 a15 b15 p15 q15 x15 s15 W15
  refine peel _ _ _ (Post V) fun W17 hW17 => ?_
  obtain ⟨a17, b17, p17, q17⟩ : W17 (Proc.devRef .tc main_arg0) = V (Proc.devRef .tc main_arg0)
      ∧ W17 (Proc.devRef .tc main_arg1) = V (Proc.devRef .tc main_arg1) ∧ W17 (Proc.devRef .tc main_v5) = P
      ∧ W17 (Proc.devRef .tc main_v194) = (stepsH 10 P).2 := by
    rw [hW17]; obtain ⟨h0, h1, h5, h194⟩ := keep_t4 W16
    exact ⟨h0.trans a16, h1.trans b16, h5.trans p16, h194.trans q16⟩
  obtain ⟨x17, s17⟩ : W17 (Proc.devRef .tc main_v262) = (stepsH 4 (V (Proc.devRef .tc main_arg1))).1
      ∧ W17 (Proc.devRef .tc main_v275) = (stepsH 4 (V (Proc.devRef .tc main_arg1))).2 := by
    rw [hW17]; obtain ⟨hx, hs⟩ := chunk_t4 W16 _ _ rfl rfl; exact step_next x16 s16 hx hs
  clear hW17 a16 b16 p16 q16 x16 s16 W16
  refine peel _ _ _ (Post V) fun W18 hW18 => ?_
  obtain ⟨a18, b18, p18, q18⟩ : W18 (Proc.devRef .tc main_arg0) = V (Proc.devRef .tc main_arg0)
      ∧ W18 (Proc.devRef .tc main_arg1) = V (Proc.devRef .tc main_arg1) ∧ W18 (Proc.devRef .tc main_v5) = P
      ∧ W18 (Proc.devRef .tc main_v194) = (stepsH 10 P).2 := by
    rw [hW18]; obtain ⟨h0, h1, h5, h194⟩ := keep_t5 W17
    exact ⟨h0.trans a17, h1.trans b17, h5.trans p17, h194.trans q17⟩
  obtain ⟨x18, s18⟩ : W18 (Proc.devRef .tc main_v280) = (stepsH 5 (V (Proc.devRef .tc main_arg1))).1
      ∧ W18 (Proc.devRef .tc main_v293) = (stepsH 5 (V (Proc.devRef .tc main_arg1))).2 := by
    rw [hW18]; obtain ⟨hx, hs⟩ := chunk_t5 W17 _ _ rfl rfl; exact step_next x17 s17 hx hs
  clear hW18 a17 b17 p17 q17 x17 s17 W17
  refine peel _ _ _ (Post V) fun W19 hW19 => ?_
  obtain ⟨a19, b19, p19, q19⟩ : W19 (Proc.devRef .tc main_arg0) = V (Proc.devRef .tc main_arg0)
      ∧ W19 (Proc.devRef .tc main_arg1) = V (Proc.devRef .tc main_arg1) ∧ W19 (Proc.devRef .tc main_v5) = P
      ∧ W19 (Proc.devRef .tc main_v194) = (stepsH 10 P).2 := by
    rw [hW19]; obtain ⟨h0, h1, h5, h194⟩ := keep_t6 W18
    exact ⟨h0.trans a18, h1.trans b18, h5.trans p18, h194.trans q18⟩
  obtain ⟨x19, s19⟩ : W19 (Proc.devRef .tc main_v298) = (stepsH 6 (V (Proc.devRef .tc main_arg1))).1
      ∧ W19 (Proc.devRef .tc main_v311) = (stepsH 6 (V (Proc.devRef .tc main_arg1))).2 := by
    rw [hW19]; obtain ⟨hx, hs⟩ := chunk_t6 W18 _ _ rfl rfl; exact step_next x18 s18 hx hs
  clear hW19 a18 b18 p18 q18 x18 s18 W18
  refine peel _ _ _ (Post V) fun W20 hW20 => ?_
  obtain ⟨a20, b20, p20, q20⟩ : W20 (Proc.devRef .tc main_arg0) = V (Proc.devRef .tc main_arg0)
      ∧ W20 (Proc.devRef .tc main_arg1) = V (Proc.devRef .tc main_arg1) ∧ W20 (Proc.devRef .tc main_v5) = P
      ∧ W20 (Proc.devRef .tc main_v194) = (stepsH 10 P).2 := by
    rw [hW20]; obtain ⟨h0, h1, h5, h194⟩ := keep_t7 W19
    exact ⟨h0.trans a19, h1.trans b19, h5.trans p19, h194.trans q19⟩
  obtain ⟨x20, s20⟩ : W20 (Proc.devRef .tc main_v316) = (stepsH 7 (V (Proc.devRef .tc main_arg1))).1
      ∧ W20 (Proc.devRef .tc main_v329) = (stepsH 7 (V (Proc.devRef .tc main_arg1))).2 := by
    rw [hW20]; obtain ⟨hx, hs⟩ := chunk_t7 W19 _ _ rfl rfl; exact step_next x19 s19 hx hs
  clear hW20 a19 b19 p19 q19 x19 s19 W19
  refine peel _ _ _ (Post V) fun W21 hW21 => ?_
  obtain ⟨a21, b21, p21, q21⟩ : W21 (Proc.devRef .tc main_arg0) = V (Proc.devRef .tc main_arg0)
      ∧ W21 (Proc.devRef .tc main_arg1) = V (Proc.devRef .tc main_arg1) ∧ W21 (Proc.devRef .tc main_v5) = P
      ∧ W21 (Proc.devRef .tc main_v194) = (stepsH 10 P).2 := by
    rw [hW21]; obtain ⟨h0, h1, h5, h194⟩ := keep_t8 W20
    exact ⟨h0.trans a20, h1.trans b20, h5.trans p20, h194.trans q20⟩
  obtain ⟨x21, s21⟩ : W21 (Proc.devRef .tc main_v334) = (stepsH 8 (V (Proc.devRef .tc main_arg1))).1
      ∧ W21 (Proc.devRef .tc main_v347) = (stepsH 8 (V (Proc.devRef .tc main_arg1))).2 := by
    rw [hW21]; obtain ⟨hx, hs⟩ := chunk_t8 W20 _ _ rfl rfl; exact step_next x20 s20 hx hs
  clear hW21 a20 b20 p20 q20 x20 s20 W20
  refine peel _ _ _ (Post V) fun W22 hW22 => ?_
  obtain ⟨a22, b22, p22, q22⟩ : W22 (Proc.devRef .tc main_arg0) = V (Proc.devRef .tc main_arg0)
      ∧ W22 (Proc.devRef .tc main_arg1) = V (Proc.devRef .tc main_arg1) ∧ W22 (Proc.devRef .tc main_v5) = P
      ∧ W22 (Proc.devRef .tc main_v194) = (stepsH 10 P).2 := by
    rw [hW22]; obtain ⟨h0, h1, h5, h194⟩ := keep_t9 W21
    exact ⟨h0.trans a21, h1.trans b21, h5.trans p21, h194.trans q21⟩
  obtain ⟨x22, s22⟩ : W22 (Proc.devRef .tc main_v352) = (stepsH 9 (V (Proc.devRef .tc main_arg1))).1
      ∧ W22 (Proc.devRef .tc main_v365) = (stepsH 9 (V (Proc.devRef .tc main_arg1))).2 := by
    rw [hW22]; obtain ⟨hx, hs⟩ := chunk_t9 W21 _ _ rfl rfl; exact step_next x21 s21 hx hs
  clear hW22 a21 b21 p21 q21 x21 s21 W21
  refine peel _ _ _ (Post V) fun W23 hW23 => ?_
  obtain ⟨a23, b23, p23, q23⟩ : W23 (Proc.devRef .tc main_arg0) = V (Proc.devRef .tc main_arg0)
      ∧ W23 (Proc.devRef .tc main_arg1) = V (Proc.devRef .tc main_arg1) ∧ W23 (Proc.devRef .tc main_v5) = P
      ∧ W23 (Proc.devRef .tc main_v194) = (stepsH 10 P).2 := by
    rw [hW23]; obtain ⟨h0, h1, h5, h194⟩ := keep_t10 W22
    exact ⟨h0.trans a22, h1.trans b22, h5.trans p22, h194.trans q22⟩
  have r23 : W23 (Proc.devRef .tc main_v383) = (stepsH 10 (V (Proc.devRef .tc main_arg1))).2 := by
    rw [hW23]; obtain ⟨hx, hs⟩ := chunk_t10 W22 _ _ rfl rfl; exact (step_next x22 s22 hx hs).2
  clear hW23 a22 b22 p22 q22 x22 s22 W22
  -- the four sums and the closing formula
  refine peel _ _ _ (Post V) fun W24 hW24 => ?_
  show Post V W24
  obtain ⟨a24, b24⟩ : W24 (Proc.devRef .tc main_arg0) = V (Proc.devRef .tc main_arg0)
      ∧ W24 (Proc.devRef .tc main_arg1) = V (Proc.devRef .tc main_arg1) := by
    rw [hW24]; obtain ⟨h0, h1⟩ := keep_tail W23; exact ⟨h0.trans a23, h1.trans b23⟩
  refine ⟨?_, a24, b24⟩
  rw [hW24, chunk_tail W23 _ _ _ _ q23 r23 p23 b23, hP]
  unfold refG
  rw [skelH_eq, skelH_eq]

/-- The contents after the whole line: the result buffer holds the reference's value of the two arguments, and the
    arguments are as they were. -/
theorem after_ops (V : Valuation τ sig (Elt F)) :
    after ops V (Proc.devRef .tc main_v401) = refG (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) :=
  after_ops_post V

/-! ## The run -/

/-- A property of every operation of every stretch, stated stretch by stretch, holds of every operation of the line. -/
theorem forall_pieces {p : HloOp τ sig (Elt F) → Prop}
    (h : (pieces (F := F)).Forall fun l => l.Forall p) : ∀ op ∈ (ops : List (HloOp τ sig (Elt F))), p op :=
  forall_flatten pieces (List.forall_iff_forall_mem.mp h)

/-- Every operation of the line touches TensorCore buffers only. -/
theorem ops_sub : (ops : List (HloOp τ sig (Elt F))).Forall fun op => op.bufs ⊆ tcRefs τ sig :=
  List.forall_iff_forall_mem.mpr (forall_pieces
    ⟨ops_sig_sub, ops_pinit_sub, ops_p1_sub, ops_p2_sub, ops_p3_sub, ops_p4_sub, ops_p5_sub, ops_p6_sub, ops_p7_sub,
      ops_p8_sub, ops_p9_sub, ops_p10_sub, ops_tinit_sub, ops_t1_sub, ops_t2_sub, ops_t3_sub, ops_t4_sub, ops_t5_sub,
      ops_t6_sub, ops_t7_sub, ops_t8_sub, ops_t9_sub, ops_t10_sub, ops_tail_sub⟩)

/-- No operation of the line allocates. -/
theorem ops_fresh : ∀ op ∈ (ops : List (HloOp τ sig (Elt F))), op.fresh = ∅ :=
  forall_pieces
    ⟨List.forall_iff_forall_mem.mpr ops_sig_fresh, List.forall_iff_forall_mem.mpr ops_pinit_fresh,
      List.forall_iff_forall_mem.mpr ops_p1_fresh, List.forall_iff_forall_mem.mpr ops_p2_fresh,
      List.forall_iff_forall_mem.mpr ops_p3_fresh, List.forall_iff_forall_mem.mpr ops_p4_fresh,
      List.forall_iff_forall_mem.mpr ops_p5_fresh, List.forall_iff_forall_mem.mpr ops_p6_fresh,
      List.forall_iff_forall_mem.mpr ops_p7_fresh, List.forall_iff_forall_mem.mpr ops_p8_fresh,
      List.forall_iff_forall_mem.mpr ops_p9_fresh, List.forall_iff_forall_mem.mpr ops_p10_fresh,
      List.forall_iff_forall_mem.mpr ops_tinit_fresh, List.forall_iff_forall_mem.mpr ops_t1_fresh,
      List.forall_iff_forall_mem.mpr ops_t2_fresh, List.forall_iff_forall_mem.mpr ops_t3_fresh,
      List.forall_iff_forall_mem.mpr ops_t4_fresh, List.forall_iff_forall_mem.mpr ops_t5_fresh,
      List.forall_iff_forall_mem.mpr ops_t6_fresh, List.forall_iff_forall_mem.mpr ops_t7_fresh,
      List.forall_iff_forall_mem.mpr ops_t8_fresh, List.forall_iff_forall_mem.mpr ops_t9_fresh,
      List.forall_iff_forall_mem.mpr ops_t10_fresh,
      (List.forall_iff_forall_mem.mpr ops_tail_fresh : (ops_tail (F := F)).Forall fun op => op.fresh = ∅)⟩

/-- On every device, for any float values, from any memory with zero counters: every weakly fair execution of the
    reference terminates with its result at `refG` of the two arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v401) = refG (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v401).trans (after_ops (launchContents m c)).1,
        (h c main_arg0).trans (after_ops (launchContents m c)).2.1,
        (h c main_arg1).trans (after_ops (launchContents m c)).2.2⟩)
    (run_seq scopedRefs_eq scopedSems_eq defs main (fun _ => ops) main_eq (fun _ => ops_sub) m ρ (fun _ => ops_fresh))

end Cert.Proof.RefRun
end
-- ==== Proof.RefWindow.lean ====
/-
  The reference's three window reductions read at an index, at the ideal instance.

  On a [32, 1, 512, 512] tensor a window of 3 along the rows (or the columns, or both), stride 1, padded by one entry on
  each side with the initial value, reads at (n, 0, h, w) the left fold of the operation, from the initial value, over
  the window's positions in row-major order: position p of the window is row h + p − 1 (the padding where that falls
  outside the image). `planeR X n` is image `n` of the tensor; the neighbour readers `up`, `down`, `left`, `right`
  are those of `Plane.lean`.
-/
import proofs.«429048_j16329465659785_3_alg».proof.Proof.RefStage
import proofs.«429048_j16329465659785_3_alg».proof.Proof.Gen.ReferenceIdeal
import proofs.«429048_j16329465659785_3_alg».proof.Proof.Plane
import Idealize.ShloMosaic.Lib.ValueIdx

noncomputable section

namespace Cert.Proof.RV

open Cert.ReferenceIdeal Cert.Proof.Ref ClDice
open Idealize.ShloMosaic Idealize.ShloMosaic.ValueIdx

/-- Image `n` of a [32, 1, 512, 512] tensor. -/
def planeR (X : FVec Ideal S32x1x512x512 .f32) (n : Fin 32) : Plane := fun h w => X (ix4 n (0 : Fin 1) h w)

/-- The padding value of a minimum window is +∞. -/
theorem posInf_apply (i : S_.Idx) : posInf (F := Ideal) i = (⊤ : EReal) := by
  unfold posInf broadcastInDim constant
  simp [Ideal.ofBits, Ideal.ieee]

/-- The padding value of a maximum window is −∞. -/
theorem negInf_apply (i : S_.Idx) : negInf (F := Ideal) i = (⊥ : EReal) := by
  unfold negInf broadcastInDim constant
  simp [Ideal.ofBits, Ideal.ieee]

/-- A left fold over three positions is three applications. -/
theorem foldl_finRange_three {β : Type} {m : Nat} (hm : m = 3) (g : β → Fin m → β) (v : β) :
    (List.finRange m).foldl g v = g (g (g v ⟨0, by omega⟩) ⟨1, by omega⟩) ⟨2, by omega⟩ := by
  subst hm; rfl

/-- A left fold over nine positions is nine applications. -/
theorem foldl_finRange_nine {β : Type} {m : Nat} (hm : m = 9) (g : β → Fin m → β) (v : β) :
    (List.finRange m).foldl g v
      = g (g (g (g (g (g (g (g (g v ⟨0, by omega⟩) ⟨1, by omega⟩) ⟨2, by omega⟩) ⟨3, by omega⟩) ⟨4, by omega⟩)
          ⟨5, by omega⟩) ⟨6, by omega⟩) ⟨7, by omega⟩) ⟨8, by omega⟩ := by
  subst hm; rfl

/-- Entry `i + k − l` of a row of 512 where that is an entry, `v` otherwise. -/
def rd1 (l k : Nat) (i : Fin 512) (f : Fin 512 → EReal) (v : EReal) : EReal :=
  if hc : l ≤ i.val + k ∧ i.val + k - l < 512 then f ⟨i.val + k - l, hc.2⟩ else v

/-- No padding, offset 0: the entry itself. -/
theorem rd1_0_0 (i : Fin 512) (f : Fin 512 → EReal) (v : EReal) : rd1 0 0 i f v = f i := by
  unfold rd1
  rw [dif_pos ⟨Nat.zero_le _, by have := i.isLt; omega⟩]
  exact congrArg f (Fin.ext (by show i.val + 0 - 0 = i.val; omega))

/-- Padding 1, offset 1: the entry itself. -/
theorem rd1_1_1 (i : Fin 512) (f : Fin 512 → EReal) (v : EReal) : rd1 1 1 i f v = f i := by
  unfold rd1
  rw [dif_pos ⟨by omega, by have := i.isLt; omega⟩]
  exact congrArg f (Fin.ext (by show i.val + 1 - 1 = i.val; omega))

/-- Padding 1, offset 0: the entry before, `v` at the first position. -/
theorem rd1_1_0 (i : Fin 512) (f : Fin 512 → EReal) (v : EReal) :
    rd1 1 0 i f v = if hh : 1 ≤ i.val then f ⟨i.val - 1, by omega⟩ else v := by
  unfold rd1
  by_cases hh : 1 ≤ i.val
  · rw [dif_pos hh, dif_pos ⟨by omega, by have := i.isLt; omega⟩]
    exact congrArg f (Fin.ext (by show i.val + 0 - 1 = i.val - 1; omega))
  · rw [dif_neg hh, dif_neg (by omega)]

/-- Padding 1, offset 2: the entry after, `v` at the last position. -/
theorem rd1_1_2 (i : Fin 512) (f : Fin 512 → EReal) (v : EReal) :
    rd1 1 2 i f v = if hh : i.val + 1 < 512 then f ⟨i.val + 1, hh⟩ else v := by
  unfold rd1
  by_cases hh : i.val + 1 < 512
  · rw [dif_pos hh, dif_pos ⟨by omega, by omega⟩]
    exact congrArg f (Fin.ext (by show i.val + 2 - 1 = i.val + 1; omega))
  · rw [dif_neg hh, dif_neg (by omega)]

/-- The padded operand read of a window reduction over a [32, 1, 512, 512] tensor at result index (n, 0, h, w), stride 1,
low padding (0, 0, lh, lw), window position (0, 0, kh, kw): the four per-axis conditions reduce to the two on the row
and on the column, and the entry read is (n, 0, h + kh − lh, w + kw − lw). -/
theorem pad_read {wh ww : Nat} (X : Img Ideal) (v : EReal) (n : Fin 32) (h w : Fin 512) (lh lw : Nat)
    (kh : Fin wh) (kw : Fin ww) (e : 4 = 4) :
    (if hin : ∀ a : Fin 4, (![0, 0, lh, lw] : Fin 4 → Nat) a
          ≤ (ix4 n (0 : Fin 1) h w (Fin.cast e a)).val * (![1, 1, 1, 1] : Fin 4 → Nat) a
              + (ix4 (0 : Fin 1) (0 : Fin 1) kh kw a).val ∧
        (ix4 n (0 : Fin 1) h w (Fin.cast e a)).val * (![1, 1, 1, 1] : Fin 4 → Nat) a
              + (ix4 (0 : Fin 1) (0 : Fin 1) kh kw a).val - (![0, 0, lh, lw] : Fin 4 → Nat) a
          < (![32, 1, 512, 512] : Fin 4 → Nat) a
      then X (fun a => ⟨(ix4 n (0 : Fin 1) h w (Fin.cast e a)).val * (![1, 1, 1, 1] : Fin 4 → Nat) a
              + (ix4 (0 : Fin 1) (0 : Fin 1) kh kw a).val - (![0, 0, lh, lw] : Fin 4 → Nat) a, (hin a).2⟩)
      else v)
    = rd1 lh kh.val h (fun h' => rd1 lw kw.val w (fun w' => X (ix4 n 0 h' w')) v) v := by
  unfold rd1
  by_cases hc1 : lh ≤ h.val + kh.val ∧ h.val + kh.val - lh < 512
  · by_cases hc2 : lw ≤ w.val + kw.val ∧ w.val + kw.val - lw < 512
    · rw [dif_pos hc1]; beta_reduce; rw [dif_pos hc2]
      split_ifs with hin
      · refine congrArg X (funext fun a => ?_)
        match a with
        | ⟨0, _⟩ => exact Fin.ext (by show n.val * 1 + 0 - 0 = n.val; omega)
        | ⟨1, _⟩ => exact Fin.ext (by show 0 * 1 + 0 - 0 = 0; omega)
        | ⟨2, _⟩ => exact Fin.ext (by show h.val * 1 + kh.val - lh = h.val + kh.val - lh; omega)
        | ⟨3, _⟩ => exact Fin.ext (by show w.val * 1 + kw.val - lw = w.val + kw.val - lw; omega)
      · exfalso
        apply hin
        intro a
        match a with
        | ⟨0, _⟩ => exact ⟨Nat.zero_le _, by show n.val * 1 + 0 - 0 < 32; omega⟩
        | ⟨1, _⟩ => exact ⟨Nat.zero_le _, by show 0 * 1 + 0 - 0 < 1; omega⟩
        | ⟨2, _⟩ => exact ⟨by show lh ≤ h.val * 1 + kh.val; omega, by show h.val * 1 + kh.val - lh < 512; omega⟩
        | ⟨3, _⟩ => exact ⟨by show lw ≤ w.val * 1 + kw.val; omega, by show w.val * 1 + kw.val - lw < 512; omega⟩
    · rw [dif_pos hc1]; beta_reduce; rw [dif_neg hc2]
      split_ifs with hin
      · exfalso
        have p3 : (3 : Nat) < 4 := by omega
        have h3 : lw ≤ w.val * 1 + kw.val ∧ w.val * 1 + kw.val - lw < 512 := hin ⟨3, p3⟩
        exact hc2 (by omega)
      · rfl
  · rw [dif_neg hc1]
    split_ifs with hin
    · exfalso
      have p2 : (2 : Nat) < 4 := by omega
      have h2 : lh ≤ h.val * 1 + kh.val ∧ h.val * 1 + kh.val - lh < 512 := hin ⟨2, p2⟩
      exact hc1 (by omega)
    · rfl

/-- Position `kh · b + kw` of a `1 × 1 × a × b` window in row-major order has coordinates `(0, 0, kh, kw)`. -/
theorem win_symm {a b : Nat} (k : Nat) (hk : k < (⟨4, ![1, 1, a, b]⟩ : Shape).numel) (kh : Fin a) (kw : Fin b)
    (e : k = kh.val * b + kw.val) :
    (⟨4, ![1, 1, a, b]⟩ : Shape).rowMajor.symm ⟨k, hk⟩ = ix4 (0 : Fin 1) (0 : Fin 1) kh kw := by
  rw [Equiv.symm_apply_eq]
  apply Fin.ext
  rw [Shape.rowMajor_val_four]
  subst e
  show _ = ((0 * 1 + 0) * a + kh.val) * b + kw.val
  simp

/-- The three window shapes have 3, 3 and 9 positions. -/
theorem numel_rows : (⟨4, ![1, 1, 3, 1]⟩ : Shape).numel = 3 := by
  simp [Shape.numel, Fin.prod_univ_succ]
theorem numel_cols : (⟨4, ![1, 1, 1, 3]⟩ : Shape).numel = 3 := by
  simp [Shape.numel, Fin.prod_univ_succ]
theorem numel_sq : (⟨4, ![1, 1, 3, 3]⟩ : Shape).numel = 9 := by
  simp [Shape.numel, Fin.prod_univ_succ]

/-- The three-row minimum window, folded from +∞ top to bottom. -/
theorem minRows_apply (X : Img Ideal) (n : Fin 32) (h w : Fin 512) :
    minRows (F := Ideal) X (ix4 n (0 : Fin 1) h w)
      = min (min (min ⊤ (up ⊤ (planeR X n) h w)) (planeR X n h w)) (down ⊤ (planeR X n) h w) := by
  unfold minRows Host.reduceWindow
  simp only []
  rw [foldl_finRange_three numel_rows]
  simp only [win_symm 0 _ (⟨0, by omega⟩ : Fin 3) (⟨0, by omega⟩ : Fin 1) rfl,
    win_symm 1 _ (⟨1, by omega⟩ : Fin 3) (⟨0, by omega⟩ : Fin 1) rfl,
    win_symm 2 _ (⟨2, by omega⟩ : Fin 3) (⟨0, by omega⟩ : Fin 1) rfl]
  rw [posInf_apply, pad_read, pad_read, pad_read]
  dsimp only
  simp only [rd1_0_0, rd1_1_0, rd1_1_1, rd1_1_2]
  rfl

/-- The three-column minimum window, folded from +∞ left to right. -/
theorem minCols_apply (X : Img Ideal) (n : Fin 32) (h w : Fin 512) :
    minCols (F := Ideal) X (ix4 n (0 : Fin 1) h w)
      = min (min (min ⊤ (left ⊤ (planeR X n) h w)) (planeR X n h w)) (right ⊤ (planeR X n) h w) := by
  unfold minCols Host.reduceWindow
  simp only []
  rw [foldl_finRange_three numel_cols]
  simp only [win_symm 0 _ (⟨0, by omega⟩ : Fin 1) (⟨0, by omega⟩ : Fin 3) rfl,
    win_symm 1 _ (⟨0, by omega⟩ : Fin 1) (⟨1, by omega⟩ : Fin 3) rfl,
    win_symm 2 _ (⟨0, by omega⟩ : Fin 1) (⟨2, by omega⟩ : Fin 3) rfl]
  rw [posInf_apply, pad_read, pad_read, pad_read]
  dsimp only
  simp only [rd1_0_0, rd1_1_0, rd1_1_1, rd1_1_2]
  rfl

/-- The 3 × 3 maximum window, folded from −∞ in row-major order. -/
theorem dilateH_apply (X : Img Ideal) (n : Fin 32) (h w : Fin 512) :
    dilateH (F := Ideal) X (ix4 n (0 : Fin 1) h w) = dilateFold (planeR X n) h w := by
  unfold dilateH Host.reduceWindow
  simp only []
  rw [foldl_finRange_nine numel_sq]
  simp only [win_symm 0 _ (⟨0, by omega⟩ : Fin 3) (⟨0, by omega⟩ : Fin 3) rfl,
    win_symm 1 _ (⟨0, by omega⟩ : Fin 3) (⟨1, by omega⟩ : Fin 3) rfl,
    win_symm 2 _ (⟨0, by omega⟩ : Fin 3) (⟨2, by omega⟩ : Fin 3) rfl,
    win_symm 3 _ (⟨1, by omega⟩ : Fin 3) (⟨0, by omega⟩ : Fin 3) rfl,
    win_symm 4 _ (⟨1, by omega⟩ : Fin 3) (⟨1, by omega⟩ : Fin 3) rfl,
    win_symm 5 _ (⟨1, by omega⟩ : Fin 3) (⟨2, by omega⟩ : Fin 3) rfl,
    win_symm 6 _ (⟨2, by omega⟩ : Fin 3) (⟨0, by omega⟩ : Fin 3) rfl,
    win_symm 7 _ (⟨2, by omega⟩ : Fin 3) (⟨1, by omega⟩ : Fin 3) rfl,
    win_symm 8 _ (⟨2, by omega⟩ : Fin 3) (⟨2, by omega⟩ : Fin 3) rfl]
  rw [negInf_apply, pad_read, pad_read, pad_read, pad_read, pad_read, pad_read, pad_read, pad_read, pad_read]
  dsimp only
  simp only [rd1_1_0, rd1_1_1, rd1_1_2]
  rfl

end Cert.Proof.RV

end
-- ==== Proof.RefPlanes.lean ====
/-
  The reference's stages plane by plane, at the ideal instance: on image `n` of the batch each stage is the
  corresponding operation of `Plane.lean` on that image alone, so the skeleton of the batch is the skeleton of each
  image; and the total sum is the sum over the images of the sum over each image.
-/
import proofs.«429048_j16329465659785_3_alg».proof.Proof.RefWindow
import Idealize.ShloMosaic.PureOps.Ideal.Laws

noncomputable section

namespace Cert.Proof.RV

open Cert.ReferenceIdeal Cert.Proof.Ref ClDice
open Idealize.ShloMosaic Idealize.ShloMosaic.ValueIdx

/-- A constant tensor reads, at every index, the extended real its word encodes. -/
theorem splat_apply (b : BitVec 32) (i : S32x1x512x512.Idx) : splat (F := Ideal) b i = Ideal.ofBits .f32 b := rfl

/-- The zero word encodes 0. -/
theorem splat_zero_apply (i : S32x1x512x512.Idx) : splat (F := Ideal) 0x00000000#32 i = 0 := by
  rw [splat_apply]; exact Ideal.ofBits_zero_f32

/-- The word 0x3F800000 encodes 1. -/
theorem splat_one_apply (i : S32x1x512x512.Idx) : splat (F := Ideal) 0x3F800000#32 i = 1 := by
  rw [splat_apply]
  simp [Ideal.ofBits, Ideal.ieee, -EReal.coe_mul]; norm_num

/-- relu at an index is the maximum with 0. -/
theorem reluH_apply (X : Img Ideal) (i : S32x1x512x512.Idx) : reluH (F := Ideal) X i = max (X i) 0 := by
  unfold reluH
  rw [maximumf_apply, splat_zero_apply]

theorem erodeH_plane (X : Img Ideal) (n : Fin 32) : planeR (erodeH (F := Ideal) X) n = erodeP (planeR X n) := by
  funext h w
  show erodeH (F := Ideal) X (ix4 n (0 : Fin 1) h w) = _
  unfold erodeH
  -- the minimum of the two folded windows is the erosion written as a fold
  rw [minimumf_apply, minRows_apply, minCols_apply]
  exact congrFun (congrFun (erodeFold_eq (planeR X n)) h) w

theorem dilateH_plane (X : Img Ideal) (n : Fin 32) : planeR (dilateH (F := Ideal) X) n = dilateP (planeR X n) := by
  funext h w
  show dilateH (F := Ideal) X (ix4 n (0 : Fin 1) h w) = _
  rw [dilateH_apply, dilateFold_eq]

theorem deltaH_plane (X : Img Ideal) (n : Fin 32) : planeR (deltaH (F := Ideal) X) n = deltaP (planeR X n) := by
  funext h w
  show deltaH (F := Ideal) X (ix4 n (0 : Fin 1) h w) = _
  unfold deltaH
  rw [reluH_apply, subf_apply]
  -- the opening of the batch, read on image n, is the opening of image n
  show max (planeR X n h w - planeR (dilateH (erodeH X)) n h w) 0 = _
  rw [dilateH_plane, erodeH_plane]
  rfl

theorem accH_plane (S D : Img Ideal) (n : Fin 32) : planeR (accH (F := Ideal) S D) n = accP (planeR S n) (planeR D n) := by
  funext h w
  show accH (F := Ideal) S D (ix4 n (0 : Fin 1) h w) = _
  unfold accH
  rw [addf_apply, reluH_apply, subf_apply, mulf_apply]
  rfl

/-- The host's 1 / (1 + exp (−x)) is the logistic function. -/
theorem sigH_plane (X : Img Ideal) (n : Fin 32) : planeR (sigH (F := Ideal) X) n = sigP (planeR X n) := by
  funext h w
  show sigH (F := Ideal) X (ix4 n (0 : Fin 1) h w) = _
  unfold sigH
  show Ideal.div (splat (F := Ideal) 0x3F800000#32 _) (splat (F := Ideal) 0x3F800000#32 _ + Ideal.exp (-(X (ix4 n (0 : Fin 1) h w)))) = _
  rw [splat_one_apply]
  rfl

/-- After any number of steps the pair the batch carries, read on image `n`, is the pair image `n` carries. -/
theorem stepH_iterate_plane (n : Fin 32) (k : ℕ) : ∀ (X S : Img Ideal),
    (planeR ((stepH (F := Ideal))^[k] (X, S)).1 n, planeR ((stepH (F := Ideal))^[k] (X, S)).2 n)
      = stepR^[k] (planeR X n, planeR S n) := by
  induction k with
  | zero => intro X S; rfl
  | succ k ih =>
    intro X S
    rw [Function.iterate_succ_apply, Function.iterate_succ_apply]
    -- one step erodes the image and adds the eroded image's difference, on the batch as on each image
    have h := ih (erodeH X) (accH S (deltaH (erodeH X)))
    rw [accH_plane, deltaH_plane, erodeH_plane] at h
    exact h

/-- The batch's skeleton is each image's skeleton. -/
theorem skelH_plane (X : Img Ideal) (n : Fin 32) : planeR (skelH (F := Ideal) X) n = skelP (planeR X n) := by
  unfold skelH
  have h := stepH_iterate_plane n 10 X (deltaH X)
  rw [deltaH_plane] at h
  -- the recurrence that carries the image itself gives the same skeleton as the one that carries its erosion
  rw [← skelR_eq]
  unfold skelR
  exact congrArg Prod.snd h

/-- A product of two tensors, plane by plane. -/
theorem mulf_plane (X Y : Img Ideal) (n : Fin 32) (h w : Fin 512) :
    planeR (mulf X Y) n h w = planeR X n h w * planeR Y n h w := rfl

/-- The index set of a [32, 1, 512, 512] tensor is the product of the image, row and column ranges
(the second axis has one coordinate). -/
def idxEquivImg : S32x1x512x512.Idx ≃ Fin 32 × Fin 512 × Fin 512 where
  toFun i := (i 0, i 2, i 3)
  invFun p := ix4 p.1 (0 : Fin 1) p.2.1 p.2.2
  left_inv i := by
    funext a
    match a with
    | ⟨0, _⟩ => rfl
    | ⟨1, _⟩ => exact Subsingleton.elim (α := Fin 1) _ _
    | ⟨2, _⟩ => rfl
    | ⟨3, _⟩ => rfl
  right_inv _ := rfl

/-- The total sum: the zero initial value plus the sum over images, rows and columns. -/
theorem sumH_eq (X : Img Ideal) (i : S_.Idx) :
    sumH (F := Ideal) X i = 0 + ∑ n : Fin 32, ∑ h : Fin 512, ∑ w : Fin 512, planeR X n h w := by
  unfold sumH Host.reduceAdd
  show Ideal.hostReduceAdd _ X (Ideal.ofBits .f32 0x00000000#32) i = _
  -- a reduction into the rank-zero shape is the initial value plus the sum of every entry
  rw [Ideal.hostReduceAdd_total _ (fun b => b.elim0), Ideal.ofBits_zero_f32]
  congr 1
  -- the entries are indexed by image, row and column
  rw [← Equiv.sum_comp idxEquivImg.symm X, Fintype.sum_prod_type]
  refine Finset.sum_congr rfl fun n _ => ?_
  rw [Fintype.sum_prod_type]
  rfl

end Cert.Proof.RV

end
-- ==== Proof.RefValue.lean ====
/-
  The reference's four total sums, at the ideal instance, as the four sums over its 32 image pairs.
-/
import proofs.«429048_j16329465659785_3_alg».proof.Proof.RefPlanes
import proofs.«429048_j16329465659785_3_alg».proof.Proof.Sums

noncomputable section

namespace Cert.Proof.RV

open Cert.ReferenceIdeal Cert.Proof.Ref ClDice
open Idealize.ShloMosaic Idealize.ShloMosaic.ValueIdx

/-- The first of the four sums. -/
theorem sums4_zero {B : Nat} (pp tt : Fin B → Plane) :
    sums4 pp tt 0 = ∑ b : Fin B, ∑ h : Fin 512, ∑ w : Fin 512, skelP (sigP (pp b)) h w * tt b h w := by
  unfold sums4; simp only [Matrix.cons_val_zero]

/-- The second of the four sums. -/
theorem sums4_one {B : Nat} (pp tt : Fin B → Plane) :
    sums4 pp tt 1 = ∑ b : Fin B, ∑ h : Fin 512, ∑ w : Fin 512, skelP (sigP (pp b)) h w := by
  unfold sums4; simp only [Matrix.cons_val_one, Matrix.cons_val_zero]

/-- The third of the four sums. -/
theorem sums4_two {B : Nat} (pp tt : Fin B → Plane) :
    sums4 pp tt 2 = ∑ b : Fin B, ∑ h : Fin 512, ∑ w : Fin 512, skelP (tt b) h w * sigP (pp b) h w := by
  unfold sums4; simp only [Matrix.cons_val]

/-- The fourth of the four sums. -/
theorem sums4_three {B : Nat} (pp tt : Fin B → Plane) :
    sums4 pp tt 3 = ∑ b : Fin B, ∑ h : Fin 512, ∑ w : Fin 512, skelP (tt b) h w := by
  unfold sums4; simp only [Matrix.cons_val]

/-- Each of the reference's four sums, read at the rank-zero index: zero plus the corresponding sum over the 32 image pairs. -/
theorem ref_sums (P T : Img Ideal) (i : S_.Idx) :
    sumH (F := Ideal) (mulf (skelH (sigH P)) T) i = 0 + sums4 (planeR P) (planeR T) 0
    ∧ sumH (F := Ideal) (skelH (sigH P)) i = 0 + sums4 (planeR P) (planeR T) 1
    ∧ sumH (F := Ideal) (mulf (skelH T) (sigH P)) i = 0 + sums4 (planeR P) (planeR T) 2
    ∧ sumH (F := Ideal) (skelH T) i = 0 + sums4 (planeR P) (planeR T) 3 := by
  -- each total sum is zero plus the sum over images, rows and columns; entry by entry the batch's stages are the image's
  refine ⟨?_, ?_, ?_, ?_⟩
  · rw [sumH_eq, sums4_zero]
    refine congrArg (fun s : EReal => 0 + s) ?_
    refine Finset.sum_congr rfl fun n _ => Finset.sum_congr rfl fun h _ => Finset.sum_congr rfl fun w _ => ?_
    rw [mulf_plane, skelH_plane, sigH_plane]
  · rw [sumH_eq, sums4_one]
    refine congrArg (fun s : EReal => 0 + s) ?_
    refine Finset.sum_congr rfl fun n _ => Finset.sum_congr rfl fun h _ => Finset.sum_congr rfl fun w _ => ?_
    rw [skelH_plane, sigH_plane]
  · rw [sumH_eq, sums4_two]
    refine congrArg (fun s : EReal => 0 + s) ?_
    refine Finset.sum_congr rfl fun n _ => Finset.sum_congr rfl fun h _ => Finset.sum_congr rfl fun w _ => ?_
    rw [mulf_plane, skelH_plane, sigH_plane]
  · rw [sumH_eq, sums4_three]
    refine congrArg (fun s : EReal => 0 + s) ?_
    refine Finset.sum_congr rfl fun n _ => Finset.sum_congr rfl fun h _ => Finset.sum_congr rfl fun w _ => ?_
    rw [skelH_plane]

end Cert.Proof.RV

end
-- ==== Proof.lean ====
/-
  The proof of `Cert.Claim` for the clDice loss kernel against its jnp reference.

  Both programs compute, from predictions and targets of 32 images of 512 × 512, the four sums
      Σ skel(σ pred)·target,  Σ skel(σ pred),  Σ skel(target)·σ pred,  Σ skel(target)
  and apply one closing formula to them, where σ is the logistic function and skel the soft skeleton: ten steps of
  x ← erode x, δ ← relu(x − dilate(erode x)), skel ← skel + relu(δ − skel·δ), started at skel = relu(img − dilate(erode img)).

  The kernel works on 16 blocks of two images. It builds erode and dilate from rotations by one row or column with
  the wrapped-around entry replaced by ±∞, takes the 3 × 3 maximum separably, carries the eroded image through its loop
  so that each step erodes once, sums each block, and leaves the sum over blocks to the host. The reference erodes by a
  3 × 1 and a 1 × 3 window reduction padded with +∞, dilates by one 3 × 3 window reduction padded with −∞, erodes twice per
  step, spells the logistic function 1 / (1 + exp(−x)), and sums all 32 images at once. Over the extended reals these are
  the same function: minimum and maximum are associative and commutative with ±∞ as identities, so the window folds
  are the neighbour forms; the two recurrences differ by which of x and erode x is carried; and a finite sum can be
  taken block by block. Every image is treated separately by both, so everything is proved on one image
  (`Plane.lean`) and transported to the kernel's blocks (`KernelPools`, `KernelSums`, `KernelFold`, `KernelArray`,
  `KernelTail`) and to the reference's batch (`RefWindow`, `RefPlanes`, `RefValue`). Nothing here needs the inputs to
  be finite: no law used fails at an infinity.

  The kernel's frame: its two loops touch no memory, so each is the fold of a pure map; the body then runs straight
  through (`KernelBodyI` for the idealized program, its copy `KernelBodyB` for the word-level one). The reference's run
  is read in 24 stretches over named stages (`RefChunks`, `RefRun`). The idealization rewrote nothing, so `preserves`
  is trivial.
-/
import proofs.«429048_j16329465659785_3_alg».proof.Defs
import proofs.«429048_j16329465659785_3_alg».proof.Proof.Gen.Kernel
import proofs.«429048_j16329465659785_3_alg».proof.Proof.Gen.KernelIdeal
import proofs.«429048_j16329465659785_3_alg».proof.Proof.Gen.ReferenceIdeal
import proofs.«429048_j16329465659785_3_alg».proof.Proof.Gen.Pre_finite_inputs
import proofs.«429048_j16329465659785_3_alg».proof.Proof.KernelBodyB
import proofs.«429048_j16329465659785_3_alg».proof.Proof.KernelRun
import proofs.«429048_j16329465659785_3_alg».proof.Proof.RefRun
import proofs.«429048_j16329465659785_3_alg».proof.Proof.RefValue

noncomputable section

namespace Cert.Proof

open Idealize.ShloMosaic Idealize.SL.Sem ClDice

/-- The word-level kernel runs to the end and keeps its arguments. -/
theorem frame_k : Cert.frame_Kernel := fun m ρ _ => Cert.Proof.KB.frame (F := Bits) m ρ

/-- So does the idealized kernel. -/
theorem frame_ki : Cert.frame_KernelIdeal := fun m ρ _ => Cert.Proof.KI.frame (F := Ideal) m ρ

/-- The reference's frame is its run with the result dropped. -/
theorem frame_ri : Cert.frame_ReferenceIdeal := fun m ρ _ =>
  (θ_run Cert.ReferenceIdeal.defs _ _).mono (fun _ h c => (h c).2) (Cert.Proof.RefRun.run (F := Ideal) m ρ)

/-- The reference's result on arguments that agree with the kernel's is the kernel's result: the closing formula of
    equal sums — each of the reference's four total sums and the kernel's corresponding lane sum is zero plus the same
    sum over the 32 image pairs. -/
theorem result_eq (m : (ℓ : Loc Cert.KernelIdeal.nD Cert.KernelIdeal.τ Cert.KernelIdeal.sig) → Buf (Elt Ideal) ℓ) (c : Dev Cert.KernelIdeal.nD) :
    Cert.Proof.Ref.refG (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.Proof.KT.result m c := by
  unfold Cert.Proof.Ref.refG Cert.Proof.KT.result
  have e0 : Cert.Proof.Ref.sumH (F := Ideal) (mulf (Cert.Proof.Ref.skelH (Cert.Proof.Ref.sigH (m ((c.tc : Thread Cert.KernelIdeal.nD Cert.KernelIdeal.τ).loc Cert.KernelIdeal.main_arg0)))) (m ((c.tc : Thread Cert.KernelIdeal.nD Cert.KernelIdeal.τ).loc Cert.KernelIdeal.main_arg1)))
      = Cert.Proof.KT.laneSum (Cert.Proof.KA.outArr m c) 0 Cert.KernelIdeal.Gen.slices_S8x128_S1x1_0_0 :=
    funext fun i => ((Cert.Proof.RV.ref_sums _ _ i).1).trans (Cert.Proof.KT.kernel_sums m c 0 Cert.KernelIdeal.Gen.slices_S8x128_S1x1_0_0 i).symm
  have e1 : Cert.Proof.Ref.sumH (F := Ideal) (Cert.Proof.Ref.skelH (Cert.Proof.Ref.sigH (m ((c.tc : Thread Cert.KernelIdeal.nD Cert.KernelIdeal.τ).loc Cert.KernelIdeal.main_arg0))))
      = Cert.Proof.KT.laneSum (Cert.Proof.KA.outArr m c) 1 Cert.KernelIdeal.Gen.slices_S8x128_S1x1_0_1 :=
    funext fun i => ((Cert.Proof.RV.ref_sums _ (m ((c.tc : Thread Cert.KernelIdeal.nD Cert.KernelIdeal.τ).loc Cert.KernelIdeal.main_arg1)) i).2.1).trans (Cert.Proof.KT.kernel_sums m c 1 Cert.KernelIdeal.Gen.slices_S8x128_S1x1_0_1 i).symm
  have e2 : Cert.Proof.Ref.sumH (F := Ideal) (mulf (Cert.Proof.Ref.skelH (m ((c.tc : Thread Cert.KernelIdeal.nD Cert.KernelIdeal.τ).loc Cert.KernelIdeal.main_arg1))) (Cert.Proof.Ref.sigH (m ((c.tc : Thread Cert.KernelIdeal.nD Cert.KernelIdeal.τ).loc Cert.KernelIdeal.main_arg0))))
      = Cert.Proof.KT.laneSum (Cert.Proof.KA.outArr m c) 2 Cert.KernelIdeal.Gen.slices_S8x128_S1x1_0_2 :=
    funext fun i => ((Cert.Proof.RV.ref_sums _ _ i).2.2.1).trans (Cert.Proof.KT.kernel_sums m c 2 Cert.KernelIdeal.Gen.slices_S8x128_S1x1_0_2 i).symm
  have e3 : Cert.Proof.Ref.sumH (F := Ideal) (Cert.Proof.Ref.skelH (m ((c.tc : Thread Cert.KernelIdeal.nD Cert.KernelIdeal.τ).loc Cert.KernelIdeal.main_arg1)))
      = Cert.Proof.KT.laneSum (Cert.Proof.KA.outArr m c) 3 Cert.KernelIdeal.Gen.slices_S8x128_S1x1_0_3 :=
    funext fun i => ((Cert.Proof.RV.ref_sums (m ((c.tc : Thread Cert.KernelIdeal.nD Cert.KernelIdeal.τ).loc Cert.KernelIdeal.main_arg0)) _ i).2.2.2).trans (Cert.Proof.KT.kernel_sums m c 3 Cert.KernelIdeal.Gen.slices_S8x128_S1x1_0_3 i).symm
  rw [e0, e1, e2, e3]

/-- From memories that agree on the arguments the two idealized programs end with equal results. -/
theorem algebraic : Cert.algebraic_KernelIdeal_ReferenceIdeal := by
  intro m ρ m' ρ' _ hagree
  refine ⟨fun c => Cert.Proof.KT.result m c, Cert.Proof.KT.run_value (F := Ideal) m ρ, ?_⟩
  refine (θ_run Cert.ReferenceIdeal.defs _ _).mono (fun _ h c => ⟨(h c).1.trans ?_, (h c).2⟩)
    (Cert.Proof.RefRun.run (F := Ideal) m' ρ')
  rw [(hagree c).1, (hagree c).2]
  exact result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
